-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x55 : Shape := ⟨2, ![65536, 55]⟩
abbrev S65536x100 : Shape := ⟨2, ![65536, 100]⟩
abbrev S146x256 : Shape := ⟨2, ![146, 256]⟩
abbrev S256 : Shape := ⟨1, ![256]⟩
abbrev S256x256 : Shape := ⟨2, ![256, 256]⟩
abbrev S256x4 : Shape := ⟨2, ![256, 4]⟩
abbrev S4 : Shape := ⟨1, ![4]⟩
abbrev S_ : Shape := ⟨0, ![]⟩

class Facts : Prop where
  bcast_S_S65536x55 : S_.BroadcastsInDim S65536x55 (![] : Fin 0 → Fin S65536x55.rank)
  reducesTo_S65536x55_S_d0_1 : S65536x55.ReducesTo [0, 1] S_
  h_S_ : 0 < S_.numel
  bcast_S_S65536x100 : S_.BroadcastsInDim S65536x100 (![] : Fin 0 → Fin S65536x100.rank)
  reducesTo_S65536x100_S_d0_1 : S65536x100.ReducesTo [0, 1] S_
  bcast_S_S146x256 : S_.BroadcastsInDim S146x256 (![] : Fin 0 → Fin S146x256.rank)
  reducesTo_S146x256_S_d0_1 : S146x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x4 : S_.BroadcastsInDim S256x4 (![] : Fin 0 → Fin S256x4.rank)
  reducesTo_S256x4_S_d0_1 : S256x4.ReducesTo [0, 1] S_
  bcast_S_S4 : S_.BroadcastsInDim S4 (![] : Fin 0 → Fin S4.rank)
  reducesTo_S4_S_d0 : S4.ReducesTo [0] S_

variable [Facts]

def fn_part3 {F : FTy → Type} [FloatOps F] (main_arg11 : FVec F S4 .f32) (main_v48 : IVec S_ 1) (main_v49 : FVec F S256x4 .f32) (main_v50 : FVec F S256x4 .f32) : IVec S_ 1 :=
  let main_v51 : IVec S256x4 1 := cmpf .olt main_v49 main_v50
  let main_c_19 : IVec S_ 1 := constantI S_ 1 1#1
  let main_v52 : IVec S_ 1 := (fun x v => Host.reduce IntOp.andi x v reducesTo_S256x4_S_d0_1 h_S_) main_v51 main_c_19
  let main_v53 : IVec S_ 1 := andi main_v48 main_v52
  let main_v54 : FVec F S4 .f32 := Host.absf main_arg11
  let main_cst_20 : FVec F S_ .f32 := constant S_ .f32 0x7F800000#32
  let main_v55 : FVec F S4 .f32 := broadcastInDim S4 ![] bcast_S_S4 main_cst_20
  let main_v56 : IVec S4 1 := cmpf .olt main_v54 main_v55
  let main_c_21 : IVec S_ 1 := constantI S_ 1 1#1
  let main_v57 : IVec S_ 1 := (fun x v => Host.reduce IntOp.andi x v reducesTo_S4_S_d0 h_S_) main_v56 main_c_21
  let main_v58 : IVec S_ 1 := andi main_v53 main_v57
  main_v58

def fn_part2 {F : FTy → Type} [FloatOps F] (main_arg7 : FVec F S256 .f32) (main_arg8 : FVec F S256x4 .f32) (main_arg9 : FVec F S4 .f32) (main_arg10 : FVec F S256x4 .f32) (main_arg11 : FVec F S4 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x4 .f32 := Host.absf main_arg8
  let main_cst_14 : FVec F S_ .f32 := constant S_ .f32 0x7F800000#32
  let main_v40 : FVec F S256x4 .f32 := broadcastInDim S256x4 ![] bcast_S_S256x4 main_cst_14
  let main_v41 : IVec S256x4 1 := cmpf .olt main_v39 main_v40
  let main_c_15 : IVec S_ 1 := constantI S_ 1 1#1
  let main_v42 : IVec S_ 1 := (fun x v => Host.reduce IntOp.andi x v reducesTo_S256x4_S_d0_1 h_S_) main_v41 main_c_15
  let main_v43 : IVec S_ 1 := andi main_v38 main_v42
  let main_v44 : FVec F S4 .f32 := Host.absf main_arg9
  let main_cst_16 : FVec F S_ .f32 := constant S_ .f32 0x7F800000#32
  let main_v45 : FVec F S4 .f32 := broadcastInDim S4 ![] bcast_S_S4 main_cst_16
  let main_v46 : IVec S4 1 := cmpf .olt main_v44 main_v45
  let main_c_17 : IVec S_ 1 := constantI S_ 1 1#1
  let main_v47 : IVec S_ 1 := (fun x v => Host.reduce IntOp.andi x v reducesTo_S4_S_d0 h_S_) main_v46 main_c_17
  let main_v48 : IVec S_ 1 := andi main_v43 main_v47
  let main_v49 : FVec F S256x4 .f32 := Host.absf main_arg10
  let main_cst_18 : FVec F S_ .f32 := constant S_ .f32 0x7F800000#32
  let main_v50 : FVec F S256x4 .f32 := broadcastInDim S256x4 ![] bcast_S_S256x4 main_cst_18
  fn_part3 (F := F) main_arg11 main_v48 main_v49 main_v50

def fn_part1 {F : FTy → Type} [FloatOps F] (main_arg4 : FVec F S256x256 .f32) (main_arg5 : FVec F S256 .f32) (main_arg6 : FVec F S256x256 .f32) (main_arg7 : FVec F S256 .f32) (main_arg8 : FVec F S256x4 .f32) (main_arg9 : FVec F S4 .f32) (main_arg10 : FVec F S256x4 .f32) (main_arg11 : FVec F S4 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S65536x55 .f32) (main_arg1 : FVec F S65536x100 .f32) (main_arg2 : FVec F S146x256 .f32) (main_arg3 : FVec F S256 .f32) (main_arg4 : FVec F S256x256 .f32) (main_arg5 : FVec F S256 .f32) (main_arg6 : FVec F S256x256 .f32) (main_arg7 : FVec F S256 .f32) (main_arg8 : FVec F S256x4 .f32) (main_arg9 : FVec F S4 .f32) (main_arg10 : FVec F S256x4 .f32) (main_arg11 : FVec F S4 .f32) : IVec S_ 1 :=
  let main_v0 : FVec F S65536x55 .f32 := Host.absf main_arg0
  let main_cst : FVec F S_ .f32 := constant S_ .f32 0x7F800000#32
  let main_v1 : FVec F S65536x55 .f32 := broadcastInDim S65536x55 ![] bcast_S_S65536x55 main_cst
  let main_v2 : IVec S65536x55 1 := cmpf .olt main_v0 main_v1
  let main_c : IVec S_ 1 := constantI S_ 1 1#1
  let main_v3 : IVec S_ 1 := (fun x v => Host.reduce IntOp.andi x v reducesTo_S65536x55_S_d0_1 h_S_) main_v2 main_c
  let main_v4 : FVec F S65536x100 .f32 := Host.absf main_arg1
  let main_cst_0 : FVec F S_ .f32 := constant S_ .f32 0x7F800000#32
  let main_v5 : FVec F S65536x100 .f32 := broadcastInDim S65536x100 ![] bcast_S_S65536x100 main_cst_0
  let main_v6 : IVec S65536x100 1 := cmpf .olt main_v4 main_v5
  let main_c_1 : IVec S_ 1 := constantI S_ 1 1#1
  let main_v7 : IVec S_ 1 := (fun x v => Host.reduce IntOp.andi x v reducesTo_S65536x100_S_d0_1 h_S_) main_v6 main_c_1
  let main_v8 : IVec S_ 1 := andi main_v3 main_v7
  let main_v9 : FVec F S146x256 .f32 := Host.absf main_arg2
  let main_cst_2 : FVec F S_ .f32 := constant S_ .f32 0x7F800000#32
  let main_v10 : FVec F S146x256 .f32 := broadcastInDim S146x256 ![] bcast_S_S146x256 main_cst_2
  let main_v11 : IVec S146x256 1 := cmpf .olt main_v9 main_v10
  let main_c_3 : IVec S_ 1 := constantI S_ 1 1#1
  let main_v12 : IVec S_ 1 := (fun x v => Host.reduce IntOp.andi x v reducesTo_S146x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_v13 main_v16
-- ==== Kernel.lean ====
abbrev S65536x55 : Shape := ⟨2, ![65536, 55]⟩
abbrev S65536x100 : Shape := ⟨2, ![65536, 100]⟩
abbrev S146x256 : Shape := ⟨2, ![146, 256]⟩
abbrev S256 : Shape := ⟨1, ![256]⟩
abbrev S256x256 : Shape := ⟨2, ![256, 256]⟩
abbrev S256x4 : Shape := ⟨2, ![256, 4]⟩
abbrev S4 : Shape := ⟨1, ![4]⟩
abbrev S65536x4 : Shape := ⟨2, ![65536, 4]⟩
abbrev S2048x55 : Shape := ⟨2, ![2048, 55]⟩
abbrev S2048x100 : Shape := ⟨2, ![2048, 100]⟩
abbrev S2048x4 : Shape := ⟨2, ![2048, 4]⟩
abbrev S2048x10 : Shape := ⟨2, ![2048, 10]⟩
abbrev S2048x110 : Shape := ⟨2, ![2048, 110]⟩
abbrev S3x3 : Shape := ⟨2, ![3, 3]⟩
abbrev S2048x15 : Shape := ⟨2, ![2048, 15]⟩
abbrev S1x3 : Shape := ⟨2, ![1, 3]⟩
abbrev S3 : Shape := ⟨1, ![3]⟩
abbrev S2048x3 : Shape := ⟨2, ![2048, 3]⟩
abbrev S2048x18 : Shape := ⟨2, ![2048, 18]⟩
abbrev S2048x256 : Shape := ⟨2, ![2048, 256]⟩
abbrev S2048x146 : Shape := ⟨2, ![2048, 146]⟩
abbrev S1x256 : Shape := ⟨2, ![1, 256]⟩
abbrev S1x4 : Shape := ⟨2, ![1, 4]⟩

abbrev nBuf : Space → Nat
  | .hbm => 14
  | .vmem => 18
  | .smem => 0
  | _ => 0

abbrev bufTy : (tb : Table) → Fin (tcTables nBuf tb) → BufTy
  | .hbm, ⟨0, _⟩ => ⟨S65536x55, .f32⟩
  | .hbm, ⟨1, _⟩ => ⟨S65536x100, .f32⟩
  | .hbm, ⟨2, _⟩ => ⟨S146x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x4, .f32⟩
  | .hbm, ⟨9, _⟩ => ⟨S4, .f32⟩
  | .hbm, ⟨10, _⟩ => ⟨S256x4, .f32⟩
  | .hbm, ⟨11, _⟩ => ⟨S4, .f32⟩
  | .hbm, ⟨12, _⟩ => ⟨S65536x4, .f32⟩
  | .hbm, ⟨13, _⟩ => ⟨S65536x4, .f32⟩
  | .local _ .vmem, ⟨0, _⟩ => ⟨S2048x55, .f32⟩
  | .local _ .vmem, ⟨1, _⟩ => ⟨S2048x55, .f32⟩
  | .local _ .vmem, ⟨2, _⟩ => ⟨S2048x100, .f32⟩
  | .local _ .vmem, ⟨3, _⟩ => ⟨S2048x100, .f32⟩
  | .local _ .vmem, ⟨4, _⟩ => ⟨S146x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S256x256, .f32⟩
  | .local _ .vmem, ⟨9, _⟩ => ⟨S256, .f32⟩
  | .local _ .vmem, ⟨10, _⟩ => ⟨S256x4, .f32⟩
  | .local _ .vmem, ⟨11, _⟩ => ⟨S4, .f32⟩
  | .local _ .vmem, ⟨12, _⟩ => ⟨S256x4, .f32⟩
  | .local _ .vmem, ⟨13, _⟩ => ⟨S4, .f32⟩
  | .local _ .vmem, ⟨14, _⟩ => ⟨S2048x4, .f32⟩
  | .local _ .vmem, ⟨15, _⟩ => ⟨S2048x4, .f32⟩
  | .local _ .vmem, ⟨16, _⟩ => ⟨S2048x4, .f32⟩
  | .local _ .vmem, ⟨17, _⟩ => ⟨S2048x4, .f32⟩
  | _, _ => ⟨S65536x55, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x55 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S146x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2048x4 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x4 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  inb_S2048x55_S2048x55_0_0 : ∀ a, (![0, 0] : Fin 2 → Nat) a + S2048x55.size a ≤ S2048x55.size a
  h_S2048x55 : 0 < S2048x55.numel
  inb_S2048x100_S2048x100_0_0 : ∀ a, (![0, 0] : Fin 2 → Nat) a + S2048x100.size a ≤ S2048x100.size a
  h_S2048x100 : 0 < S2048x100.numel
  slices_S2048x55_o0_0_S2048x10 : S2048x55.Slices ![0, 0] S2048x10
  concatenates_S2048x100_S2048x10_S2048x110_d1 : Shape.Concatenates [S2048x100, S2048x10] S2048x110 1
  iota_S3x3_d0_w32 : S3x3.Iotas .tc 32 [0]
  iota_S3x3_d1_w32 : S3x3.Iotas .tc 32 [1]
  natLt_1_32 : 1 < 32
  slices_S2048x55_o0_10_S2048x15 : S2048x55.Slices ![0, 10] S2048x15
  slices_S3x3_o0_0_S1x3 : S3x3.Slices ![0, 0] S1x3
  shapeCasts_S1x3_S3 : S1x3.ShapeCasts S3
  shapeCasts_S3_S1x3 : S3.ShapeCasts S1x3
  broadcasts_S1x3_S2048x3 : S1x3.Broadcasts S2048x3
  concatenates_S2048x3_S2048x15_S2048x18_d1 : Shape.Concatenates [S2048x3, S2048x15] S2048x18 1
  slices_S2048x55_o0_25_S2048x15 : S2048x55.Slices ![0, 25] S2048x15
  slices_S3x3_o1_0_S1x3 : S3x3.Slices ![1, 0] S1x3
  slices_S2048x55_o0_40_S2048x15 : S2048x55.Slices ![0, 40] S2048x15
  slices_S3x3_o2_0_S1x3 : S3x3.Slices ![2, 0] S1x3
  inb_S146x256_S146x256_0_0 : ∀ a, (![0, 0] : Fin 2 → Nat) a + S146x256.size a ≤ S146x256.size a
  h_S146x256 : 0 < S146x256.numel
  bitsLt_bf16_f32 : FTy.bits .bf16 < FTy.bits .f32
  inb_S256_S256_0 : ∀ a, (![0] : Fin 1 → Nat) a + S256.size a ≤ S256.size a
  h_S256 : 0 < S256.numel
  inb_S256x256_S256x256_0_0 : ∀ a, (![0, 0] : Fin 2 → Nat) a + S256x256.size a ≤ S256x256.size a
  h_S256x256 : 0 < S256x256.numel
  concatenates_S2048x110_S2048x18_S2048x18_S2048x146_d1 : Shape.Concatenates [S2048x110, S2048x18, S2048x18] S2048x146 1
  shapeCasts_S256_S1x256 : S256.ShapeCasts S1x256
  broadcasts_S1x256_S2048x256 : S1x256.Broadcasts S2048x256
  inb_S256x4_S256x4_0_0 : ∀ a, (![0, 0] : Fin 2 → Nat) a + S256x4.size a ≤ S256x4.size a
  h_S256x4 : 0 < S256x4.numel
  inb_S4_S4_0 : ∀ a, (![0] : Fin 1 → Nat) a + S4.size a ≤ S4.size a
  h_S4 : 0 < S4.numel
  shapeCasts_S4_S1x4 : S4.ShapeCasts S1x4
  broadcasts_S1x4_S2048x4 : S1x4.Broadcasts S2048x4
  inb_S2048x4_S2048x4_0_0 : ∀ a, (![0, 0] : Fin 2 → Nat) a + S2048x4.size a ≤ S2048x4.size a
  h_S2048x4 : 0 < S2048x4.numel
  dot_S2048x146_S146x256_S2048x256_1_0_0_1_n_n_wf : DotDims.WF S2048x146 S146x256 S2048x256 [1] [0] [0] [1] [] []
  dot_S2048x256_S256x256_S2048x256_1_0_0_1_n_n_wf : DotDims.WF S2048x256 S256x256 S2048x256 [1] [0] [0] [1] [] []
  dot_S2048x256_S256x4_S2048x4_1_0_0_1_n_n_wf : DotDims.WF S2048x256 S256x4 S2048x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x55.size a ≤ S65536x55.size a
  hwx0_0 : ∀ i : grid0.Coords, EltTy.bits .f32 = 32 ∨ (Rect.block (s := S65536x55) S2048x55.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x100.size a ≤ S65536x100.size a
  hwx0_1 : ∀ i : grid0.Coords, EltTy.bits .f32 = 32 ∨ (Rect.block (s := S65536x100) S2048x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S146x256.size a ≤ S146x256.size a
  hwx0_2 : ∀ i : grid0.Coords, EltTy.bits .f32 = 32 ∨ (Rect.block (s := S146x256) S146x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x4.size a ≤ S256x4.size a
  hwx0_8 : ∀ i : grid0.Coords, EltTy.bits .f32 = 32 ∨ (Rect.block (s := S256x4) S256x4.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S4.size a ≤ S4.size a
  hwx0_9 : ∀ i : grid0.Coords, EltTy.bits .f32 = 32 ∨ (Rect.block (s := S4) S4.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x4.size a ≤ S256x4.size a
  hwx0_10 : ∀ i : grid0.Coords, EltTy.bits .f32 = 32 ∨ (Rect.block (s := S256x4) S256x4.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S4.size a ≤ S4.size a
  hwx0_11 : ∀ i : grid0.Coords, EltTy.bits .f32 = 32 ∨ (Rect.block (s := S4) S4.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2048x4.size a ≤ S65536x4.size a
  hwx0_12 : ∀ i : grid0.Coords, EltTy.bits .f32 = 32 ∨ (Rect.block (s := S65536x4) S2048x4.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048x4.size a ≤ S65536x4.size a
  hwx0_13 : ∀ i : grid0.Coords, EltTy.bits .f32 = 32 ∨ (Rect.block (s := S65536x4) S2048x4.size (cc0_transform_13 i) (hinb0_13 i)).WholeWords (EltTy.packing .f32)

variable [Facts₀]

def dot_S2048x146_S146x256_S2048x256_1_0_0_1_n_n : DotDims S2048x146 S146x256 S2048x256 where
  lhsContracting := [1]
  rhsContracting := [0]
  lhsNonContracting := [0]
  rhsNonContracting := [1]
  lhsBatch := []
  rhsBatch := []
  wf := dot_S2048x146_S146x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x4_S2048x4_1_0_0_1_n_n : DotDims S2048x256 S256x4 S2048x4 where
  lhsContracting := [1]
  rhsContracting := [0]
  lhsNonContracting := [0]
  rhsNonContracting := [1]
  lhsBatch := []
  rhsBatch := []
  wf := dot_S2048x256_S256x4_S2048x4_1_0_0_1_n_n_wf

abbrev win0_0 : Pipeline.Window sig grid0 :=
  Pipeline.Window.ofSpec (Memref.whole main_arg0) S2048x55.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S146x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256x4.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S4.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S256x4.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S4.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v0_0) S2048x4.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v0_1) S2048x4.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S65536x55 : Shape := ⟨2, ![65536, 55]⟩
abbrev S65536x100 : Shape := ⟨2, ![65536, 100]⟩
abbrev S146x256 : Shape := ⟨2, ![146, 256]⟩
abbrev S256 : Shape := ⟨1, ![256]⟩
abbrev S256x256 : Shape := ⟨2, ![256, 256]⟩
abbrev S256x4 : Shape := ⟨2, ![256, 4]⟩
abbrev S4 : Shape := ⟨1, ![4]⟩
abbrev S6 : Shape := ⟨1, ![6]⟩
abbrev S65536x10 : Shape := ⟨2, ![65536, 10]⟩
abbrev S65536x45 : Shape := ⟨2, ![65536, 45]⟩
abbrev S65536x3x15 : Shape := ⟨3, ![65536, 3, 15]⟩
abbrev S3x3 : Shape := ⟨2, ![3, 3]⟩
abbrev S_ : Shape := ⟨0, ![]⟩
abbrev S1x3x3 : Shape := ⟨3, ![1, 3, 3]⟩
abbrev S65536x3x3 : Shape := ⟨3, ![65536, 3, 3]⟩
abbrev S65536x3x18 : Shape := ⟨3, ![65536, 3, 18]⟩
abbrev S65536x110 : Shape := ⟨2, ![65536, 110]⟩
abbrev S6x1 : Shape := ⟨2, ![6, 1]⟩
abbrev S65536x6x18 : Shape := ⟨3, ![65536, 6, 18]⟩
abbrev S6x65536x18 : Shape := ⟨3, ![6, 65536, 18]⟩
abbrev S1x65536x110 : Shape := ⟨3, ![1, 65536, 110]⟩
abbrev S6x65536x110 : Shape := ⟨3, ![6, 65536, 110]⟩
abbrev S6x65536x146 : Shape := ⟨3, ![6, 65536, 146]⟩
abbrev S6x65536x256 : Shape := ⟨3, ![6, 65536, 256]⟩
abbrev S1x1x256 : Shape := ⟨3, ![1, 1, 256]⟩
abbrev S65536x256 : Shape := ⟨2, ![65536, 256]⟩
abbrev S1x256 : Shape := ⟨2, ![1, 256]⟩
abbrev S65536x4 : Shape := ⟨2, ![65536, 4]⟩
abbrev S1x4 : Shape := ⟨2, ![1, 4]⟩

abbrev nBuf : Space → Nat
  | .hbm => 86
  | .vmem => 0
  | .smem => 0
  | _ => 0

abbrev bufTy : (tb : Table) → Fin (tcTables nBuf tb) → BufTy
  | .hbm, ⟨0, _⟩ => ⟨S65536x55, .f32⟩
  | .hbm, ⟨1, _⟩ => ⟨S65536x100, .f32⟩
  | .hbm, ⟨2, _⟩ => ⟨S146x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x4, .f32⟩
  | .hbm, ⟨9, _⟩ => ⟨S4, .f32⟩
  | .hbm, ⟨10, _⟩ => ⟨S256x4, .f32⟩
  | .hbm, ⟨11, _⟩ => ⟨S4, .f32⟩
  | .hbm, ⟨12, _⟩ => ⟨S6, .i32⟩
  | .hbm, ⟨13, _⟩ => ⟨S6, .i1⟩
  | .hbm, ⟨14, _⟩ => ⟨S6, .i32⟩
  | .hbm, ⟨15, _⟩ => ⟨S6, .i1⟩
  | .hbm, ⟨16, _⟩ => ⟨S65536x10, .f32⟩
  | .hbm, ⟨17, _⟩ => ⟨S65536x45, .f32⟩
  | .hbm, ⟨18, _⟩ => ⟨S65536x3x15, .f32⟩
  | .hbm, ⟨19, _⟩ => ⟨S3x3, .i32⟩
  | .hbm, ⟨20, _⟩ => ⟨S3x3, .i32⟩
  | .hbm, ⟨21, _⟩ => ⟨S_, .i32⟩
  | .hbm, ⟨22, _⟩ => ⟨S3x3, .i32⟩
  | .hbm, ⟨23, _⟩ => ⟨S3x3, .i32⟩
  | .hbm, ⟨24, _⟩ => ⟨S3x3, .i1⟩
  | .hbm, ⟨25, _⟩ => ⟨S3x3, .f32⟩
  | .hbm, ⟨26, _⟩ => ⟨S1x3x3, .f32⟩
  | .hbm, ⟨27, _⟩ => ⟨S65536x3x3, .f32⟩
  | .hbm, ⟨28, _⟩ => ⟨S65536x3x18, .f32⟩
  | .hbm, ⟨29, _⟩ => ⟨S65536x110, .f32⟩
  | .hbm, ⟨30, _⟩ => ⟨S_, .i32⟩
  | .hbm, ⟨31, _⟩ => ⟨S6, .i32⟩
  | .hbm, ⟨32, _⟩ => ⟨S6, .i32⟩
  | .hbm, ⟨33, _⟩ => ⟨S6, .i32⟩
  | .hbm, ⟨34, _⟩ => ⟨S6x1, .i32⟩
  | .hbm, ⟨35, _⟩ => ⟨S65536x6x18, .f32⟩
  | .hbm, ⟨36, _⟩ => ⟨S6x65536x18, .f32⟩
  | .hbm, ⟨37, _⟩ => ⟨S_, .i32⟩
  | .hbm, ⟨38, _⟩ => ⟨S6, .i32⟩
  | .hbm, ⟨39, _⟩ => ⟨S6, .i32⟩
  | .hbm, ⟨40, _⟩ => ⟨S6, .i32⟩
  | .hbm, ⟨41, _⟩ => ⟨S6x1, .i32⟩
  | .hbm, ⟨42, _⟩ => ⟨S65536x6x18, .f32⟩
  | .hbm, ⟨43, _⟩ => ⟨S6x65536x18, .f32⟩
  | .hbm, ⟨44, _⟩ => ⟨S1x65536x110, .f32⟩
  | .hbm, ⟨45, _⟩ => ⟨S6x65536x110, .f32⟩
  | .hbm, ⟨46, _⟩ => ⟨S6x65536x146, .f32⟩
  | .hbm, ⟨47, _⟩ => ⟨S6x65536x256, .f32⟩
  | .hbm, ⟨48, _⟩ => ⟨S1x1x256, .f32⟩
  | .hbm, ⟨49, _⟩ => ⟨S6x65536x256, .f32⟩
  | .hbm, ⟨50, _⟩ => ⟨S6x65536x256, .f32⟩
  | .hbm, ⟨51, _⟩ => ⟨S_, .f32⟩
  | .hbm, ⟨52, _⟩ => ⟨S6x65536x256, .f32⟩
  | .hbm, ⟨53, _⟩ => ⟨S6x65536x256, .f32⟩
  | .hbm, ⟨54, _⟩ => ⟨S6x65536x256, .f32⟩
  | .hbm, ⟨55, _⟩ => ⟨S1x1x256, .f32⟩
  | .hbm, ⟨56, _⟩ => ⟨S6x65536x256, .f32⟩
  | .hbm, ⟨57, _⟩ => ⟨S6x65536x256, .f32⟩
  | .hbm, ⟨58, _⟩ => ⟨S_, .f32⟩
  | .hbm, ⟨59, _⟩ => ⟨S6x65536x256, .f32⟩
  | .hbm, ⟨60, _⟩ => ⟨S6x65536x256, .f32⟩
  | .hbm, ⟨61, _⟩ => ⟨S_, .f32⟩
  | .hbm, ⟨62, _⟩ => ⟨S65536x256, .f32⟩
  | .hbm, ⟨63, _⟩ => ⟨S65536x256, .f32⟩
  | .hbm, ⟨64, _⟩ => ⟨S1x256, .f32⟩
  | .hbm, ⟨65, _⟩ => ⟨S65536x256, .f32⟩
  | .hbm, ⟨66, _⟩ => ⟨S65536x256, .f32⟩
  | .hbm, ⟨67, _⟩ => ⟨S_, .f32⟩
  | .hbm, ⟨68, _⟩ => ⟨S65536x256, .f32⟩
  | .hbm, ⟨69, _⟩ => ⟨S65536x256, .f32⟩
  | .hbm, ⟨70, _⟩ => ⟨S65536x4, .f32⟩
  | .hbm, ⟨71, _⟩ => ⟨S1x4, .f32⟩
  | .hbm, ⟨72, _⟩ => ⟨S65536x4, .f32⟩
  | .hbm, ⟨73, _⟩ => ⟨S65536x4, .f32⟩
  | .hbm, ⟨74, _⟩ => ⟨S65536x4, .f32⟩
  | .hbm, ⟨75, _⟩ => ⟨S1x4, .f32⟩
  | .hbm, ⟨76, _⟩ => ⟨S65536x4, .f32⟩
  | .hbm, ⟨77, _⟩ => ⟨S65536x4, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S65536x4, .f32⟩
  | .hbm, ⟨82, _⟩ => ⟨S65536x4, .f32⟩
  | .hbm, ⟨83, _⟩ => ⟨S_, .f32⟩
  | .hbm, ⟨84, _⟩ => ⟨S65536x4, .f32⟩
  | .hbm, ⟨85, _⟩ => ⟨S65536x4, .f32⟩
  | _, _ => ⟨S65536x55, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_c_0 : Ref sig .tc := ⟨.hbm, 13, rfl⟩
abbrev main_c_1 : Ref sig .tc := ⟨.hbm, 14, rfl⟩
abbrev main_c_2 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c_3 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call0_cst : Ref sig .tc := ⟨.hbm, 51, rfl⟩
abbrev main_call0_v0 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_call1_cst : Ref sig .tc := ⟨.hbm, 58, rfl⟩
abbrev main_call1_v0 : Ref sig .tc := ⟨.hbm, 59, rfl⟩
abbrev main_v37 : Ref sig .tc := ⟨.hbm, 60, rfl⟩
abbrev main_cst : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_call2_cst : Ref sig .tc := ⟨.hbm, 67, rfl⟩
abbrev main_call2_v0 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_6 : Ref sig .tc := ⟨.hbm, 78, rfl⟩
abbrev main_cst_7 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_v52 : Ref sig .tc := ⟨.hbm, 85, rfl⟩

abbrev nD : Nat := 1
abbrev τ : Topo := Topo.v7x

variable {F : FTy → Type} [FloatOps F]

class Facts₀ : Prop where
  slices_S65536x55_S65536x10_0_0 : S65536x55.Slices ![0, 0] S65536x10
  slices_S65536x55_S65536x45_0_10 : S65536x55.Slices ![0, 10] S65536x45
  shapeCasts_S65536x45_S65536x3x15 : S65536x45.ShapeCasts S65536x3x15
  bcast_S_S3x3 : S_.BroadcastsInDim S3x3 (![] : Fin 0 → Fin S3x3.rank)
  bcast_S3x3_S1x3x3_1_2 : S3x3.BroadcastsInDim S1x3x3 (![1, 2] : Fin 2 → Fin S1x3x3.rank)
  bcast_S1x3x3_S65536x3x3_0_1_2 : S1x3x3.BroadcastsInDim S65536x3x3 (![0, 1, 2] : Fin 3 → Fin S65536x3x3.rank)
  concatenates_S65536x3x3_S65536x3x15_S65536x3x18_d2 : Shape.Concatenates [S65536x3x3, S65536x3x15] S65536x3x18 2
  concatenates_S65536x100_S65536x10_S65536x110_d1 : Shape.Concatenates [S65536x100, S65536x10] S65536x110 1
  bcast_S_S6 : S_.BroadcastsInDim S6 (![] : Fin 0 → Fin S6.rank)
  bcast_S6_S6x1_0 : S6.BroadcastsInDim S6x1 (![0] : Fin 1 → Fin S6x1.rank)
  transposes_S65536x6x18_S6x65536x18_1_0_2 : S65536x6x18.Transposes [1, 0, 2] S6x65536x18
  bcast_S65536x110_S1x65536x110_1_2 : S65536x110.BroadcastsInDim S1x65536x110 (![1, 2] : Fin 2 → Fin S1x65536x110.rank)
  bcast_S1x65536x110_S6x65536x110_0_1_2 : S1x65536x110.BroadcastsInDim S6x65536x110 (![0, 1, 2] : Fin 3 → Fin S6x65536x110.rank)
  concatenates_S6x65536x110_S6x65536x18_S6x65536x18_S6x65536x146_d2 : Shape.Concatenates [S6x65536x110, S6x65536x18, S6x65536x18] S6x65536x146 2
  bcast_S256_S1x1x256_2 : S256.BroadcastsInDim S1x1x256 (![2] : Fin 1 → Fin S1x1x256.rank)
  bcast_S1x1x256_S6x65536x256_0_1_2 : S1x1x256.BroadcastsInDim S6x65536x256 (![0, 1, 2] : Fin 3 → Fin S6x65536x256.rank)
  bcast_S_S6x65536x256 : S_.BroadcastsInDim S6x65536x256 (![] : Fin 0 → Fin S6x65536x256.rank)
  reducesTo_S6x65536x256_S65536x256_d0 : S6x65536x256.ReducesTo [0] S65536x256
  h_S_ : 0 < S_.numel
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  bcast_S4_S1x4_1 : S4.BroadcastsInDim S1x4 (![1] : Fin 1 → Fin S1x4.rank)
  bcast_S1x4_S65536x4_0_1 : S1x4.BroadcastsInDim S65536x4 (![0, 1] : Fin 2 → Fin S65536x4.rank)
  bcast_S_S65536x4 : S_.BroadcastsInDim S65536x4 (![] : Fin 0 → Fin S65536x4.rank)
  gather_S65536x3x18_S6x1_S65536x6x18_02_1_n_n_1_1_65536118_wf : GatherDims.WF S65536x3x18 S6x1 S65536x6x18 [0, 2] [1] [] [1] [] 1 ![65536, 1, 18]
  dot_S6x65536x146_S146x256_S6x65536x256_2_0_01_1_n_n_wf : DotDims.WF S6x65536x146 S146x256 S6x65536x256 [2] [0] [0, 1] [1] [] []
  dot_S6x65536x256_S256x256_S6x65536x256_2_0_01_1_n_n_wf : DotDims.WF S6x65536x256 S256x256 S6x65536x256 [2] [0] [0, 1] [1] [] []
  dot_S65536x256_S256x256_S65536x256_1_0_0_1_n_n_wf : DotDims.WF S65536x256 S256x256 S65536x256 [1] [0] [0] [1] [] []
  dot_S65536x256_S256x4_S65536x4_1_0_0_1_n_n_wf : DotDims.WF S65536x256 S256x4 S65536x4 [1] [0] [0] [1] [] []

variable [Facts₀]

def gather_S65536x3x18_S6x1_S65536x6x18_02_1_n_n_1_1_65536118 : GatherDims S65536x3x18 S6x1 S65536x6x18 where
  offsetDims := [0, 2]
  collapsedSliceDims := [1]
  operandBatchingDims := []
  startIndicesBatchingDims := []
  startIndexMap := [1]
  indexVectorDim := 1
  sliceSizes := ![65536, 1, 18]
  wf := gather_S65536x3x18_S6x1_S65536x6x18_02_1_n_n_1_1_65536118_wf
def dot_S6x65536x146_S146x256_S6x65536x256_2_0_01_1_n_n : DotDims S6x65536x146 S146x256 S6x65536x256 where
  lhsContracting := [2]
  rhsContracting := [0]
  lhsNonContracting := [0, 1]
  rhsNonContracting := [1]
  lhsBatch := []
  rhsBatch := []
  wf := dot_S6x65536x146_S146x256_S6x65536x256_2_0_01_1_n_n_wf
def dot_S6x65536x256_S256x256_S6x65536x256_2_0_01_1_n_n : DotDims S6x65536x256 S256x256 S6x65536x256 where
  lhsContracting := [2]
  rhsContracting := [0]
  lhsNonContracting := [0, 1]
  rhsNonContracting := [1]
  lhsBatch := []
  rhsBatch := []
  wf := dot_S6x65536x256_S256x256_S6x65536x256_2_0_01_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S65536x256_S256x4_S65536x4_1_0_0_1_n_n : DotDims S65536x256 S256x4 S65536x4 where
  lhsContracting := [1]
  rhsContracting := [0]
  lhsNonContracting := [0]
  rhsNonContracting := [1]
  lhsBatch := []
  rhsBatch := []
  wf := dot_S65536x256_S256x4_S65536x4_1_0_0_1_n_n_wf

class Facts : Prop extends Facts₀ where

variable [Facts]
-- ==== Proof.Spec.lean ====
/-
  The actor network as mathematics, one batch row at a time, on the extended reals.

  A row of the observation has 55 entries: ten body features, then three objects of fifteen features each.
  Object `o` is presented to the network as eighteen numbers: the one-hot code of `o` among three, then its
  fifteen features.  A row of the pair input for the ordered pair `(oi, oj)` has 146 entries: the language
  embedding (100), the body features (10), object `oi` (18), object `oj` (18).  Each of the six ordered pairs
  of distinct objects goes through the same two dense layers with ReLU; the six outputs are added; the sum goes
  through one more dense layer with ReLU and then two linear heads, the second clipped to [-20, 2].
  Everything here is a function of ONE row of the observation and of the embedding, and of the weights.
-/
import Idealize.ShloMosaic.PureOps.Ideal
import Idealize.ShloMosaic.Lib.ValueIdx

noncomputable section

namespace Actor

open Idealize.ShloMosaic Idealize.ShloMosaic.ValueIdx

/-- Entry `j` of object `o` as the network sees it: the one-hot code of `o` (entries 0, 1, 2), then the
    object's fifteen features, which sit in the observation row from position `10 + 15 o` on. -/
def objRow (obs : Fin 55 → EReal) (o : Fin 3) (j : Fin 18) : EReal :=
  if _h : j.val < 3 then (if j.val = o.val then 1 else 0)
  else obs ⟨10 + 15 * o.val + (j.val - 3), by have := o.isLt; have := j.isLt; omega⟩

/-- The part of a pair input shared by all pairs: the language embedding, then the ten body features. -/
def baseRow (obs : Fin 55 → EReal) (lemb : Fin 100 → EReal) (k : Fin 110) : EReal :=
  if h : k.val < 100 then lemb ⟨k.val, h⟩ else obs ⟨k.val - 100, by have := k.isLt; omega⟩

/-- One row of the pair input for the ordered pair `(oi, oj)`: shared part, object `oi`, object `oj`. -/
def pairRow (obs : Fin 55 → EReal) (lemb : Fin 100 → EReal) (oi oj : Fin 3) (k : Fin 146) : EReal :=
  if h : k.val < 110 then baseRow obs lemb ⟨k.val, h⟩
  else if h2 : k.val < 128 then objRow obs oi ⟨k.val - 110, by omega⟩
  else objRow obs oj ⟨k.val - 128, by have := k.isLt; omega⟩

/-- A dense layer on one row: `x · W + b` at output unit `h`. -/
def dense {K H : Nat} (x : Fin K → EReal) (W : Fin K → Fin H → EReal) (b : Fin H → EReal) (h : Fin H) : EReal :=
  (∑ k : Fin K, x k * W k h) + b h

/-- ReLU. -/
def relu (x : EReal) : EReal := max x 0

/-- First objects of the six ordered pairs. -/
def pairI : Fin 6 → Fin 3 := ![0, 0, 1, 1, 2, 2]
/-- Second objects of the six ordered pairs. -/
def pairJ : Fin 6 → Fin 3 := ![1, 2, 0, 2, 0, 1]

section
variable (obs : Fin 55 → EReal) (lemb : Fin 100 → EReal)
  (W1 : Fin 146 → Fin 256 → EReal) (b1 : Fin 256 → EReal) (W2 : Fin 256 → Fin 256 → EReal) (b2 : Fin 256 → EReal)
  (R1 : Fin 256 → Fin 256 → EReal) (rb1 : Fin 256 → EReal)

/-- The hidden layer of the pair network on the pair `(oi, oj)`. -/
def hid (oi oj : Fin 3) (h : Fin 256) : EReal := relu (dense (pairRow obs lemb oi oj) W1 b1 h)

/-- The pair network on the pair `(oi, oj)`: two dense layers, ReLU after each. -/
def phi (oi oj : Fin 3) (o : Fin 256) : EReal := relu (dense (hid obs lemb W1 b1 oi oj) W2 b2 o)

/-- The six pair outputs added up. -/
def agg (o : Fin 256) : EReal := ∑ p : Fin 6, phi obs lemb W1 b1 W2 b2 (pairI p) (pairJ p) o

/-- The aggregate through one more dense layer with ReLU. -/
def rho (h : Fin 256) : EReal := relu (dense (agg obs lemb W1 b1 W2 b2) R1 rb1 h)

/-- The mean head: linear. -/
def meanRow (MW : Fin 256 → Fin 4 → EReal) (mb : Fin 4 → EReal) (a : Fin 4) : EReal :=
  dense (rho obs lemb W1 b1 W2 b2 R1 rb1) MW mb a

/-- The log-std head: linear, then clipped to [-20, 2] (the two bounds as the binary32 words both programs carry). -/
def lstdRow (LW : Fin 256 → Fin 4 → EReal) (lb : Fin 4 → EReal) (a : Fin 4) : EReal :=
  min (Ideal.ofBits .f32 0x40000000#32) (max (Ideal.ofBits .f32 0xC1A00000#32) (dense (rho obs lemb W1 b1 W2 b2 R1 rb1) LW lb a))
end

/-! ## From arrays to rows -/

/-- Row `b` of a matrix. -/
abbrev rowOf {n k : Nat} (X : (⟨2, ![n, k]⟩ : Shape).Idx → EReal) (b : Fin n) : Fin k → EReal := fun j => X (ix2 b j)
/-- A matrix as a function of two coordinates. -/
abbrev mat {k h : Nat} (W : (⟨2, ![k, h]⟩ : Shape).Idx → EReal) : Fin k → Fin h → EReal := fun a b => W (ix2 a b)
/-- A vector as a function of its coordinate. -/
abbrev vec {h : Nat} (v : (⟨1, ![h]⟩ : Shape).Idx → EReal) : Fin h → EReal := fun a => v (ix1 a)

section
variable (obs : (⟨2, ![65536, 55]⟩ : Shape).Idx → EReal) (lemb : (⟨2, ![65536, 100]⟩ : Shape).Idx → EReal)
  (W1 : (⟨2, ![146, 256]⟩ : Shape).Idx → EReal) (b1 : (⟨1, ![256]⟩ : Shape).Idx → EReal)
  (W2 : (⟨2, ![256, 256]⟩ : Shape).Idx → EReal) (b2 : (⟨1, ![256]⟩ : Shape).Idx → EReal)
  (R1 : (⟨2, ![256, 256]⟩ : Shape).Idx → EReal) (rb1 : (⟨1, ![256]⟩ : Shape).Idx → EReal)

/-- The whole mean output: row `b`, action `a`. -/
def meanArr (MW : (⟨2, ![256, 4]⟩ : Shape).Idx → EReal) (mb : (⟨1, ![4]⟩ : Shape).Idx → EReal) :
    (⟨2, ![65536, 4]⟩ : Shape).Idx → EReal :=
  fun i => meanRow (rowOf obs (i 0)) (rowOf lemb (i 0)) (mat W1) (vec b1) (mat W2) (vec b2) (mat R1) (vec rb1) (mat MW) (vec mb) (i 1)

/-- The whole log-std output. -/
def lstdArr (LW : (⟨2, ![256, 4]⟩ : Shape).Idx → EReal) (lb : (⟨1, ![4]⟩ : Shape).Idx → EReal) :
    (⟨2, ![65536, 4]⟩ : Shape).Idx → EReal :=
  fun i => lstdRow (rowOf obs (i 0)) (rowOf lemb (i 0)) (mat W1) (vec b1) (mat W2) (vec b2) (mat R1) (vec rb1) (mat LW) (vec lb) (i 1)
end

end Actor

end
-- ==== Proof.KernelInput.lean ====
/-
  The kernel's block of pair inputs, read one entry at a time.

  Inside the kernel a block of 2048 batch rows is turned into the three 18-wide object rows (one-hot code of the
  object, then its fifteen features cut out of the observation block) and the 110-wide shared row (embedding,
  then the ten body features); each pair input is three of these laid side by side.  Every one of these values at
  row `r` depends on row `r` of the two loaded blocks only, and is the corresponding row function of `Actor`.
-/
import proofs.«166104_j69887707840990_1_alg».proof.Proof.Gen.KernelIdeal.Skeleton
import proofs.«166104_j69887707840990_1_alg».proof.Proof.Spec
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.Rows

open Cert.KernelIdeal Cert.KernelIdeal.Gen Idealize.ShloMosaic Idealize.ShloMosaic.ValueIdx Actor

/-- The word the kernel converts to a float at position `(a, b)` of the 3×3 identity: 1 on the diagonal, 0 off it. -/
theorem pay5_word : ∀ a b : Fin 3,
    ((IntOp.cmpi .eq (IntOp.addi (BitVec.ofNat 32 a.val) 0#32) (BitVec.ofNat 32 b.val)).setWidth 32).toInt
      = if a = b then 1 else 0 := by decide

/-- The 3×3 block built from the two coordinate counters is the identity matrix. -/
theorem pay5_apply (a b : Fin 3) : k0_pay5 (F := Ideal) (ix2 a b) = if a = b then 1 else 0 := by
  have h : k0_pay5 (F := Ideal) (ix2 a b)
      = (((((IntOp.cmpi .eq (IntOp.addi (BitVec.ofNat 32 a.val) 0#32) (BitVec.ofNat 32 b.val)).setWidth 32).toInt : ℤ) : ℝ) : EReal) := by
    show ((((IntOp.cmpi .eq (IntOp.addi (iota .tc S3x3 32 [0] iota_S3x3_d0_w32 (ix2 a b)) 0#32) (iota .tc S3x3 32 [1] iota_S3x3_d1_w32 (ix2 a b))).setWidth 32).toInt : ℝ) : EReal) = _
    rw [iota_single_apply, iota_single_apply]
  rw [h, pay5_word]
  split <;> simp

/-- Row `on` of the identity, cut out, recast and copied down 2048 rows, reads `1` at column `on` and `0` elsewhere. -/
theorem onehot_apply (o : Fin 3) (on : Nat) (hon : o.val = on) (hs : S3x3.Slices ![on, 0] S1x3) (r : Fin 2048) (c : Fin 3) :
    broadcastTo S2048x3 (shapeCast S1x3 (shapeCast S3 (extractStridedSlice S1x3 ![on, 0] (k0_pay5 (F := Ideal)) hs)
      shapeCasts_S1x3_S3) shapeCasts_S3_S1x3) broadcasts_S1x3_S2048x3 (ix2 r c) = if o = c then 1 else 0 := by
  rw [broadcastTo_1b_ab_apply, shapeCast_a_1a_apply, shapeCast_1a_a_apply,
    slice2_axis0_apply on _ hs (0 : Fin 1) c o (by simpa using hon), pay5_apply]

/-- An object's row: the one-hot code beside the fifteen features cut from the observation row at `off`. -/
theorem obj_apply (x0 : Vec Ideal S2048x55 .f32) (o : Fin 3) (on off : Nat) (hon : o.val = on) (hoff : off = 10 + 15 * o.val)
    (hs1 : S3x3.Slices ![on, 0] S1x3) (hs2 : S2048x55.Slices ![0, off] S2048x15) (r : Fin 2048) (j : Fin 18) :
    concatenate S2048x18 1
      [⟨S2048x3, broadcastTo S2048x3 (shapeCast S1x3 (shapeCast S3 (extractStridedSlice S1x3 ![on, 0] (k0_pay5 (F := Ideal)) hs1)
        shapeCasts_S1x3_S3) shapeCasts_S3_S1x3) broadcasts_S1x3_S2048x3⟩,
       ⟨S2048x15, extractStridedSlice S2048x15 ![0, off] x0 hs2⟩]
      concatenates_S2048x3_S2048x15_S2048x18_d1 (ix2 r j) = objRow (rowOf x0 r) o j := by
  unfold objRow
  have hj := j.isLt
  have ho := o.isLt
  by_cases h : j.val < 3
  · rw [dif_pos h, concatenate_pair_apply_left (t := S2048x18) (s₁ := S2048x3) (s₂ := S2048x15) 1 _ _ _ (ix2 r j) rfl
      (ix2 r (⟨j.val, h⟩ : Fin 3)) (fun b => by
        match b with
        | ⟨0, _⟩ => rfl
        | ⟨1, _⟩ => rfl), onehot_apply o on hon hs1]
    by_cases e : j.val = o.val
    · rw [if_pos e, if_pos (Fin.ext e.symm)]
    · rw [if_neg e, if_neg (fun e' => e (by rw [e']))]
  · rw [dif_neg h, concatenate_pair_apply_right (t := S2048x18) (s₁ := S2048x3) (s₂ := S2048x15) 1 _ _ _ (ix2 r j) rfl rfl
      (ix2 r (⟨j.val - 3, by omega⟩ : Fin 15)) (fun b hb => by
        match b with
        | ⟨0, _⟩ => rfl
        | ⟨1, _⟩ => exact absurd rfl hb) (by show (j.val - 3) + 3 = j.val; omega)]
    exact slice2_axis1_apply off x0 hs2 r _ _ (by show 10 + 15 * o.val + (j.val - 3) = off + (j.val - 3); omega)

/-- The shared part of the pair inputs at row `r`, entry `k`: the embedding block's row, then the first ten
    entries of the observation block's row. -/
theorem pay4_apply (x0 : Vec Ideal S2048x55 .f32) (x1 : Vec Ideal S2048x100 .f32) (r : Fin 2048) (k : Fin 110) :
    k0_pay4 x0 x1 (ix2 r k) = baseRow (rowOf x0 r) (rowOf x1 r) k := by
  unfold k0_pay4 baseRow
  by_cases h : k.val < 100
  · rw [dif_pos h]
    exact concatenate_pair_apply_left (t := S2048x110) (s₁ := S2048x100) (s₂ := S2048x10) 1 x1 _ _ (ix2 r k) rfl (ix2 r ⟨k.val, h⟩) (fun b => by
      match b with
      | ⟨0, _⟩ => rfl
      | ⟨1, _⟩ => rfl)
  · rw [dif_neg h]
    have hk := k.isLt
    rw [concatenate_pair_apply_right (t := S2048x110) (s₁ := S2048x100) (s₂ := S2048x10) 1 x1 _ _ (ix2 r k) rfl rfl (ix2 r (⟨k.val - 100, by omega⟩ : Fin 10)) (fun b hb => by
      match b with
      | ⟨0, _⟩ => rfl
      | ⟨1, _⟩ => exact absurd rfl hb) (by show (k.val - 100) + 100 = k.val; omega)]
    exact slice2_axis1_apply 0 x0 _ r _ _ (by simp)

/-- Object 0 at row `r`: its one-hot code, then entries 10..24 of the observation row. -/
theorem pay6_apply (x0 : Vec Ideal S2048x55 .f32) (r : Fin 2048) (j : Fin 18) :
    k0_pay6 x0 (ix2 r j) = objRow (rowOf x0 r) 0 j := by
  exact obj_apply x0 0 0 10 rfl rfl _ _ r j

/-- Object 1 at row `r`: its one-hot code, then entries 25..39 of the observation row. -/
theorem pay7_apply (x0 : Vec Ideal S2048x55 .f32) (r : Fin 2048) (j : Fin 18) :
    k0_pay7 x0 (ix2 r j) = objRow (rowOf x0 r) 1 j := by
  exact obj_apply x0 1 1 25 rfl rfl _ _ r j

/-- Object 2 at row `r`: its one-hot code, then entries 40..54 of the observation row. -/
theorem pay8_apply (x0 : Vec Ideal S2048x55 .f32) (r : Fin 2048) (j : Fin 18) :
    k0_pay8 x0 (ix2 r j) = objRow (rowOf x0 r) 2 j := by
  exact obj_apply x0 2 2 40 rfl rfl _ _ r j

/-- Three pieces of widths 110, 18, 18 laid side by side, read at column `k`. -/
theorem concat3_apply (v3 : FVec Ideal S2048x110 .f32) (vi vj : FVec Ideal S2048x18 .f32) (r : Fin 2048) (k : Fin 146) :
    concatenate S2048x146 1 [⟨S2048x110, v3⟩, ⟨S2048x18, vi⟩, ⟨S2048x18, vj⟩] concatenates_S2048x110_S2048x18_S2048x18_S2048x146_d1 (ix2 r k)
      = if h : k.val < 110 then v3 (ix2 r ⟨k.val, h⟩)
        else if h2 : k.val < 128 then vi (ix2 r ⟨k.val - 110, by omega⟩)
        else vj (ix2 r ⟨k.val - 128, by have := k.isLt; omega⟩) := by
  have hk := k.isLt
  by_cases h : k.val < 110
  · rw [dif_pos h]
    exact concatenate_apply_piece (t := S2048x146) 1 [⟨S2048x110, v3⟩, ⟨S2048x18, vi⟩, ⟨S2048x18, vj⟩] _ (ix2 r k)
      0 (by simp) S2048x110 v3 rfl rfl 0 rfl (ix2 r (⟨k.val, h⟩ : Fin 110)) (fun b hb => by
        match b with
        | ⟨0, _⟩ => rfl
        | ⟨1, _⟩ => exact absurd rfl hb) (by show 0 + k.val = k.val; omega)
  · rw [dif_neg h]
    by_cases h2 : k.val < 128
    · rw [dif_pos h2]
      exact concatenate_apply_piece (t := S2048x146) 1 [⟨S2048x110, v3⟩, ⟨S2048x18, vi⟩, ⟨S2048x18, vj⟩] _ (ix2 r k)
        1 (by simp) S2048x18 vi rfl rfl 110 rfl (ix2 r (⟨k.val - 110, by omega⟩ : Fin 18)) (fun b hb => by
          match b with
          | ⟨0, _⟩ => rfl
          | ⟨1, _⟩ => exact absurd rfl hb) (by show 110 + (k.val - 110) = k.val; omega)
    · rw [dif_neg h2]
      exact concatenate_apply_piece (t := S2048x146) 1 [⟨S2048x110, v3⟩, ⟨S2048x18, vi⟩, ⟨S2048x18, vj⟩] _ (ix2 r k)
        2 (by simp) S2048x18 vj rfl rfl 128 rfl (ix2 r (⟨k.val - 128, by omega⟩ : Fin 18)) (fun b hb => by
          match b with
          | ⟨0, _⟩ => rfl
          | ⟨1, _⟩ => exact absurd rfl hb) (by show 128 + (k.val - 128) = k.val; omega)

end Cert.KernelIdeal.Rows

end
-- ==== Proof.KernelDense.lean ====
/-
  The kernel's dense layers, read one entry at a time, and the whole body as a row function.

  A block product into a zero accumulator, plus a bias row repeated down the block, at row `r` and output unit `h`
  is `Actor.dense` of row `r` of the left operand.  Rounding to the narrower float format is the identity on the
  extended reals, so it disappears.  The body then is: six times (pair input → dense+ReLU → dense+ReLU), added up from zero,
  → dense+ReLU → the two heads; at row `r` that is `Actor.meanRow` / `Actor.lstdRow` of row `r` of the two
  row blocks.
-/
import proofs.«166104_j69887707840990_1_alg».proof.Proof.KernelInput
import Idealize.ShloMosaic.PureOps.Ideal.Laws

noncomputable section

namespace Cert.KernelIdeal.Rows

open Cert.KernelIdeal Cert.KernelIdeal.Gen Idealize.ShloMosaic Idealize.ShloMosaic.ValueIdx Actor

/-- The aggregate of the six pair networks as the body computes it, from the loaded blocks: the name for the long
    payload term that both stores share. -/
abbrev aggPay {F : FTy → Type} [FloatOps F] (x0 : Vec F S2048x55 .f32) (x1 : Vec F S2048x100 .f32) (x2 : Vec F S146x256 .f32) (x3 : Vec F S256 .f32)
    (x4 : Vec F S256x256 .f32) (x5 : Vec F S256 .f32) : FVec F S2048x256 .f32 :=
  k0_pay15 (k0_pay4 x0 x1) (k0_pay6 x0) (k0_pay7 x0) (k0_pay8 x0) (k0_pay9 x2) x3 (k0_pay10 x4) x5
    (k0_pay13 (k0_pay4 x0 x1) (k0_pay6 x0) (k0_pay7 x0) (k0_pay8 x0) (k0_pay9 x2) x3 (k0_pay10 x4) x5 (k0_pay11 (F := F)) (k0_pay12 x0 x1 x2 x3))
    (k0_pay14 (k0_pay4 x0 x1) (k0_pay7 x0) (k0_pay8 x0) (k0_pay9 x2) x3)

/-- The bias row repeated down a [2048,256] block reads the bias at the column. -/
theorem bias256_apply (b : Vec Ideal S256 .f32) (r : Fin 2048) (h : Fin 256) :
    broadcastTo S2048x256 (shapeCast S1x256 b shapeCasts_S256_S1x256) broadcasts_S1x256_S2048x256 (ix2 r h) = b (ix1 h) := by
  rw [broadcastTo_1b_ab_apply, shapeCast_a_1a_apply]

/-- The bias row repeated down a [2048,4] block reads the bias at the column. -/
theorem bias4_apply (b : Vec Ideal S4 .f32) (r : Fin 2048) (a : Fin 4) :
    broadcastTo S2048x4 (shapeCast S1x4 b shapeCasts_S4_S1x4) broadcasts_S1x4_S2048x4 (ix2 r a) = b (ix1 a) := by
  rw [broadcastTo_1b_ab_apply, shapeCast_a_1a_apply]

/-- The block product into zeros at row `r`, column `h`: the sum over the contracted coordinate. -/
theorem mm146_apply (X : FVec Ideal S2048x146 .bf16) (W : FVec Ideal S146x256 .bf16) (r : Fin 2048) (h : Fin 256) :
    matmul dot_S2048x146_S146x256_S2048x256_1_0_0_1_n_n none X W (constant S2048x256 .f32 0x00000000#32) (ix2 r h)
      = ∑ k : Fin 146, X (ix2 r k) * W (ix2 k h) := by
  show FloatOps.matmul _ none X W _ (ix2 r h) = _
  rw [Ideal.matmul_constant_zero_apply, ← Equiv.sum_comp (contrEquiv1 dot_S2048x146_S146x256_S2048x256_1_0_0_1_n_n 146 rfl rfl).symm]
  refine Finset.sum_congr rfl fun c _ => ?_
  have c2 := contrEquiv1_symm_val dot_S2048x146_S146x256_S2048x256_1_0_0_1_n_n 146 rfl rfl c
  have l2 : dot_S2048x146_S146x256_S2048x256_1_0_0_1_n_n.lhsIdx (ix2 r h) ((contrEquiv1 _ 146 rfl rfl).symm c) = ix2 r c := by
    funext ax; apply Fin.ext
    match ax with
    | ⟨0, _⟩ => simp [DotDims.lhsIdx, dot_S2048x146_S146x256_S2048x256_1_0_0_1_n_n]; rfl
    | ⟨1, _⟩ => simp [DotDims.lhsIdx, dot_S2048x146_S146x256_S2048x256_1_0_0_1_n_n]; exact c2
  have r2 : dot_S2048x146_S146x256_S2048x256_1_0_0_1_n_n.rhsIdx (ix2 r h) ((contrEquiv1 _ 146 rfl rfl).symm c) = ix2 c h := by
    funext ax; apply Fin.ext
    match ax with
    | ⟨0, _⟩ => simp [DotDims.rhsIdx, dot_S2048x146_S146x256_S2048x256_1_0_0_1_n_n]; exact c2
    | ⟨1, _⟩ => simp [DotDims.rhsIdx, dot_S2048x146_S146x256_S2048x256_1_0_0_1_n_n]; rfl
  rw [l2, r2]

/-- The block product into zeros at row `r`, column `h`: the sum over the contracted coordinate. -/
theorem mm256_apply (X : FVec Ideal S2048x256 .bf16) (W : FVec Ideal S256x256 .bf16) (r : Fin 2048) (h : Fin 256) :
    matmul dot_S2048x256_S256x256_S2048x256_1_0_0_1_n_n none X W (constant S2048x256 .f32 0x00000000#32) (ix2 r h)
      = ∑ k : Fin 256, X (ix2 r k) * W (ix2 k h) := by
  show FloatOps.matmul _ none X W _ (ix2 r h) = _
  rw [Ideal.matmul_constant_zero_apply, ← Equiv.sum_comp (contrEquiv1 dot_S2048x256_S256x256_S2048x256_1_0_0_1_n_n 256 rfl rfl).symm]
  refine Finset.sum_congr rfl fun c _ => ?_
  have c2 := contrEquiv1_symm_val dot_S2048x256_S256x256_S2048x256_1_0_0_1_n_n 256 rfl rfl c
  have l2 : dot_S2048x256_S256x256_S2048x256_1_0_0_1_n_n.lhsIdx (ix2 r h) ((contrEquiv1 _ 256 rfl rfl).symm c) = ix2 r c := by
    funext ax; apply Fin.ext
    match ax with
    | ⟨0, _⟩ => simp [DotDims.lhsIdx, dot_S2048x256_S256x256_S2048x256_1_0_0_1_n_n]; rfl
    | ⟨1, _⟩ => simp [DotDims.lhsIdx, dot_S2048x256_S256x256_S2048x256_1_0_0_1_n_n]; exact c2
  have r2 : dot_S2048x256_S256x256_S2048x256_1_0_0_1_n_n.rhsIdx (ix2 r h) ((contrEquiv1 _ 256 rfl rfl).symm c) = ix2 c h := by
    funext ax; apply Fin.ext
    match ax with
    | ⟨0, _⟩ => simp [DotDims.rhsIdx, dot_S2048x256_S256x256_S2048x256_1_0_0_1_n_n]; exact c2
    | ⟨1, _⟩ => simp [DotDims.rhsIdx, dot_S2048x256_S256x256_S2048x256_1_0_0_1_n_n]; rfl
  rw [l2, r2]

/-- The block product into zeros at row `r`, column `h`: the sum over the contracted coordinate. -/
theorem mm4_apply (X : FVec Ideal S2048x256 .bf16) (W : FVec Ideal S256x4 .bf16) (r : Fin 2048) (h : Fin 4) :
    matmul dot_S2048x256_S256x4_S2048x4_1_0_0_1_n_n none X W (constant S2048x4 .f32 0x00000000#32) (ix2 r h)
      = ∑ k : Fin 256, X (ix2 r k) * W (ix2 k h) := by
  show FloatOps.matmul _ none X W _ (ix2 r h) = _
  rw [Ideal.matmul_constant_zero_apply, ← Equiv.sum_comp (contrEquiv1 dot_S2048x256_S256x4_S2048x4_1_0_0_1_n_n 256 rfl rfl).symm]
  refine Finset.sum_congr rfl fun c _ => ?_
  have c2 := contrEquiv1_symm_val dot_S2048x256_S256x4_S2048x4_1_0_0_1_n_n 256 rfl rfl c
  have l2 : dot_S2048x256_S256x4_S2048x4_1_0_0_1_n_n.lhsIdx (ix2 r h) ((contrEquiv1 _ 256 rfl rfl).symm c) = ix2 r c := by
    funext ax; apply Fin.ext
    match ax with
    | ⟨0, _⟩ => simp [DotDims.lhsIdx, dot_S2048x256_S256x4_S2048x4_1_0_0_1_n_n]; rfl
    | ⟨1, _⟩ => simp [DotDims.lhsIdx, dot_S2048x256_S256x4_S2048x4_1_0_0_1_n_n]; exact c2
  have r2 : dot_S2048x256_S256x4_S2048x4_1_0_0_1_n_n.rhsIdx (ix2 r h) ((contrEquiv1 _ 256 rfl rfl).symm c) = ix2 c h := by
    funext ax; apply Fin.ext
    match ax with
    | ⟨0, _⟩ => simp [DotDims.rhsIdx, dot_S2048x256_S256x4_S2048x4_1_0_0_1_n_n]; exact c2
    | ⟨1, _⟩ => simp [DotDims.rhsIdx, dot_S2048x256_S256x4_S2048x4_1_0_0_1_n_n]; rfl
  rw [l2, r2]

/-- Block product of a [2048,146] block with a [146,256] matrix into zeros, plus the bias row: `dense` of the row. -/
theorem dense146_apply (X : FVec Ideal S2048x146 .bf16) (W : FVec Ideal S146x256 .bf16) (b : Vec Ideal S256 .f32) (r : Fin 2048) (h : Fin 256) :
    addf (matmul dot_S2048x146_S146x256_S2048x256_1_0_0_1_n_n none X W (constant S2048x256 .f32 0x00000000#32))
        (broadcastTo S2048x256 (shapeCast S1x256 b shapeCasts_S256_S1x256) broadcasts_S1x256_S2048x256) (ix2 r h)
      = dense (rowOf X r) (mat W) (vec b) h := by
  rw [addf_apply, mm146_apply, bias256_apply]
  rfl

/-- The same for a [2048,256] block and a [256,256] matrix. -/
theorem dense256_apply (X : FVec Ideal S2048x256 .bf16) (W : FVec Ideal S256x256 .bf16) (b : Vec Ideal S256 .f32) (r : Fin 2048) (h : Fin 256) :
    addf (matmul dot_S2048x256_S256x256_S2048x256_1_0_0_1_n_n none X W (constant S2048x256 .f32 0x00000000#32))
        (broadcastTo S2048x256 (shapeCast S1x256 b shapeCasts_S256_S1x256) broadcasts_S1x256_S2048x256) (ix2 r h)
      = dense (rowOf X r) (mat W) (vec b) h := by
  rw [addf_apply, mm256_apply, bias256_apply]
  rfl

/-- The same for a [2048,256] block and a [256,4] matrix (the two heads). -/
theorem dense4_apply (X : FVec Ideal S2048x256 .bf16) (W : FVec Ideal S256x4 .bf16) (b : Vec Ideal S4 .f32) (r : Fin 2048) (a : Fin 4) :
    addf (matmul dot_S2048x256_S256x4_S2048x4_1_0_0_1_n_n none X W (constant S2048x4 .f32 0x00000000#32))
        (broadcastTo S2048x4 (shapeCast S1x4 b shapeCasts_S4_S1x4) broadcasts_S1x4_S2048x4) (ix2 r a)
      = dense (rowOf X r) (mat W) (vec b) a := by
  rw [addf_apply, mm4_apply, bias4_apply]
  rfl

/-- The zero scalar broadcast over a block is the extended real zero. -/
theorem zeroBlock_apply (s : Shape) (i : s.Idx) :
    broadcast s (Scalar.ofBits (F := Ideal) .f32 0x00000000#32) i = (0 : EReal) := by
  rw [broadcast_apply]
  exact Ideal.ofBits_zero_f32

/-- A dense layer with ReLU on a [2048,146] block, at row `r`, unit `h`. -/
theorem relu146_apply (X : FVec Ideal S2048x146 .bf16) (W : FVec Ideal S146x256 .bf16) (b : Vec Ideal S256 .f32) (r : Fin 2048) (h : Fin 256) :
    maximumf (addf (matmul dot_S2048x146_S146x256_S2048x256_1_0_0_1_n_n none X W (constant S2048x256 .f32 0x00000000#32))
        (broadcastTo S2048x256 (shapeCast S1x256 b shapeCasts_S256_S1x256) broadcasts_S1x256_S2048x256))
      (broadcast S2048x256 (Scalar.ofBits (F := Ideal) .f32 0x00000000#32)) (ix2 r h)
      = relu (dense (rowOf X r) (mat W) (vec b) h) := by
  rw [maximumf_apply, dense146_apply, zeroBlock_apply]
  rfl

/-- A dense layer with ReLU on a [2048,256] block, at row `r`, unit `h`. -/
theorem relu256_apply (X : FVec Ideal S2048x256 .bf16) (W : FVec Ideal S256x256 .bf16) (b : Vec Ideal S256 .f32) (r : Fin 2048) (h : Fin 256) :
    maximumf (addf (matmul dot_S2048x256_S256x256_S2048x256_1_0_0_1_n_n none X W (constant S2048x256 .f32 0x00000000#32))
        (broadcastTo S2048x256 (shapeCast S1x256 b shapeCasts_S256_S1x256) broadcasts_S1x256_S2048x256))
      (broadcast S2048x256 (Scalar.ofBits (F := Ideal) .f32 0x00000000#32)) (ix2 r h)
      = relu (dense (rowOf X r) (mat W) (vec b) h) := by
  rw [maximumf_apply, dense256_apply, zeroBlock_apply]
  rfl

/-- The pair input block: shared part, then two object pieces, at row `r`, is the pair row, when the pieces are
    the object rows. -/
theorem pairIn_apply (x0 : Vec Ideal S2048x55 .f32) (x1 : Vec Ideal S2048x100 .f32) (vi vj : FVec Ideal S2048x18 .f32) (oi oj : Fin 3)
    (hi : ∀ (r : Fin 2048) (j : Fin 18), vi (ix2 r j) = objRow (rowOf x0 r) oi j)
    (hj : ∀ (r : Fin 2048) (j : Fin 18), vj (ix2 r j) = objRow (rowOf x0 r) oj j) (r : Fin 2048) :
    rowOf (truncf .bf16 (concatenate S2048x146 1 [⟨S2048x110, k0_pay4 x0 x1⟩, ⟨S2048x18, vi⟩, ⟨S2048x18, vj⟩]
        concatenates_S2048x110_S2048x18_S2048x18_S2048x146_d1) bitsLt_bf16_f32) r
      = pairRow (rowOf x0 r) (rowOf x1 r) oi oj := by
  funext k
  show concatenate S2048x146 1 [⟨S2048x110, k0_pay4 x0 x1⟩, ⟨S2048x18, vi⟩, ⟨S2048x18, vj⟩]
        concatenates_S2048x110_S2048x18_S2048x18_S2048x146_d1 (ix2 r k) = _
  rw [concat3_apply]
  unfold pairRow
  by_cases h1 : k.val < 110
  · rw [dif_pos h1, dif_pos h1, pay4_apply]
  · rw [dif_neg h1, dif_neg h1]
    by_cases h2 : k.val < 128
    · rw [dif_pos h2, dif_pos h2, hi]
    · rw [dif_neg h2, dif_neg h2, hj]

/-- The hidden layer of the pair network as the body computes it, from the three pieces. -/
abbrev hidPay (v3 : FVec Ideal S2048x110 .f32) (vi vj : FVec Ideal S2048x18 .f32) (W1 : FVec Ideal S146x256 .bf16) (b1 : Vec Ideal S256 .f32) :
    FVec Ideal S2048x256 .f32 :=
  maximumf (addf (matmul dot_S2048x146_S146x256_S2048x256_1_0_0_1_n_n none
      (truncf .bf16 (concatenate S2048x146 1 [⟨S2048x110, v3⟩, ⟨S2048x18, vi⟩, ⟨S2048x18, vj⟩]
        concatenates_S2048x110_S2048x18_S2048x18_S2048x146_d1) bitsLt_bf16_f32) W1 (constant S2048x256 .f32 0x00000000#32))
      (broadcastTo S2048x256 (shapeCast S1x256 b1 shapeCasts_S256_S1x256) broadcasts_S1x256_S2048x256))
    (broadcast S2048x256 (Scalar.ofBits (F := Ideal) .f32 0x00000000#32))

/-- The pair network as the body computes it, from the three pieces. -/
abbrev phiPay (v3 : FVec Ideal S2048x110 .f32) (vi vj : FVec Ideal S2048x18 .f32) (W1 : FVec Ideal S146x256 .bf16) (b1 : Vec Ideal S256 .f32)
    (W2 : FVec Ideal S256x256 .bf16) (b2 : Vec Ideal S256 .f32) : FVec Ideal S2048x256 .f32 :=
  maximumf (addf (matmul dot_S2048x256_S256x256_S2048x256_1_0_0_1_n_n none
      (truncf .bf16 (hidPay v3 vi vj W1 b1) bitsLt_bf16_f32) W2 (constant S2048x256 .f32 0x00000000#32))
      (broadcastTo S2048x256 (shapeCast S1x256 b2 shapeCasts_S256_S1x256) broadcasts_S1x256_S2048x256))
    (broadcast S2048x256 (Scalar.ofBits (F := Ideal) .f32 0x00000000#32))

/-- The hidden layer at row `r`. -/
theorem hidPay_apply (x0 : Vec Ideal S2048x55 .f32) (x1 : Vec Ideal S2048x100 .f32) (vi vj : FVec Ideal S2048x18 .f32) (oi oj : Fin 3)
    (hi : ∀ (r : Fin 2048) (j : Fin 18), vi (ix2 r j) = objRow (rowOf x0 r) oi j)
    (hj : ∀ (r : Fin 2048) (j : Fin 18), vj (ix2 r j) = objRow (rowOf x0 r) oj j)
    (W1 : FVec Ideal S146x256 .bf16) (b1 : Vec Ideal S256 .f32) (r : Fin 2048) :
    rowOf (truncf .bf16 (hidPay (k0_pay4 x0 x1) vi vj W1 b1) bitsLt_bf16_f32) r
      = hid (rowOf x0 r) (rowOf x1 r) (mat W1) (vec b1) oi oj := by
  funext h
  show hidPay (k0_pay4 x0 x1) vi vj W1 b1 (ix2 r h) = _
  refine (relu146_apply _ W1 b1 r h).trans ?_
  rw [pairIn_apply x0 x1 vi vj oi oj hi hj]
  rfl

/-- The pair network at row `r`, unit `o`. -/
theorem phiPay_apply (x0 : Vec Ideal S2048x55 .f32) (x1 : Vec Ideal S2048x100 .f32) (vi vj : FVec Ideal S2048x18 .f32) (oi oj : Fin 3)
    (hi : ∀ (r : Fin 2048) (j : Fin 18), vi (ix2 r j) = objRow (rowOf x0 r) oi j)
    (hj : ∀ (r : Fin 2048) (j : Fin 18), vj (ix2 r j) = objRow (rowOf x0 r) oj j)
    (W1 : FVec Ideal S146x256 .bf16) (b1 : Vec Ideal S256 .f32) (W2 : FVec Ideal S256x256 .bf16) (b2 : Vec Ideal S256 .f32)
    (r : Fin 2048) (o : Fin 256) :
    phiPay (k0_pay4 x0 x1) vi vj W1 b1 W2 b2 (ix2 r o)
      = phi (rowOf x0 r) (rowOf x1 r) (mat W1) (vec b1) (mat W2) (vec b2) oi oj o := by
  refine (relu256_apply _ W2 b2 r o).trans ?_
  rw [hidPay_apply x0 x1 vi vj oi oj hi hj]
  rfl

/-- The aggregate payload is zero plus the six pair networks, in the order (0,1), (0,2), (1,0), (1,2), (2,0), (2,1). -/
theorem aggPay_eq (x0 : Vec Ideal S2048x55 .f32) (x1 : Vec Ideal S2048x100 .f32) (x2 : Vec Ideal S146x256 .f32) (x3 : Vec Ideal S256 .f32)
    (x4 : Vec Ideal S256x256 .f32) (x5 : Vec Ideal S256 .f32) :
    aggPay x0 x1 x2 x3 x4 x5 =
      addf (addf (addf (addf (addf (addf (broadcast S2048x256 (Scalar.ofBits (F := Ideal) .f32 0x00000000#32))
        (phiPay (k0_pay4 x0 x1) (k0_pay6 x0) (k0_pay7 x0) (k0_pay9 x2) x3 (k0_pay10 x4) x5))
        (phiPay (k0_pay4 x0 x1) (k0_pay6 x0) (k0_pay8 x0) (k0_pay9 x2) x3 (k0_pay10 x4) x5))
        (phiPay (k0_pay4 x0 x1) (k0_pay7 x0) (k0_pay6 x0) (k0_pay9 x2) x3 (k0_pay10 x4) x5))
        (phiPay (k0_pay4 x0 x1) (k0_pay7 x0) (k0_pay8 x0) (k0_pay9 x2) x3 (k0_pay10 x4) x5))
        (phiPay (k0_pay4 x0 x1) (k0_pay8 x0) (k0_pay6 x0) (k0_pay9 x2) x3 (k0_pay10 x4) x5))
        (phiPay (k0_pay4 x0 x1) (k0_pay8 x0) (k0_pay7 x0) (k0_pay9 x2) x3 (k0_pay10 x4) x5) := rfl

/-- The aggregate at row `r`, unit `o`. -/
theorem aggPay_apply (x0 : Vec Ideal S2048x55 .f32) (x1 : Vec Ideal S2048x100 .f32) (x2 : Vec Ideal S146x256 .f32) (x3 : Vec Ideal S256 .f32)
    (x4 : Vec Ideal S256x256 .f32) (x5 : Vec Ideal S256 .f32) (r : Fin 2048) (o : Fin 256) :
    aggPay x0 x1 x2 x3 x4 x5 (ix2 r o) = agg (rowOf x0 r) (rowOf x1 r) (mat x2) (vec x3) (mat x4) (vec x5) o := by
  rw [aggPay_eq]
  simp only [addf_apply]
  rw [zeroBlock_apply, zero_add,
    phiPay_apply x0 x1 _ _ 0 1 (pay6_apply x0) (pay7_apply x0),
    phiPay_apply x0 x1 _ _ 0 2 (pay6_apply x0) (pay8_apply x0),
    phiPay_apply x0 x1 _ _ 1 0 (pay7_apply x0) (pay6_apply x0),
    phiPay_apply x0 x1 _ _ 1 2 (pay7_apply x0) (pay8_apply x0),
    phiPay_apply x0 x1 _ _ 2 0 (pay8_apply x0) (pay6_apply x0),
    phiPay_apply x0 x1 _ _ 2 1 (pay8_apply x0) (pay7_apply x0)]
  unfold agg
  rw [Fin.sum_univ_six]
  rfl

/-- The aggregate through the next dense layer with ReLU, at row `r`. -/
theorem rhoPay_apply (x0 : Vec Ideal S2048x55 .f32) (x1 : Vec Ideal S2048x100 .f32) (x2 : Vec Ideal S146x256 .f32) (x3 : Vec Ideal S256 .f32)
    (x4 : Vec Ideal S256x256 .f32) (x5 : Vec Ideal S256 .f32) (x6 : Vec Ideal S256x256 .f32) (x7 : Vec Ideal S256 .f32) (r : Fin 2048) :
    rowOf (k0_pay1 (aggPay x0 x1 x2 x3 x4 x5) (k0_pay16 x6) x7) r
      = rho (rowOf x0 r) (rowOf x1 r) (mat x2) (vec x3) (mat x4) (vec x5) (mat x6) (vec x7) := by
  funext h
  refine (relu256_apply (truncf .bf16 (aggPay x0 x1 x2 x3 x4 x5) bitsLt_bf16_f32) (k0_pay16 x6) x7 r h).trans ?_
  have hagg : rowOf (truncf .bf16 (aggPay x0 x1 x2 x3 x4 x5) bitsLt_bf16_f32) r
      = agg (rowOf x0 r) (rowOf x1 r) (mat x2) (vec x3) (mat x4) (vec x5) := by
    funext o
    exact aggPay_apply x0 x1 x2 x3 x4 x5 r o
  rw [hagg]
  rfl

/-- What the body stores into the mean block, at row `r`, action `a`. -/
theorem mean_block_apply (x0 : Vec Ideal S2048x55 .f32) (x1 : Vec Ideal S2048x100 .f32) (x2 : Vec Ideal S146x256 .f32) (x3 : Vec Ideal S256 .f32)
    (x4 : Vec Ideal S256x256 .f32) (x5 : Vec Ideal S256 .f32) (x6 : Vec Ideal S256x256 .f32) (x7 : Vec Ideal S256 .f32)
    (x8 : Vec Ideal S256x4 .f32) (x9 : Vec Ideal S4 .f32) (r : Fin 2048) (a : Fin 4) :
    k0_pay2 (aggPay x0 x1 x2 x3 x4 x5) (k0_pay16 x6) x7 (k0_pay17 x8) x9 (ix2 r a)
      = meanRow (rowOf x0 r) (rowOf x1 r) (mat x2) (vec x3) (mat x4) (vec x5) (mat x6) (vec x7) (mat x8) (vec x9) a := by
  refine (dense4_apply (k0_pay1 (aggPay x0 x1 x2 x3 x4 x5) (k0_pay16 x6) x7) (k0_pay17 x8) x9 r a).trans ?_
  rw [rhoPay_apply]
  rfl

/-- What the body stores into the log-std block, at row `r`, action `a`. -/
theorem lstd_block_apply (x0 : Vec Ideal S2048x55 .f32) (x1 : Vec Ideal S2048x100 .f32) (x2 : Vec Ideal S146x256 .f32) (x3 : Vec Ideal S256 .f32)
    (x4 : Vec Ideal S256x256 .f32) (x5 : Vec Ideal S256 .f32) (x6 : Vec Ideal S256x256 .f32) (x7 : Vec Ideal S256 .f32)
    (x10 : Vec Ideal S256x4 .f32) (x11 : Vec Ideal S4 .f32) (r : Fin 2048) (a : Fin 4) :
    k0_pay3 (aggPay x0 x1 x2 x3 x4 x5) (k0_pay16 x6) x7 x10 x11 (ix2 r a)
      = lstdRow (rowOf x0 r) (rowOf x1 r) (mat x2) (vec x3) (mat x4) (vec x5) (mat x6) (vec x7) (mat x10) (vec x11) a := by
  show minimumf (broadcast S2048x4 (Scalar.ofBits (F := Ideal) .f32 0x40000000#32))
      (maximumf (broadcast S2048x4 (Scalar.ofBits (F := Ideal) .f32 0xC1A00000#32))
        (addf (matmul dot_S2048x256_S256x4_S2048x4_1_0_0_1_n_n none (k0_pay1 (aggPay x0 x1 x2 x3 x4 x5) (k0_pay16 x6) x7)
            (truncf .bf16 x10 bitsLt_bf16_f32) (constant S2048x4 .f32 0x00000000#32))
          (broadcastTo S2048x4 (shapeCast S1x4 x11 shapeCasts_S4_S1x4) broadcasts_S1x4_S2048x4))) (ix2 r a) = _
  rw [minimumf_apply, maximumf_apply, dense4_apply, rhoPay_apply]
  rfl

end Cert.KernelIdeal.Rows

end
-- ==== Proof.KernelValue.lean ====
/-
  From blocks to arrays: what the kernel's run leaves in its two result arrays.

  The grid has 32 points; point `t` is handed rows `2048 t … 2048 t + 2047` of the observation and of the embedding,
  and all of every weight array, and writes back rows `2048 t … 2048 t + 2047` of the two results.  Row `r` of what it
  writes back is the row function of `Actor` at row `r` of its two row blocks, that is, at batch row `2048 t + r` of the
  arrays.  The 32 blocks tile the 65536 rows, so each result array ends as the specification's array.
-/
import proofs.«166104_j69887707840990_1_alg».proof.Proof.Gen.KernelIdeal.Value
import proofs.«166104_j69887707840990_1_alg».proof.Proof.KernelDense
import Idealize.ShloMosaic.Lib.Pipeline.Value

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Rows Idealize.ShloMosaic.ValueIdx Actor

variable (m : (ℓ : Loc nD τ sig) → Buf (Elt Ideal) ℓ) (ρ : Dev nD → PrngReg)

theorem hz1 : (![0] : Fin 1 → Nat) = fun _ => 0 := funext fun a => by fin_cases a; rfl
theorem hz2 : (![0, 0] : Fin 2 → Nat) = fun _ => 0 := funext fun a => by fin_cases a <;> rfl

/-! ## The input windows' blocks -/

/-- Window 0's block at point `t` is rows `2048 t … 2048 t + 2047` of its array. -/
theorem idx_w0 : ∀ t : Fin cfg0.N, win0_0.index t (0 : Fin 2) = t.val ∧ win0_0.index t (1 : Fin 2) = 0 :=
  (by decide +kernel : ∀ t : Fin grid0.N, _)

theorem blk0_apply (c : Dev nD) (t : Fin cfg0.N) (r : Fin 2048) (k : Fin 55) (b : Fin 65536) (hb : b.val = 2048 * t.val + r.val) :
    (iblk m c 0 t : Vec Ideal S2048x55 .f32) (ix2 r k) = (V m c main_arg0 : S65536x55.Idx → EReal) (ix2 b k) := by
  unfold iblk
  rw [View.read_apply]
  show V m c main_arg0 _ = V m c main_arg0 _
  congr 1
  funext a
  apply Fin.ext
  match a with
  | ⟨0, _⟩ => show win0_0.index t (0 : Fin 2) * 2048 + 1 * r.val = b.val; rw [(idx_w0 t).1, hb]; omega
  | ⟨1, _⟩ => show win0_0.index t (1 : Fin 2) * 55 + 1 * k.val = k.val; rw [(idx_w0 t).2]; omega

/-- Window 1's block at point `t` is rows `2048 t … 2048 t + 2047` of its array. -/
theorem idx_w1 : ∀ t : Fin cfg0.N, win0_1.index t (0 : Fin 2) = t.val ∧ win0_1.index t (1 : Fin 2) = 0 :=
  (by decide +kernel : ∀ t : Fin grid0.N, _)

theorem blk1_apply (c : Dev nD) (t : Fin cfg0.N) (r : Fin 2048) (k : Fin 100) (b : Fin 65536) (hb : b.val = 2048 * t.val + r.val) :
    (iblk m c 1 t : Vec Ideal S2048x100 .f32) (ix2 r k) = (V m c main_arg1 : S65536x100.Idx → EReal) (ix2 b k) := by
  unfold iblk
  rw [View.read_apply]
  show V m c main_arg1 _ = V m c main_arg1 _
  congr 1
  funext a
  apply Fin.ext
  match a with
  | ⟨0, _⟩ => show win0_1.index t (0 : Fin 2) * 2048 + 1 * r.val = b.val; rw [(idx_w1 t).1, hb]; omega
  | ⟨1, _⟩ => show win0_1.index t (1 : Fin 2) * 100 + 1 * k.val = k.val; rw [(idx_w1 t).2]; omega

/-- Window 2 is the whole of its array at every point. -/
theorem idx_w2 : ∀ t : Fin cfg0.N, win0_2.index t (0 : Fin 2) = 0 ∧ win0_2.index t (1 : Fin 2) = 0 :=
  (by decide +kernel : ∀ t : Fin grid0.N, _)

theorem blk2_eq (c : Dev nD) (t : Fin cfg0.N) : (iblk m c 2 t : Vec Ideal S146x256 .f32) = V m c main_arg2 := by
  funext y
  unfold iblk
  rw [View.read_apply]
  show V m c main_arg2 _ = V m c main_arg2 y
  congr 1
  funext a
  apply Fin.ext
  match a with
  | ⟨0, _⟩ => show win0_2.index t (0 : Fin 2) * 146 + 1 * (y 0).val = (y 0).val; rw [(idx_w2 t).1]; omega
  | ⟨1, _⟩ => show win0_2.index t (1 : Fin 2) * 256 + 1 * (y 1).val = (y 1).val; rw [(idx_w2 t).2]; omega

/-- Window 3 is the whole of its array at every point. -/
theorem idx_w3 : ∀ t : Fin cfg0.N, win0_3.index t (0 : Fin 1) = 0 :=
  (by decide +kernel : ∀ t : Fin grid0.N, _)

theorem blk3_eq (c : Dev nD) (t : Fin cfg0.N) : (iblk m c 3 t : Vec Ideal S256 .f32) = V m c main_arg3 := by
  funext y
  unfold iblk
  rw [View.read_apply]
  show V m c main_arg3 _ = V m c main_arg3 y
  congr 1
  funext a
  apply Fin.ext
  match a with
  | ⟨0, _⟩ => show win0_3.index t (0 : Fin 1) * 256 + 1 * (y 0).val = (y 0).val; rw [(idx_w3 t)]; omega

/-- Window 4 is the whole of its array at every point. -/
theorem idx_w4 : ∀ t : Fin cfg0.N, win0_4.index t (0 : Fin 2) = 0 ∧ win0_4.index t (1 : Fin 2) = 0 :=
  (by decide +kernel : ∀ t : Fin grid0.N, _)

theorem blk4_eq (c : Dev nD) (t : Fin cfg0.N) : (iblk m c 4 t : Vec Ideal S256x256 .f32) = V m c main_arg4 := by
  funext y
  unfold iblk
  rw [View.read_apply]
  show V m c main_arg4 _ = V m c main_arg4 y
  congr 1
  funext a
  apply Fin.ext
  match a with
  | ⟨0, _⟩ => show win0_4.index t (0 : Fin 2) * 256 + 1 * (y 0).val = (y 0).val; rw [(idx_w4 t).1]; omega
  | ⟨1, _⟩ => show win0_4.index t (1 : Fin 2) * 256 + 1 * (y 1).val = (y 1).val; rw [(idx_w4 t).2]; omega

/-- Window 5 is the whole of its array at every point. -/
theorem idx_w5 : ∀ t : Fin cfg0.N, win0_5.index t (0 : Fin 1) = 0 :=
  (by decide +kernel : ∀ t : Fin grid0.N, _)

theorem blk5_eq (c : Dev nD) (t : Fin cfg0.N) : (iblk m c 5 t : Vec Ideal S256 .f32) = V m c main_arg5 := by
  funext y
  unfold iblk
  rw [View.read_apply]
  show V m c main_arg5 _ = V m c main_arg5 y
  congr 1
  funext a
  apply Fin.ext
  match a with
  | ⟨0, _⟩ => show win0_5.index t (0 : Fin 1) * 256 + 1 * (y 0).val = (y 0).val; rw [(idx_w5 t)]; omega

/-- Window 6 is the whole of its array at every point. -/
theorem idx_w6 : ∀ t : Fin cfg0.N, win0_6.index t (0 : Fin 2) = 0 ∧ win0_6.index t (1 : Fin 2) = 0 :=
  (by decide +kernel : ∀ t : Fin grid0.N, _)

theorem blk6_eq (c : Dev nD) (t : Fin cfg0.N) : (iblk m c 6 t : Vec Ideal S256x256 .f32) = V m c main_arg6 := by
  funext y
  unfold iblk
  rw [View.read_apply]
  show V m c main_arg6 _ = V m c main_arg6 y
  congr 1
  funext a
  apply Fin.ext
  match a with
  | ⟨0, _⟩ => show win0_6.index t (0 : Fin 2) * 256 + 1 * (y 0).val = (y 0).val; rw [(idx_w6 t).1]; omega
  | ⟨1, _⟩ => show win0_6.index t (1 : Fin 2) * 256 + 1 * (y 1).val = (y 1).val; rw [(idx_w6 t).2]; omega

/-- Window 7 is the whole of its array at every point. -/
theorem idx_w7 : ∀ t : Fin cfg0.N, win0_7.index t (0 : Fin 1) = 0 :=
  (by decide +kernel : ∀ t : Fin grid0.N, _)

theorem blk7_eq (c : Dev nD) (t : Fin cfg0.N) : (iblk m c 7 t : Vec Ideal S256 .f32) = V m c main_arg7 := by
  funext y
  unfold iblk
  rw [View.read_apply]
  show V m c main_arg7 _ = V m c main_arg7 y
  congr 1
  funext a
  apply Fin.ext
  match a with
  | ⟨0, _⟩ => show win0_7.index t (0 : Fin 1) * 256 + 1 * (y 0).val = (y 0).val; rw [(idx_w7 t)]; omega

/-- Window 8 is the whole of its array at every point. -/
theorem idx_w8 : ∀ t : Fin cfg0.N, win0_8.index t (0 : Fin 2) = 0 ∧ win0_8.index t (1 : Fin 2) = 0 :=
  (by decide +kernel : ∀ t : Fin grid0.N, _)

theorem blk8_eq (c : Dev nD) (t : Fin cfg0.N) : (iblk m c 8 t : Vec Ideal S256x4 .f32) = V m c main_arg8 := by
  funext y
  unfold iblk
  rw [View.read_apply]
  show V m c main_arg8 _ = V m c main_arg8 y
  congr 1
  funext a
  apply Fin.ext
  match a with
  | ⟨0, _⟩ => show win0_8.index t (0 : Fin 2) * 256 + 1 * (y 0).val = (y 0).val; rw [(idx_w8 t).1]; omega
  | ⟨1, _⟩ => show win0_8.index t (1 : Fin 2) * 4 + 1 * (y 1).val = (y 1).val; rw [(idx_w8 t).2]; omega

/-- Window 9 is the whole of its array at every point. -/
theorem idx_w9 : ∀ t : Fin cfg0.N, win0_9.index t (0 : Fin 1) = 0 :=
  (by decide +kernel : ∀ t : Fin grid0.N, _)

theorem blk9_eq (c : Dev nD) (t : Fin cfg0.N) : (iblk m c 9 t : Vec Ideal S4 .f32) = V m c main_arg9 := by
  funext y
  unfold iblk
  rw [View.read_apply]
  show V m c main_arg9 _ = V m c main_arg9 y
  congr 1
  funext a
  apply Fin.ext
  match a with
  | ⟨0, _⟩ => show win0_9.index t (0 : Fin 1) * 4 + 1 * (y 0).val = (y 0).val; rw [(idx_w9 t)]; omega

/-- Window 10 is the whole of its array at every point. -/
theorem idx_w10 : ∀ t : Fin cfg0.N, win0_10.index t (0 : Fin 2) = 0 ∧ win0_10.index t (1 : Fin 2) = 0 :=
  (by decide +kernel : ∀ t : Fin grid0.N, _)

theorem blk10_eq (c : Dev nD) (t : Fin cfg0.N) : (iblk m c 10 t : Vec Ideal S256x4 .f32) = V m c main_arg10 := by
  funext y
  unfold iblk
  rw [View.read_apply]
  show V m c main_arg10 _ = V m c main_arg10 y
  congr 1
  funext a
  apply Fin.ext
  match a with
  | ⟨0, _⟩ => show win0_10.index t (0 : Fin 2) * 256 + 1 * (y 0).val = (y 0).val; rw [(idx_w10 t).1]; omega
  | ⟨1, _⟩ => show win0_10.index t (1 : Fin 2) * 4 + 1 * (y 1).val = (y 1).val; rw [(idx_w10 t).2]; omega

/-- Window 11 is the whole of its array at every point. -/
theorem idx_w11 : ∀ t : Fin cfg0.N, win0_11.index t (0 : Fin 1) = 0 :=
  (by decide +kernel : ∀ t : Fin grid0.N, _)

theorem blk11_eq (c : Dev nD) (t : Fin cfg0.N) : (iblk m c 11 t : Vec Ideal S4 .f32) = V m c main_arg11 := by
  funext y
  unfold iblk
  rw [View.read_apply]
  show V m c main_arg11 _ = V m c main_arg11 y
  congr 1
  funext a
  apply Fin.ext
  match a with
  | ⟨0, _⟩ => show win0_11.index t (0 : Fin 1) * 4 + 1 * (y 0).val = (y 0).val; rw [(idx_w11 t)]; omega

/-! ## The two output windows -/

theorem idx_w12 : ∀ t : Fin cfg0.N, win0_12.index t (0 : Fin 2) = t.val ∧ win0_12.index t (1 : Fin 2) = 0 :=
  (by decide +kernel : ∀ t : Fin grid0.N, _)
theorem idx_w13 : ∀ t : Fin cfg0.N, win0_13.index t (0 : Fin 2) = t.val ∧ win0_13.index t (1 : Fin 2) = 0 :=
  (by decide +kernel : ∀ t : Fin grid0.N, _)

/-- WHAT POINT `t` WRITES BACK to the mean array is block `t` of the mean array of the specification, taken of the
    argument arrays: row `r` of the block is batch row `2048 t + r`, and the weights' blocks are the whole weights. -/
theorem flushed12_eq (c : Dev nD) (t : Fin cfg0.N) :
    (dats m 0 c).flushed 12 t = ((cfg0.win 12).blk t).view.read (Elt Ideal)
      (meanArr (V m c main_arg0) (V m c main_arg1) (V m c main_arg2) (V m c main_arg3) (V m c main_arg4) (V m c main_arg5)
        (V m c main_arg6) (V m c main_arg7) (V m c main_arg8) (V m c main_arg9)) := by
  rw [Value.flushed12]
  unfold out0_12
  rw [View.canon_unit_zero hz2]
  simp only [View.ld_unit_zero (S := S2048x55) hz2, View.ld_unit_zero (S := S2048x100) hz2, View.ld_unit_zero (S := S146x256) hz2,
    View.ld_unit_zero (S := S256) hz1, View.ld_unit_zero (S := S256x256) hz2, View.ld_unit_zero (S := S256x4) hz2, View.ld_unit_zero (S := S4) hz1]
  funext j
  obtain ⟨r, a, rfl⟩ : ∃ (r : Fin 2048) (a : Fin 4), j = ix2 r a := ⟨j 0, j 1, eq_ix2 j⟩
  have ht : t.val < 32 := lt_of_lt_of_eq t.isLt N_0
  have hemb : ((cfg0.win 12).blk t).view.emb (ix2 r a) = ix2 (⟨2048 * t.val + r.val, by have := r.isLt; omega⟩ : Fin 65536) a := by
    funext x
    apply Fin.ext
    match x with
    | ⟨0, _⟩ => show win0_12.index t (0 : Fin 2) * 2048 + 1 * r.val = 2048 * t.val + r.val; rw [(idx_w12 t).1]; omega
    | ⟨1, _⟩ => show win0_12.index t (1 : Fin 2) * 4 + 1 * a.val = a.val; rw [(idx_w12 t).2]; omega
  rw [View.read_apply, hemb]
  refine (mean_block_apply (iblk m c 0 t) (iblk m c 1 t) (iblk m c 2 t) (iblk m c 3 t) (iblk m c 4 t) (iblk m c 5 t) (iblk m c 6 t) (iblk m c 7 t)
    (iblk m c 8 t) (iblk m c 9 t) r a).trans ?_
  rw [blk2_eq, blk3_eq, blk4_eq, blk5_eq, blk6_eq, blk7_eq, blk8_eq, blk9_eq]
  have e0 : rowOf (iblk m c 0 t : Vec Ideal S2048x55 .f32) r = rowOf (V m c main_arg0 : S65536x55.Idx → EReal) ⟨2048 * t.val + r.val, by have := r.isLt; omega⟩ :=
    funext fun k => blk0_apply m c t r k _ rfl
  have e1 : rowOf (iblk m c 1 t : Vec Ideal S2048x100 .f32) r = rowOf (V m c main_arg1 : S65536x100.Idx → EReal) ⟨2048 * t.val + r.val, by have := r.isLt; omega⟩ :=
    funext fun k => blk1_apply m c t r k _ rfl
  rw [e0, e1]
  rfl

/-- An index of the mean array is in point `t`'s block iff each coordinate is in the block's range on its axis. -/
theorem mem_blk12 (t : Fin cfg0.N) (i : S65536x4.Idx) :
    i ∈ ((cfg0.win 12).blk t).view.set ↔ ∀ a : Fin 2, win0_12.index t a * S2048x4.size a ≤ (i a).val ∧ (i a).val < win0_12.index t a * S2048x4.size a + S2048x4.size a := by
  show i ∈ ((View.whole main_v0_0).slice (win0_12.rect t)).set ↔ _
  rw [View.set_slice_whole, Rect.mem_set_unit]
  exact Iff.rfl

/-- Every batch row lies in the block of the point `row / 2048`. -/
theorem cover12 (i : S65536x4.Idx) : ∃ t : Fin cfg0.N, (cfg0.win 12).flush t = true ∧ i ∈ ((cfg0.win 12).blk t).view.set := by
  have hi0 : (i 0).val < 65536 := (i 0).isLt
  have hi1 : (i 1).val < 4 := (i 1).isLt
  refine ⟨⟨(i 0).val / 2048, lt_of_lt_of_eq (by omega) N_0.symm⟩, flush0_12 _, ?_⟩
  rw [mem_blk12]
  intro a
  match a with
  | ⟨0, _⟩ => show win0_12.index _ (0 : Fin 2) * 2048 ≤ (i 0).val ∧ (i 0).val < win0_12.index _ (0 : Fin 2) * 2048 + 2048; rw [(idx_w12 _).1]; show (i 0).val / 2048 * 2048 ≤ (i 0).val ∧ (i 0).val < (i 0).val / 2048 * 2048 + 2048; omega
  | ⟨1, _⟩ => show win0_12.index _ (1 : Fin 2) * 4 ≤ (i 1).val ∧ (i 1).val < win0_12.index _ (1 : Fin 2) * 4 + 4; rw [(idx_w12 _).2]; omega

/-- THE MEAN ARRAY after the run is the mean array of the specification, taken of the argument arrays. -/
theorem final12 (c : Dev nD) : (dats m 0 c).arrAt 12 cfg0.N
    = meanArr (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) :=
  (dats m 0 c).arrAt_eq_of_cover 12 _ (fun t _ => flushed12_eq m c t) cover12

/-- WHAT POINT `t` WRITES BACK to the log-std array is block `t` of the log-std array of the specification, taken of the
    argument arrays: row `r` of the block is batch row `2048 t + r`, and the weights' blocks are the whole weights. -/
theorem flushed13_eq (c : Dev nD) (t : Fin cfg0.N) :
    (dats m 0 c).flushed 13 t = ((cfg0.win 13).blk t).view.read (Elt Ideal)
      (lstdArr (V m c main_arg0) (V m c main_arg1) (V m c main_arg2) (V m c main_arg3) (V m c main_arg4) (V m c main_arg5)
        (V m c main_arg6) (V m c main_arg7) (V m c main_arg10) (V m c main_arg11)) := by
  rw [Value.flushed13]
  unfold out0_13
  rw [View.canon_unit_zero hz2]
  simp only [View.ld_unit_zero (S := S2048x55) hz2, View.ld_unit_zero (S := S2048x100) hz2, View.ld_unit_zero (S := S146x256) hz2,
    View.ld_unit_zero (S := S256) hz1, View.ld_unit_zero (S := S256x256) hz2, View.ld_unit_zero (S := S256x4) hz2, View.ld_unit_zero (S := S4) hz1]
  funext j
  obtain ⟨r, a, rfl⟩ : ∃ (r : Fin 2048) (a : Fin 4), j = ix2 r a := ⟨j 0, j 1, eq_ix2 j⟩
  have ht : t.val < 32 := lt_of_lt_of_eq t.isLt N_0
  have hemb : ((cfg0.win 13).blk t).view.emb (ix2 r a) = ix2 (⟨2048 * t.val + r.val, by have := r.isLt; omega⟩ : Fin 65536) a := by
    funext x
    apply Fin.ext
    match x with
    | ⟨0, _⟩ => show win0_13.index t (0 : Fin 2) * 2048 + 1 * r.val = 2048 * t.val + r.val; rw [(idx_w13 t).1]; omega
    | ⟨1, _⟩ => show win0_13.index t (1 : Fin 2) * 4 + 1 * a.val = a.val; rw [(idx_w13 t).2]; omega
  rw [View.read_apply, hemb]
  refine (lstd_block_apply (iblk m c 0 t) (iblk m c 1 t) (iblk m c 2 t) (iblk m c 3 t) (iblk m c 4 t) (iblk m c 5 t) (iblk m c 6 t) (iblk m c 7 t)
    (iblk m c 10 t) (iblk m c 11 t) r a).trans ?_
  rw [blk2_eq, blk3_eq, blk4_eq, blk5_eq, blk6_eq, blk7_eq, blk10_eq, blk11_eq]
  have e0 : rowOf (iblk m c 0 t : Vec Ideal S2048x55 .f32) r = rowOf (V m c main_arg0 : S65536x55.Idx → EReal) ⟨2048 * t.val + r.val, by have := r.isLt; omega⟩ :=
    funext fun k => blk0_apply m c t r k _ rfl
  have e1 : rowOf (iblk m c 1 t : Vec Ideal S2048x100 .f32) r = rowOf (V m c main_arg1 : S65536x100.Idx → EReal) ⟨2048 * t.val + r.val, by have := r.isLt; omega⟩ :=
    funext fun k => blk1_apply m c t r k _ rfl
  rw [e0, e1]
  rfl

/-- An index of the log-std array is in point `t`'s block iff each coordinate is in the block's range on its axis. -/
theorem mem_blk13 (t : Fin cfg0.N) (i : S65536x4.Idx) :
    i ∈ ((cfg0.win 13).blk t).view.set ↔ ∀ a : Fin 2, win0_13.index t a * S2048x4.size a ≤ (i a).val ∧ (i a).val < win0_13.index t a * S2048x4.size a + S2048x4.size a := by
  show i ∈ ((View.whole main_v0_1).slice (win0_13.rect t)).set ↔ _
  rw [View.set_slice_whole, Rect.mem_set_unit]
  exact Iff.rfl

/-- Every batch row lies in the block of the point `row / 2048`. -/
theorem cover13 (i : S65536x4.Idx) : ∃ t : Fin cfg0.N, (cfg0.win 13).flush t = true ∧ i ∈ ((cfg0.win 13).blk t).view.set := by
  have hi0 : (i 0).val < 65536 := (i 0).isLt
  have hi1 : (i 1).val < 4 := (i 1).isLt
  refine ⟨⟨(i 0).val / 2048, lt_of_lt_of_eq (by omega) N_0.symm⟩, flush0_13 _, ?_⟩
  rw [mem_blk13]
  intro a
  match a with
  | ⟨0, _⟩ => show win0_13.index _ (0 : Fin 2) * 2048 ≤ (i 0).val ∧ (i 0).val < win0_13.index _ (0 : Fin 2) * 2048 + 2048; rw [(idx_w13 _).1]; show (i 0).val / 2048 * 2048 ≤ (i 0).val ∧ (i 0).val < (i 0).val / 2048 * 2048 + 2048; omega
  | ⟨1, _⟩ => show win0_13.index _ (1 : Fin 2) * 4 ≤ (i 1).val ∧ (i 1).val < win0_13.index _ (1 : Fin 2) * 4 + 4; rw [(idx_w13 _).2]; omega

/-- THE LOG-STD ARRAY after the run is the log-std array of the specification, taken of the argument arrays. -/
theorem final13 (c : Dev nD) : (dats m 0 c).arrAt 13 cfg0.N
    = lstdArr (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg10)) (m ((c : Thread nD τ).loc main_arg11)) :=
  (dats m 0 c).arrAt_eq_of_cover 13 _ (fun t _ => flushed13_eq m c t) cover13

/-! ## The run, read -/

/-- The kernel's run with both result arrays named: the specification's arrays of the arguments; the arguments unchanged. -/
theorem run : θ_run defs (onTc (τ := τ) (main (F := Ideal))) ⟨m, fun _ => 0, ρ⟩ fun r => ∀ c : Dev nD,
      r.2.mem ((c : Thread nD τ).loc main_v0_0)
          = meanArr (m ((c : Thread nD τ).loc main_arg0)) (m ((c : Thread nD τ).loc main_arg1)) (m ((c : Thread nD τ).loc main_arg2)) (m ((c : Thread nD τ).loc main_arg3))
              (m ((c : Thread nD τ).loc main_arg4)) (m ((c : Thread nD τ).loc main_arg5)) (m ((c : Thread nD τ).loc main_arg6)) (m ((c : Thread nD τ).loc main_arg7))
              (m ((c : Thread nD τ).loc main_arg8)) (m ((c : Thread nD τ).loc main_arg9))
      ∧ r.2.mem ((c : Thread nD τ).loc main_v0_1)
          = lstdArr (m ((c : Thread nD τ).loc main_arg0)) (m ((c : Thread nD τ).loc main_arg1)) (m ((c : Thread nD τ).loc main_arg2)) (m ((c : Thread nD τ).loc main_arg3))
              (m ((c : Thread nD τ).loc main_arg4)) (m ((c : Thread nD τ).loc main_arg5)) (m ((c : Thread nD τ).loc main_arg6)) (m ((c : Thread nD τ).loc main_arg7))
              (m ((c : Thread nD τ).loc main_arg10)) (m ((c : Thread nD τ).loc main_arg11))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final12 m c), (h c).2.1.trans (final13 m c), (h c).2.2⟩)
    (Cert.KernelIdeal.Value.run_blocks m ρ)

end Cert.KernelIdeal.Whole

end
-- ==== Proof.RefStages.lean ====
/-
  The reference computation as a handful of named array functions, for any float values.

  The reference works on whole arrays.  It builds the three object rows of every batch row as one
  [batch, 3, 18] array (identity matrix repeated over the batch, beside the reshaped object features), picks for
  each of the six ordered pairs the first and the second object by a table look-up along the object axis, lays
  the shared part and the two picked objects side by side ([6, batch, 146]), applies two dense layers with ReLU
  to all six at once, adds the six results, and finishes with one dense layer with ReLU and the two heads.
  Each definition below is one stretch of that chain, operation for operation.
-/
import proofs.«166104_j69887707840990_1_alg».proof.ReferenceIdeal

noncomputable section

namespace Cert.ReferenceIdeal.Stages

open Cert.ReferenceIdeal Idealize.ShloMosaic

variable {F : FTy → Type} [FloatOps F] [Facts]
open Facts₀ Facts

/-- The 3×3 identity matrix as floats: row number equals column number. -/
def eye3 : FVec F S3x3 .f32 :=
  uitofp (F := F) .f32 (cmpi .eq (addi (iotaInDim S3x3 32 0) (broadcastInDim S3x3 ![] bcast_S_S3x3 (constantI S_ 32 0#32))) (iotaInDim S3x3 32 1))

/-- The three objects of every batch row: [batch, object, 18] = one-hot code, then the object's features. -/
def objs (obs : FVec F S65536x55 .f32) : FVec F S65536x3x18 .f32 :=
  concatenate S65536x3x18 2
    [⟨S65536x3x3, broadcastInDim S65536x3x3 ![0, 1, 2] bcast_S1x3x3_S65536x3x3_0_1_2
        (broadcastInDim S1x3x3 ![1, 2] bcast_S3x3_S1x3x3_1_2 (eye3 (F := F)))⟩,
     ⟨S65536x3x15, shapeCast S65536x3x15 (extractStridedSlice S65536x45 ![0, 10] obs slices_S65536x55_S65536x45_0_10) shapeCasts_S65536x45_S65536x3x15⟩]
    concatenates_S65536x3x3_S65536x3x15_S65536x3x18_d2

/-- The shared part of the pair inputs: [batch, 110] = embedding, then the ten body features. -/
def base (obs : FVec F S65536x55 .f32) (lemb : FVec F S65536x100 .f32) : FVec F S65536x110 .f32 :=
  concatenate S65536x110 1 [⟨S65536x100, lemb⟩, ⟨S65536x10, extractStridedSlice S65536x10 ![0, 0] obs slices_S65536x55_S65536x10_0_0⟩]
    concatenates_S65536x100_S65536x10_S65536x110_d1

/-- A table of six object numbers as the column of start indices the look-up takes (negative entries would be
    wrapped by adding 3: none is). -/
def idxCol (lit : Fin 6 → BitVec 32) : IVec S6x1 32 :=
  broadcastInDim S6x1 ![0] bcast_S6_S6x1_0
    (select (constantI S6 1 0#1) (addi (fun i => lit (S6.rowMajor i)) (broadcastInDim S6 ![] bcast_S_S6 (constantI S_ 32 3#32)))
      (fun i => lit (S6.rowMajor i)))

/-- For each of the six pairs, the object the table names: [6, batch, 18]. -/
def side (obs : FVec F S65536x55 .f32) (lit : Fin 6 → BitVec 32) : FVec F S6x65536x18 .f32 :=
  transpose S6x65536x18 [1, 0, 2]
    (Host.gather gather_S65536x3x18_S6x1_S65536x6x18_02_1_n_n_1_1_65536118 (objs obs) (idxCol lit))
    transposes_S65536x6x18_S6x65536x18_1_0_2

/-- The six pair inputs: [6, batch, 146]. -/
def inp (obs : FVec F S65536x55 .f32) (lemb : FVec F S65536x100 .f32) : FVec F S6x65536x146 .f32 :=
  concatenate S6x65536x146 2
    [⟨S6x65536x110, broadcastInDim S6x65536x110 ![0, 1, 2] bcast_S1x65536x110_S6x65536x110_0_1_2
        (broadcastInDim S1x65536x110 ![1, 2] bcast_S65536x110_S1x65536x110_1_2 (base obs lemb))⟩,
     ⟨S6x65536x18, side obs lit0⟩, ⟨S6x65536x18, side obs lit1⟩]
    concatenates_S6x65536x110_S6x65536x18_S6x65536x18_S6x65536x146_d2

/-- First dense layer with ReLU on all six pair inputs. -/
def hid1 (x : FVec F S6x65536x146 .f32) (W : FVec F S146x256 .f32) (b : FVec F S256 .f32) : FVec F S6x65536x256 .f32 :=
  maximumf
    (addf (Host.dotGeneral dot_S6x65536x146_S146x256_S6x65536x256_2_0_01_1_n_n none x W)
      (broadcastInDim S6x65536x256 ![0, 1, 2] bcast_S1x1x256_S6x65536x256_0_1_2 (broadcastInDim S1x1x256 ![2] bcast_S256_S1x1x256_2 b)))
    (broadcastInDim S6x65536x256 ![] bcast_S_S6x65536x256 (constant S_ .f32 0x00000000#32))

/-- Second dense layer with ReLU on all six. -/
def hid2 (x : FVec F S6x65536x256 .f32) (W : FVec F S256x256 .f32) (b : FVec F S256 .f32) : FVec F S6x65536x256 .f32 :=
  maximumf
    (addf (Host.dotGeneral dot_S6x65536x256_S256x256_S6x65536x256_2_0_01_1_n_n none x W)
      (broadcastInDim S6x65536x256 ![0, 1, 2] bcast_S1x1x256_S6x65536x256_0_1_2 (broadcastInDim S1x1x256 ![2] bcast_S256_S1x1x256_2 b)))
    (broadcastInDim S6x65536x256 ![] bcast_S_S6x65536x256 (constant S_ .f32 0x00000000#32))

/-- The six results added up, from zero. -/
def aggS (x : FVec F S6x65536x256 .f32) : FVec F S65536x256 .f32 :=
  Host.reduceAdd x (constant S_ .f32 0x00000000#32) reducesTo_S6x65536x256_S65536x256_d0 h_S_

/-- The dense layer with ReLU after the sum. -/
def rhoS (x : FVec F S65536x256 .f32) (W : FVec F S256x256 .f32) (b : FVec F S256 .f32) : FVec F S65536x256 .f32 :=
  maximumf
    (addf (Host.dotGeneral dot_S65536x256_S256x256_S65536x256_1_0_0_1_n_n none x W)
      (broadcastInDim S65536x256 ![0, 1] bcast_S1x256_S65536x256_0_1 (broadcastInDim S1x256 ![1] bcast_S256_S1x256_1 b)))
    (broadcastInDim S65536x256 ![] bcast_S_S65536x256 (constant S_ .f32 0x00000000#32))

/-- A linear head. -/
def head (x : FVec F S65536x256 .f32) (W : FVec F S256x4 .f32) (b : FVec F S4 .f32) : FVec F S65536x4 .f32 :=
  addf (Host.dotGeneral dot_S65536x256_S256x4_S65536x4_1_0_0_1_n_n none x W)
    (broadcastInDim S65536x4 ![0, 1] bcast_S1x4_S65536x4_0_1 (broadcastInDim S1x4 ![1] bcast_S4_S1x4_1 b))

/-- Clipping to [-20, 2]. -/
def clip (x : FVec F S65536x4 .f32) : FVec F S65536x4 .f32 :=
  minimumf (broadcastInDim S65536x4 ![] bcast_S_S65536x4 (id (constant S_ .f32 0x40000000#32)))
    (maximumf (broadcastInDim S65536x4 ![] bcast_S_S65536x4 (id (constant S_ .f32 0xC1A00000#32))) x)

section
variable (obs : FVec F S65536x55 .f32) (lemb : FVec F S65536x100 .f32) (W1 : FVec F S146x256 .f32) (b1 : FVec F S256 .f32)
  (W2 : FVec F S256x256 .f32) (b2 : FVec F S256 .f32) (R1 : FVec F S256x256 .f32) (rb1 : FVec F S256 .f32)

/-- Everything up to the layer after the sum. -/
def rhoOf : FVec F S65536x256 .f32 :=
  rhoS (aggS (hid2 (hid1 (inp obs lemb) W1 b1) W2 b2)) R1 rb1

/-- The reference's first result. -/
def mean (MW : FVec F S256x4 .f32) (mb : FVec F S4 .f32) : FVec F S65536x4 .f32 :=
  head (rhoOf obs lemb W1 b1 W2 b2 R1 rb1) MW mb

/-- The reference's second result. -/
def lstd (LW : FVec F S256x4 .f32) (lb : FVec F S4 .f32) : FVec F S65536x4 .f32 :=
  clip (head (rhoOf obs lemb W1 b1 W2 b2 R1 rb1) LW lb)
end

end Cert.ReferenceIdeal.Stages

end
-- ==== Proof.RefRun.lean ====
/-
  The reference program runs: every weakly fair execution of its host operations terminates, leaves the arguments
  as they were, and leaves in its two result buffers the composed array functions of `Stages` applied to the
  arguments' contents.
-/
import proofs.«166104_j69887707840990_1_alg».proof.Proof.Gen.ReferenceIdeal
import proofs.«166104_j69887707840990_1_alg».proof.Proof.RefStages
import Idealize.ShloMosaic.Lib.StableHlo.Run
import Idealize.ShloMosaic.Lib.Pipeline.Regions

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the four calls' bodies written out at their call sites. -/
abbrev ops : List (HloOp τ sig (Elt F)) :=
  [ nullary main_c (fun i => lit0 (S6.rowMajor i)),
    nullary main_c_0 (constantI S6 1 0#1),
    nullary main_c_1 (fun i => lit1 (S6.rowMajor i)),
    nullary main_c_2 (constantI S6 1 0#1),
    unary main_arg0 main_v0 ((extractStridedSlice S65536x10 ![0, 0] · slices_S65536x55_S65536x10_0_0) : (⟨S65536x55, .f32⟩ : BufTy).Contents (Elt F) → (⟨S65536x10, .f32⟩ : BufTy).Contents (Elt F)),
    unary main_arg0 main_v1 ((extractStridedSlice S65536x45 ![0, 10] · slices_S65536x55_S65536x45_0_10) : (⟨S65536x55, .f32⟩ : BufTy).Contents (Elt F) → (⟨S65536x45, .f32⟩ : BufTy).Contents (Elt F)),
    reshape main_v1 main_v2 rfl shapeCasts_S65536x45_S65536x3x15,
    nullary main_v3 (iotaInDim S3x3 32 0),
    nullary main_v4 (iotaInDim S3x3 32 1),
    nullary main_c_3 (constantI S_ 32 0#32),
    unary main_c_3 main_v5 (broadcastInDim S3x3 ![] bcast_S_S3x3 : (⟨S_, .i32⟩ : BufTy).Contents (Elt F) → (⟨S3x3, .i32⟩ : BufTy).Contents (Elt F)),
    binary main_v3 main_v5 main_v6 (addi : (⟨S3x3, .i32⟩ : BufTy).Contents (Elt F) → (⟨S3x3, .i32⟩ : BufTy).Contents (Elt F) → (⟨S3x3, .i32⟩ : BufTy).Contents (Elt F)),
    binary main_v6 main_v4 main_v7 (cmpi .eq : (⟨S3x3, .i32⟩ : BufTy).Contents (Elt F) → (⟨S3x3, .i32⟩ : BufTy).Contents (Elt F) → (⟨S3x3, .i1⟩ : BufTy).Contents (Elt F)),
    unary main_v7 main_v8 (uitofp .f32 : (⟨S3x3, .i1⟩ : BufTy).Contents (Elt F) → (⟨S3x3, .f32⟩ : BufTy).Contents (Elt F)),
    unary main_v8 main_v9 (broadcastInDim S1x3x3 ![1, 2] bcast_S3x3_S1x3x3_1_2 : (⟨S3x3, .f32⟩ : BufTy).Contents (Elt F) → (⟨S1x3x3, .f32⟩ : BufTy).Contents (Elt F)),
    unary main_v9 main_v10 (broadcastInDim S65536x3x3 ![0, 1, 2] bcast_S1x3x3_S65536x3x3_0_1_2 : (⟨S1x3x3, .f32⟩ : BufTy).Contents (Elt F) → (⟨S65536x3x3, .f32⟩ : BufTy).Contents (Elt F)),
    binary main_v10 main_v2 main_v11 ((fun a b => concatenate S65536x3x18 2 [⟨S65536x3x3, a⟩, ⟨S65536x3x15, b⟩] concatenates_S65536x3x3_S65536x3x15_S65536x3x18_d2) : (⟨S65536x3x3, .f32⟩ : BufTy).Contents (Elt F) → (⟨S65536x3x15, .f32⟩ : BufTy).Contents (Elt F) → (⟨S65536x3x18, .f32⟩ : BufTy).Contents (Elt F)),
    binary main_arg1 main_v0 main_v12 ((fun a b => concatenate S65536x110 1 [⟨S65536x100, a⟩, ⟨S65536x10, b⟩] concatenates_S65536x100_S65536x10_S65536x110_d1) : (⟨S65536x100, .f32⟩ : BufTy).Contents (Elt F) → (⟨S65536x10, .f32⟩ : BufTy).Contents (Elt F) → (⟨S65536x110, .f32⟩ : BufTy).Contents (Elt F)),
    nullary main_c_4 (constantI S_ 32 3#32),
    unary main_c_4 main_v13 (broadcastInDim S6 ![] bcast_S_S6 : (⟨S_, .i32⟩ : BufTy).Contents (Elt F) → (⟨S6, .i32⟩ : BufTy).Contents (Elt F)),
    binary main_c main_v13 main_v14 (addi : (⟨S6, .i32⟩ : BufTy).Contents (Elt F) → (⟨S6, .i32⟩ : BufTy).Contents (Elt F) → (⟨S6, .i32⟩ : BufTy).Contents (Elt F)),
    ternary main_c_0 main_v14 main_c main_v15 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v15 main_v16 (broadcastInDim S6x1 ![0] bcast_S6_S6x1_0 : (⟨S6, .i32⟩ : BufTy).Contents (Elt F) → (⟨S6x1, .i32⟩ : BufTy).Contents (Elt F)),
    binary main_v11 main_v16 main_v17 ((fun x i => Host.gather gather_S65536x3x18_S6x1_S65536x6x18_02_1_n_n_1_1_65536118 x i) : (⟨S65536x3x18, .f32⟩ : BufTy).Contents (Elt F) → (⟨S6x1, .i32⟩ : BufTy).Contents (Elt F) → (⟨S65536x6x18, .f32⟩ : BufTy).Contents (Elt F)),
    unary main_v17 main_v18 ((transpose S6x65536x18 [1, 0, 2] · transposes_S65536x6x18_S6x65536x18_1_0_2) : (⟨S65536x6x18, .f32⟩ : BufTy).Contents (Elt F) → (⟨S6x65536x18, .f32⟩ : BufTy).Contents (Elt F)),
    nullary main_c_5 (constantI S_ 32 3#32),
    unary main_c_5 main_v19 (broadcastInDim S6 ![] bcast_S_S6 : (⟨S_, .i32⟩ : BufTy).Contents (Elt F) → (⟨S6, .i32⟩ : BufTy).Contents (Elt F)),
    binary main_c_1 main_v19 main_v20 (addi : (⟨S6, .i32⟩ : BufTy).Contents (Elt F) → (⟨S6, .i32⟩ : BufTy).Contents (Elt F) → (⟨S6, .i32⟩ : BufTy).Contents (Elt F)),
    ternary main_c_2 main_v20 main_c_1 main_v21 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v21 main_v22 (broadcastInDim S6x1 ![0] bcast_S6_S6x1_0 : (⟨S6, .i32⟩ : BufTy).Contents (Elt F) → (⟨S6x1, .i32⟩ : BufTy).Contents (Elt F)),
    binary main_v11 main_v22 main_v23 ((fun x i => Host.gather gather_S65536x3x18_S6x1_S65536x6x18_02_1_n_n_1_1_65536118 x i) : (⟨S65536x3x18, .f32⟩ : BufTy).Contents (Elt F) → (⟨S6x1, .i32⟩ : BufTy).Contents (Elt F) → (⟨S65536x6x18, .f32⟩ : BufTy).Contents (Elt F)),
    unary main_v23 main_v24 ((transpose S6x65536x18 [1, 0, 2] · transposes_S65536x6x18_S6x65536x18_1_0_2) : (⟨S65536x6x18, .f32⟩ : BufTy).Contents (Elt F) → (⟨S6x65536x18, .f32⟩ : BufTy).Contents (Elt F)),
    unary main_v12 main_v25 (broadcastInDim S1x65536x110 ![1, 2] bcast_S65536x110_S1x65536x110_1_2 : (⟨S65536x110, .f32⟩ : BufTy).Contents (Elt F) → (⟨S1x65536x110, .f32⟩ : BufTy).Contents (Elt F)),
    unary main_v25 main_v26 (broadcastInDim S6x65536x110 ![0, 1, 2] bcast_S1x65536x110_S6x65536x110_0_1_2 : (⟨S1x65536x110, .f32⟩ : BufTy).Contents (Elt F) → (⟨S6x65536x110, .f32⟩ : BufTy).Contents (Elt F)),
    nary ![main_v26, main_v18, main_v24] main_v27 (fun u => concatenate S6x65536x146 2 [⟨S6x65536x110, u 0⟩, ⟨S6x65536x18, u 1⟩, ⟨S6x65536x18, u 2⟩] concatenates_S6x65536x110_S6x65536x18_S6x65536x18_S6x65536x146_d2),
    binary main_v27 main_arg2 main_v28 ((fun l r => Host.dotGeneral dot_S6x65536x146_S146x256_S6x65536x256_2_0_01_1_n_n none l r) : (⟨S6x65536x146, .f32⟩ : BufTy).Contents (Elt F) → (⟨S146x256, .f32⟩ : BufTy).Contents (Elt F) → (⟨S6x65536x256, .f32⟩ : BufTy).Contents (Elt F)),
    unary main_arg3 main_v29 (broadcastInDim S1x1x256 ![2] bcast_S256_S1x1x256_2 : (⟨S256, .f32⟩ : BufTy).Contents (Elt F) → (⟨S1x1x256, .f32⟩ : BufTy).Contents (Elt F)),
    unary main_v29 main_v30 (broadcastInDim S6x65536x256 ![0, 1, 2] bcast_S1x1x256_S6x65536x256_0_1_2 : (⟨S1x1x256, .f32⟩ : BufTy).Contents (Elt F) → (⟨S6x65536x256, .f32⟩ : BufTy).Contents (Elt F)),
    binary main_v28 main_v30 main_v31 (addf : (⟨S6x65536x256, .f32⟩ : BufTy).Contents (Elt F) → (⟨S6x65536x256, .f32⟩ : BufTy).Contents (Elt F) → (⟨S6x65536x256, .f32⟩ : BufTy).Contents (Elt F)),
    TRef.nullary main_call0.cst (constant S_ .f32 0x00000000#32),
    TRef.unary main_call0.cst main_call0.v0 (broadcastInDim S6x65536x256 ![] bcast_S_S6x65536x256),
    TRef.binary (.of main_v31) main_call0.v0 main_call0.v1 maximumf,
    binary main_v32 main_arg4 main_v33 ((fun l r => Host.dotGeneral dot_S6x65536x256_S256x256_S6x65536x256_2_0_01_1_n_n none l r) : (⟨S6x65536x256, .f32⟩ : BufTy).Contents (Elt F) → (⟨S256x256, .f32⟩ : BufTy).Contents (Elt F) → (⟨S6x65536x256, .f32⟩ : BufTy).Contents (Elt F)),
    unary main_arg5 main_v34 (broadcastInDim S1x1x256 ![2] bcast_S256_S1x1x256_2 : (⟨S256, .f32⟩ : BufTy).Contents (Elt F) → (⟨S1x1x256, .f32⟩ : BufTy).Contents (Elt F)),
    unary main_v34 main_v35 (broadcastInDim S6x65536x256 ![0, 1, 2] bcast_S1x1x256_S6x65536x256_0_1_2 : (⟨S1x1x256, .f32⟩ : BufTy).Contents (Elt F) → (⟨S6x65536x256, .f32⟩ : BufTy).Contents (Elt F)),
    binary main_v33 main_v35 main_v36 (addf : (⟨S6x65536x256, .f32⟩ : BufTy).Contents (Elt F) → (⟨S6x65536x256, .f32⟩ : BufTy).Contents (Elt F) → (⟨S6x65536x256, .f32⟩ : BufTy).Contents (Elt F)),
    TRef.nullary main_call1.cst (constant S_ .f32 0x00000000#32),
    TRef.unary main_call1.cst main_call1.v0 (broadcastInDim S6x65536x256 ![] bcast_S_S6x65536x256),
    TRef.binary (.of main_v36) main_call1.v0 main_call1.v1 maximumf,
    nullary main_cst (constant S_ .f32 0x00000000#32),
    binary main_v37 main_cst main_v38 ((fun x v => Host.reduceAdd x v reducesTo_S6x65536x256_S65536x256_d0 h_S_) : (⟨S6x65536x256, .f32⟩ : BufTy).Contents (Elt F) → (⟨S_, .f32⟩ : BufTy).Contents (Elt F) → (⟨S65536x256, .f32⟩ : BufTy).Contents (Elt F)),
    binary main_v38 main_arg6 main_v39 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    unary main_arg7 main_v40 (broadcastInDim S1x256 ![1] bcast_S256_S1x256_1 : (⟨S256, .f32⟩ : BufTy).Contents (Elt F) → (⟨S1x256, .f32⟩ : BufTy).Contents (Elt F)),
    unary main_v40 main_v41 (broadcastInDim S65536x256 ![0, 1] bcast_S1x256_S65536x256_0_1 : (⟨S1x256, .f32⟩ : BufTy).Contents (Elt F) → (⟨S65536x256, .f32⟩ : BufTy).Contents (Elt F)),
    binary main_v39 main_v41 main_v42 (addf : (⟨S65536x256, .f32⟩ : BufTy).Contents (Elt F) → (⟨S65536x256, .f32⟩ : BufTy).Contents (Elt F) → (⟨S65536x256, .f32⟩ : BufTy).Contents (Elt F)),
    TRef.nullary main_call2.cst (constant S_ .f32 0x00000000#32),
    TRef.unary main_call2.cst main_call2.v0 (broadcastInDim S65536x256 ![] bcast_S_S65536x256),
    TRef.binary (.of main_v42) main_call2.v0 main_call2.v1 maximumf,
    binary main_v43 main_arg8 main_v44 ((fun l r => Host.dotGeneral dot_S65536x256_S256x4_S65536x4_1_0_0_1_n_n none l r) : (⟨S65536x256, .f32⟩ : BufTy).Contents (Elt F) → (⟨S256x4, .f32⟩ : BufTy).Contents (Elt F) → (⟨S65536x4, .f32⟩ : BufTy).Contents (Elt F)),
    unary main_arg9 main_v45 (broadcastInDim S1x4 ![1] bcast_S4_S1x4_1 : (⟨S4, .f32⟩ : BufTy).Contents (Elt F) → (⟨S1x4, .f32⟩ : BufTy).Contents (Elt F)),
    unary main_v45 main_v46 (broadcastInDim S65536x4 ![0, 1] bcast_S1x4_S65536x4_0_1 : (⟨S1x4, .f32⟩ : BufTy).Contents (Elt F) → (⟨S65536x4, .f32⟩ : BufTy).Contents (Elt F)),
    binary main_v44 main_v46 main_v47 (addf : (⟨S65536x4, .f32⟩ : BufTy).Contents (Elt F) → (⟨S65536x4, .f32⟩ : BufTy).Contents (Elt F) → (⟨S65536x4, .f32⟩ : BufTy).Contents (Elt F)),
    binary main_v43 main_arg10 main_v48 ((fun l r => Host.dotGeneral dot_S65536x256_S256x4_S65536x4_1_0_0_1_n_n none l r) : (⟨S65536x256, .f32⟩ : BufTy).Contents (Elt F) → (⟨S256x4, .f32⟩ : BufTy).Contents (Elt F) → (⟨S65536x4, .f32⟩ : BufTy).Contents (Elt F)),
    unary main_arg11 main_v49 (broadcastInDim S1x4 ![1] bcast_S4_S1x4_1 : (⟨S4, .f32⟩ : BufTy).Contents (Elt F) → (⟨S1x4, .f32⟩ : BufTy).Contents (Elt F)),
    unary main_v49 main_v50 (broadcastInDim S65536x4 ![0, 1] bcast_S1x4_S65536x4_0_1 : (⟨S1x4, .f32⟩ : BufTy).Contents (Elt F) → (⟨S65536x4, .f32⟩ : BufTy).Contents (Elt F)),
    binary main_v48 main_v50 main_v51 (addf : (⟨S65536x4, .f32⟩ : BufTy).Contents (Elt F) → (⟨S65536x4, .f32⟩ : BufTy).Contents (Elt F) → (⟨S65536x4, .f32⟩ : BufTy).Contents (Elt F)),
    nullary main_cst_6 (constant S_ .f32 0xC1A00000#32),
    nullary main_cst_7 (constant S_ .f32 0x40000000#32),
    TRef.unary (.of main_cst_6) main_call3.v0 id,
    TRef.unary main_call3.v0 main_call3.v1 (broadcastInDim S65536x4 ![] bcast_S_S65536x4),
    TRef.binary main_call3.v1 (.of main_v51) main_call3.v2 maximumf,
    TRef.unary (.of main_cst_7) main_call3.v3 id,
    TRef.unary main_call3.v3 main_call3.v4 (broadcastInDim S65536x4 ![] bcast_S_S65536x4),
    TRef.binary main_call3.v4 main_call3.v2 main_call3.v5 minimumf ]

/-- @main is that straight line: both sides are one chain of host steps once the calls are unfolded. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., nullary_bufs_sub .., unary_bufs_sub .., unary_bufs_sub .., reshape_bufs_sub .., nullary_bufs_sub .., nullary_bufs_sub .., nullary_bufs_sub .., unary_bufs_sub .., binary_bufs_sub .., binary_bufs_sub .., unary_bufs_sub .., unary_bufs_sub .., unary_bufs_sub .., binary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., ternary_bufs_sub .., unary_bufs_sub .., binary_bufs_sub .., unary_bufs_sub .., unary_bufs_sub .., unary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub ..⟩

/-! ## The line in two stretches

The first stretch builds the three operands of the six pair inputs (the shared part and the two picked objects);
the second lays them side by side and runs the dense layers and the heads. -/

/-- The operations up to the three operands of the pair inputs. -/
abbrev opsA : List (HloOp τ sig (Elt F)) :=
  [ nullary main_c (fun i => lit0 (S6.rowMajor i)),
    nullary main_c_0 (constantI S6 1 0#1),
    nullary main_c_1 (fun i => lit1 (S6.rowMajor i)),
    nullary main_c_2 (constantI S6 1 0#1),
    unary main_arg0 main_v0 ((extractStridedSlice S65536x10 ![0, 0] · slices_S65536x55_S65536x10_0_0) : (⟨S65536x55, .f32⟩ : BufTy).Contents (Elt F) → (⟨S65536x10, .f32⟩ : BufTy).Contents (Elt F)),
    unary main_arg0 main_v1 ((extractStridedSlice S65536x45 ![0, 10] · slices_S65536x55_S65536x45_0_10) : (⟨S65536x55, .f32⟩ : BufTy).Contents (Elt F) → (⟨S65536x45, .f32⟩ : BufTy).Contents (Elt F)),
    reshape main_v1 main_v2 rfl shapeCasts_S65536x45_S65536x3x15,
    nullary main_v3 (iotaInDim S3x3 32 0),
    nullary main_v4 (iotaInDim S3x3 32 1),
    nullary main_c_3 (constantI S_ 32 0#32),
    unary main_c_3 main_v5 (broadcastInDim S3x3 ![] bcast_S_S3x3 : (⟨S_, .i32⟩ : BufTy).Contents (Elt F) → (⟨S3x3, .i32⟩ : BufTy).Contents (Elt F)),
    binary main_v3 main_v5 main_v6 (addi : (⟨S3x3, .i32⟩ : BufTy).Contents (Elt F) → (⟨S3x3, .i32⟩ : BufTy).Contents (Elt F) → (⟨S3x3, .i32⟩ : BufTy).Contents (Elt F)),
    binary main_v6 main_v4 main_v7 (cmpi .eq : (⟨S3x3, .i32⟩ : BufTy).Contents (Elt F) → (⟨S3x3, .i32⟩ : BufTy).Contents (Elt F) → (⟨S3x3, .i1⟩ : BufTy).Contents (Elt F)),
    unary main_v7 main_v8 (uitofp .f32 : (⟨S3x3, .i1⟩ : BufTy).Contents (Elt F) → (⟨S3x3, .f32⟩ : BufTy).Contents (Elt F)),
    unary main_v8 main_v9 (broadcastInDim S1x3x3 ![1, 2] bcast_S3x3_S1x3x3_1_2 : (⟨S3x3, .f32⟩ : BufTy).Contents (Elt F) → (⟨S1x3x3, .f32⟩ : BufTy).Contents (Elt F)),
    unary main_v9 main_v10 (broadcastInDim S65536x3x3 ![0, 1, 2] bcast_S1x3x3_S65536x3x3_0_1_2 : (⟨S1x3x3, .f32⟩ : BufTy).Contents (Elt F) → (⟨S65536x3x3, .f32⟩ : BufTy).Contents (Elt F)),
    binary main_v10 main_v2 main_v11 ((fun a b => concatenate S65536x3x18 2 [⟨S65536x3x3, a⟩, ⟨S65536x3x15, b⟩] concatenates_S65536x3x3_S65536x3x15_S65536x3x18_d2) : (⟨S65536x3x3, .f32⟩ : BufTy).Contents (Elt F) → (⟨S65536x3x15, .f32⟩ : BufTy).Contents (Elt F) → (⟨S65536x3x18, .f32⟩ : BufTy).Contents (Elt F)),
    binary main_arg1 main_v0 main_v12 ((fun a b => concatenate S65536x110 1 [⟨S65536x100, a⟩, ⟨S65536x10, b⟩] concatenates_S65536x100_S65536x10_S65536x110_d1) : (⟨S65536x100, .f32⟩ : BufTy).Contents (Elt F) → (⟨S65536x10, .f32⟩ : BufTy).Contents (Elt F) → (⟨S65536x110, .f32⟩ : BufTy).Contents (Elt F)),
    nullary main_c_4 (constantI S_ 32 3#32),
    unary main_c_4 main_v13 (broadcastInDim S6 ![] bcast_S_S6 : (⟨S_, .i32⟩ : BufTy).Contents (Elt F) → (⟨S6, .i32⟩ : BufTy).Contents (Elt F)),
    binary main_c main_v13 main_v14 (addi : (⟨S6, .i32⟩ : BufTy).Contents (Elt F) → (⟨S6, .i32⟩ : BufTy).Contents (Elt F) → (⟨S6, .i32⟩ : BufTy).Contents (Elt F)),
    ternary main_c_0 main_v14 main_c main_v15 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v15 main_v16 (broadcastInDim S6x1 ![0] bcast_S6_S6x1_0 : (⟨S6, .i32⟩ : BufTy).Contents (Elt F) → (⟨S6x1, .i32⟩ : BufTy).Contents (Elt F)),
    binary main_v11 main_v16 main_v17 ((fun x i => Host.gather gather_S65536x3x18_S6x1_S65536x6x18_02_1_n_n_1_1_65536118 x i) : (⟨S65536x3x18, .f32⟩ : BufTy).Contents (Elt F) → (⟨S6x1, .i32⟩ : BufTy).Contents (Elt F) → (⟨S65536x6x18, .f32⟩ : BufTy).Contents (Elt F)),
    unary main_v17 main_v18 ((transpose S6x65536x18 [1, 0, 2] · transposes_S65536x6x18_S6x65536x18_1_0_2) : (⟨S65536x6x18, .f32⟩ : BufTy).Contents (Elt F) → (⟨S6x65536x18, .f32⟩ : BufTy).Contents (Elt F)),
    nullary main_c_5 (constantI S_ 32 3#32),
    unary main_c_5 main_v19 (broadcastInDim S6 ![] bcast_S_S6 : (⟨S_, .i32⟩ : BufTy).Contents (Elt F) → (⟨S6, .i32⟩ : BufTy).Contents (Elt F)),
    binary main_c_1 main_v19 main_v20 (addi : (⟨S6, .i32⟩ : BufTy).Contents (Elt F) → (⟨S6, .i32⟩ : BufTy).Contents (Elt F) → (⟨S6, .i32⟩ : BufTy).Contents (Elt F)),
    ternary main_c_2 main_v20 main_c_1 main_v21 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v21 main_v22 (broadcastInDim S6x1 ![0] bcast_S6_S6x1_0 : (⟨S6, .i32⟩ : BufTy).Contents (Elt F) → (⟨S6x1, .i32⟩ : BufTy).Contents (Elt F)),
    binary main_v11 main_v22 main_v23 ((fun x i => Host.gather gather_S65536x3x18_S6x1_S65536x6x18_02_1_n_n_1_1_65536118 x i) : (⟨S65536x3x18, .f32⟩ : BufTy).Contents (Elt F) → (⟨S6x1, .i32⟩ : BufTy).Contents (Elt F) → (⟨S65536x6x18, .f32⟩ : BufTy).Contents (Elt F)),
    unary main_v23 main_v24 ((transpose S6x65536x18 [1, 0, 2] · transposes_S65536x6x18_S6x65536x18_1_0_2) : (⟨S65536x6x18, .f32⟩ : BufTy).Contents (Elt F) → (⟨S6x65536x18, .f32⟩ : BufTy).Contents (Elt F)),
    unary main_v12 main_v25 (broadcastInDim S1x65536x110 ![1, 2] bcast_S65536x110_S1x65536x110_1_2 : (⟨S65536x110, .f32⟩ : BufTy).Contents (Elt F) → (⟨S1x65536x110, .f32⟩ : BufTy).Contents (Elt F)),
    unary main_v25 main_v26 (broadcastInDim S6x65536x110 ![0, 1, 2] bcast_S1x65536x110_S6x65536x110_0_1_2 : (⟨S1x65536x110, .f32⟩ : BufTy).Contents (Elt F) → (⟨S6x65536x110, .f32⟩ : BufTy).Contents (Elt F)) ]

/-- The operations from the pair inputs on. -/
abbrev opsB : List (HloOp τ sig (Elt F)) :=
  [ nary ![main_v26, main_v18, main_v24] main_v27 (fun u => concatenate S6x65536x146 2 [⟨S6x65536x110, u 0⟩, ⟨S6x65536x18, u 1⟩, ⟨S6x65536x18, u 2⟩] concatenates_S6x65536x110_S6x65536x18_S6x65536x18_S6x65536x146_d2),
    binary main_v27 main_arg2 main_v28 ((fun l r => Host.dotGeneral dot_S6x65536x146_S146x256_S6x65536x256_2_0_01_1_n_n none l r) : (⟨S6x65536x146, .f32⟩ : BufTy).Contents (Elt F) → (⟨S146x256, .f32⟩ : BufTy).Contents (Elt F) → (⟨S6x65536x256, .f32⟩ : BufTy).Contents (Elt F)),
    unary main_arg3 main_v29 (broadcastInDim S1x1x256 ![2] bcast_S256_S1x1x256_2 : (⟨S256, .f32⟩ : BufTy).Contents (Elt F) → (⟨S1x1x256, .f32⟩ : BufTy).Contents (Elt F)),
    unary main_v29 main_v30 (broadcastInDim S6x65536x256 ![0, 1, 2] bcast_S1x1x256_S6x65536x256_0_1_2 : (⟨S1x1x256, .f32⟩ : BufTy).Contents (Elt F) → (⟨S6x65536x256, .f32⟩ : BufTy).Contents (Elt F)),
    binary main_v28 main_v30 main_v31 (addf : (⟨S6x65536x256, .f32⟩ : BufTy).Contents (Elt F) → (⟨S6x65536x256, .f32⟩ : BufTy).Contents (Elt F) → (⟨S6x65536x256, .f32⟩ : BufTy).Contents (Elt F)),
    TRef.nullary main_call0.cst (constant S_ .f32 0x00000000#32),
    TRef.unary main_call0.cst main_call0.v0 (broadcastInDim S6x65536x256 ![] bcast_S_S6x65536x256),
    TRef.binary (.of main_v31) main_call0.v0 main_call0.v1 maximumf,
    binary main_v32 main_arg4 main_v33 ((fun l r => Host.dotGeneral dot_S6x65536x256_S256x256_S6x65536x256_2_0_01_1_n_n none l r) : (⟨S6x65536x256, .f32⟩ : BufTy).Contents (Elt F) → (⟨S256x256, .f32⟩ : BufTy).Contents (Elt F) → (⟨S6x65536x256, .f32⟩ : BufTy).Contents (Elt F)),
    unary main_arg5 main_v34 (broadcastInDim S1x1x256 ![2] bcast_S256_S1x1x256_2 : (⟨S256, .f32⟩ : BufTy).Contents (Elt F) → (⟨S1x1x256, .f32⟩ : BufTy).Contents (Elt F)),
    unary main_v34 main_v35 (broadcastInDim S6x65536x256 ![0, 1, 2] bcast_S1x1x256_S6x65536x256_0_1_2 : (⟨S1x1x256, .f32⟩ : BufTy).Contents (Elt F) → (⟨S6x65536x256, .f32⟩ : BufTy).Contents (Elt F)),
    binary main_v33 main_v35 main_v36 (addf : (⟨S6x65536x256, .f32⟩ : BufTy).Contents (Elt F) → (⟨S6x65536x256, .f32⟩ : BufTy).Contents (Elt F) → (⟨S6x65536x256, .f32⟩ : BufTy).Contents (Elt F)),
    TRef.nullary main_call1.cst (constant S_ .f32 0x00000000#32),
    TRef.unary main_call1.cst main_call1.v0 (broadcastInDim S6x65536x256 ![] bcast_S_S6x65536x256),
    TRef.binary (.of main_v36) main_call1.v0 main_call1.v1 maximumf,
    nullary main_cst (constant S_ .f32 0x00000000#32),
    binary main_v37 main_cst main_v38 ((fun x v => Host.reduceAdd x v reducesTo_S6x65536x256_S65536x256_d0 h_S_) : (⟨S6x65536x256, .f32⟩ : BufTy).Contents (Elt F) → (⟨S_, .f32⟩ : BufTy).Contents (Elt F) → (⟨S65536x256, .f32⟩ : BufTy).Contents (Elt F)),
    binary main_v38 main_arg6 main_v39 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    unary main_arg7 main_v40 (broadcastInDim S1x256 ![1] bcast_S256_S1x256_1 : (⟨S256, .f32⟩ : BufTy).Contents (Elt F) → (⟨S1x256, .f32⟩ : BufTy).Contents (Elt F)),
    unary main_v40 main_v41 (broadcastInDim S65536x256 ![0, 1] bcast_S1x256_S65536x256_0_1 : (⟨S1x256, .f32⟩ : BufTy).Contents (Elt F) → (⟨S65536x256, .f32⟩ : BufTy).Contents (Elt F)),
    binary main_v39 main_v41 main_v42 (addf : (⟨S65536x256, .f32⟩ : BufTy).Contents (Elt F) → (⟨S65536x256, .f32⟩ : BufTy).Contents (Elt F) → (⟨S65536x256, .f32⟩ : BufTy).Contents (Elt F)),
    TRef.nullary main_call2.cst (constant S_ .f32 0x00000000#32),
    TRef.unary main_call2.cst main_call2.v0 (broadcastInDim S65536x256 ![] bcast_S_S65536x256),
    TRef.binary (.of main_v42) main_call2.v0 main_call2.v1 maximumf,
    binary main_v43 main_arg8 main_v44 ((fun l r => Host.dotGeneral dot_S65536x256_S256x4_S65536x4_1_0_0_1_n_n none l r) : (⟨S65536x256, .f32⟩ : BufTy).Contents (Elt F) → (⟨S256x4, .f32⟩ : BufTy).Contents (Elt F) → (⟨S65536x4, .f32⟩ : BufTy).Contents (Elt F)),
    unary main_arg9 main_v45 (broadcastInDim S1x4 ![1] bcast_S4_S1x4_1 : (⟨S4, .f32⟩ : BufTy).Contents (Elt F) → (⟨S1x4, .f32⟩ : BufTy).Contents (Elt F)),
    unary main_v45 main_v46 (broadcastInDim S65536x4 ![0, 1] bcast_S1x4_S65536x4_0_1 : (⟨S1x4, .f32⟩ : BufTy).Contents (Elt F) → (⟨S65536x4, .f32⟩ : BufTy).Contents (Elt F)),
    binary main_v44 main_v46 main_v47 (addf : (⟨S65536x4, .f32⟩ : BufTy).Contents (Elt F) → (⟨S65536x4, .f32⟩ : BufTy).Contents (Elt F) → (⟨S65536x4, .f32⟩ : BufTy).Contents (Elt F)),
    binary main_v43 main_arg10 main_v48 ((fun l r => Host.dotGeneral dot_S65536x256_S256x4_S65536x4_1_0_0_1_n_n none l r) : (⟨S65536x256, .f32⟩ : BufTy).Contents (Elt F) → (⟨S256x4, .f32⟩ : BufTy).Contents (Elt F) → (⟨S65536x4, .f32⟩ : BufTy).Contents (Elt F)),
    unary main_arg11 main_v49 (broadcastInDim S1x4 ![1] bcast_S4_S1x4_1 : (⟨S4, .f32⟩ : BufTy).Contents (Elt F) → (⟨S1x4, .f32⟩ : BufTy).Contents (Elt F)),
    unary main_v49 main_v50 (broadcastInDim S65536x4 ![0, 1] bcast_S1x4_S65536x4_0_1 : (⟨S1x4, .f32⟩ : BufTy).Contents (Elt F) → (⟨S65536x4, .f32⟩ : BufTy).Contents (Elt F)),
    binary main_v48 main_v50 main_v51 (addf : (⟨S65536x4, .f32⟩ : BufTy).Contents (Elt F) → (⟨S65536x4, .f32⟩ : BufTy).Contents (Elt F) → (⟨S65536x4, .f32⟩ : BufTy).Contents (Elt F)),
    nullary main_cst_6 (constant S_ .f32 0xC1A00000#32),
    nullary main_cst_7 (constant S_ .f32 0x40000000#32),
    TRef.unary (.of main_cst_6) main_call3.v0 id,
    TRef.unary main_call3.v0 main_call3.v1 (broadcastInDim S65536x4 ![] bcast_S_S65536x4),
    TRef.binary main_call3.v1 (.of main_v51) main_call3.v2 maximumf,
    TRef.unary (.of main_cst_7) main_call3.v3 id,
    TRef.unary main_call3.v3 main_call3.v4 (broadcastInDim S65536x4 ![] bcast_S_S65536x4),
    TRef.binary main_call3.v4 main_call3.v2 main_call3.v5 minimumf ]

theorem ops_eq : (ops : List (HloOp τ sig (Elt F))) = opsA ++ opsB := rfl

/-- Two stretches run one after the other: the second from what the first leaves. -/
theorem after_split : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_split l₁ l₂]

/-- A three-operand operation over a literal family of references leaves its result at the function of the three
    operands' contents, each read at its own reference. -/
theorem nary3_result {x a b y : Ref sig .tc}
    (f : ((k : Fin 3) → ((![x, a, b] : Fin 3 → Ref sig .tc) k).ty.Contents (Elt F)) → y.ty.Contents (Elt F)) (hxs hy)
    (V : Valuation τ sig (Elt F)) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

theorem nary3_result' {x a b y : Ref sig .tc}
    (f : ((k : Fin 3) → ((![x, a, b] : Fin 3 → Ref sig .tc) k).ty.Contents (Elt F)) → y.ty.Contents (Elt F)) (hxs hy)
    (V : Valuation τ sig (Elt F)) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) :=
  nary3_result f hxs hy V

/-! ### The first stretch -/

set_option maxRecDepth 8192 in
set_option maxHeartbeats 4000000 in
theorem stageA_v26 (V : Valuation τ sig (Elt F)) :
    after opsA V (main_v26 : DevRef τ sig)
      = broadcastInDim S6x65536x110 ![0, 1, 2] bcast_S1x65536x110_S6x65536x110_0_1_2
        (broadcastInDim S1x65536x110 ![1, 2] bcast_S65536x110_S1x65536x110_1_2 (Stages.base (V (main_arg0 : DevRef τ sig)) (V (main_arg1 : DevRef τ sig)))) := by
  simp (disch := decide) only [after_cons, after_nil,
      nullary_result', unary_result', binary_result', ternary_result', reshape_result', nary3_result',
      nullary_result_ne', unary_result_ne', binary_result_ne', ternary_result_ne', reshape_result_ne', nary_result_ne']
  rfl

set_option maxRecDepth 8192 in
set_option maxHeartbeats 4000000 in
theorem stageA_v18 (V : Valuation τ sig (Elt F)) :
    after opsA V (main_v18 : DevRef τ sig) = Stages.side (V (main_arg0 : DevRef τ sig)) lit0 := by
  simp (disch := decide) only [after_cons, after_nil,
      nullary_result', unary_result', binary_result', ternary_result', reshape_result', nary3_result',
      nullary_result_ne', unary_result_ne', binary_result_ne', ternary_result_ne', reshape_result_ne', nary_result_ne']
  rfl

set_option maxRecDepth 8192 in
set_option maxHeartbeats 4000000 in
theorem stageA_v24 (V : Valuation τ sig (Elt F)) :
    after opsA V (main_v24 : DevRef τ sig) = Stages.side (V (main_arg0 : DevRef τ sig)) lit1 := by
  simp (disch := decide) only [after_cons, after_nil,
      nullary_result', unary_result', binary_result', ternary_result', reshape_result', nary3_result',
      nullary_result_ne', unary_result_ne', binary_result_ne', ternary_result_ne', reshape_result_ne', nary_result_ne']
  rfl

theorem stageA_arg2 (V : Valuation τ sig (Elt F)) :
    after opsA V (main_arg2 : DevRef τ sig) = V (main_arg2 : DevRef τ sig) := by
  simp (disch := decide) only [after_cons, after_nil,
      nullary_result', unary_result', binary_result', ternary_result', reshape_result', nary3_result',
      nullary_result_ne', unary_result_ne', binary_result_ne', ternary_result_ne', reshape_result_ne', nary_result_ne']

theorem stageA_arg3 (V : Valuation τ sig (Elt F)) :
    after opsA V (main_arg3 : DevRef τ sig) = V (main_arg3 : DevRef τ sig) := by
  simp (disch := decide) only [after_cons, after_nil,
      nullary_result', unary_result', binary_result', ternary_result', reshape_result', nary3_result',
      nullary_result_ne', unary_result_ne', binary_result_ne', ternary_result_ne', reshape_result_ne', nary_result_ne']

theorem stageA_arg4 (V : Valuation τ sig (Elt F)) :
    after opsA V (main_arg4 : DevRef τ sig) = V (main_arg4 : DevRef τ sig) := by
  simp (disch := decide) only [after_cons, after_nil,
      nullary_result', unary_result', binary_result', ternary_result', reshape_result', nary3_result',
      nullary_result_ne', unary_result_ne', binary_result_ne', ternary_result_ne', reshape_result_ne', nary_result_ne']

theorem stageA_arg5 (V : Valuation τ sig (Elt F)) :
    after opsA V (main_arg5 : DevRef τ sig) = V (main_arg5 : DevRef τ sig) := by
  simp (disch := decide) only [after_cons, after_nil,
      nullary_result', unary_result', binary_result', ternary_result', reshape_result', nary3_result',
      nullary_result_ne', unary_result_ne', binary_result_ne', ternary_result_ne', reshape_result_ne', nary_result_ne']

theorem stageA_arg6 (V : Valuation τ sig (Elt F)) :
    after opsA V (main_arg6 : DevRef τ sig) = V (main_arg6 : DevRef τ sig) := by
  simp (disch := decide) only [after_cons, after_nil,
      nullary_result', unary_result', binary_result', ternary_result', reshape_result', nary3_result',
      nullary_result_ne', unary_result_ne', binary_result_ne', ternary_result_ne', reshape_result_ne', nary_result_ne']

theorem stageA_arg7 (V : Valuation τ sig (Elt F)) :
    after opsA V (main_arg7 : DevRef τ sig) = V (main_arg7 : DevRef τ sig) := by
  simp (disch := decide) only [after_cons, after_nil,
      nullary_result', unary_result', binary_result', ternary_result', reshape_result', nary3_result',
      nullary_result_ne', unary_result_ne', binary_result_ne', ternary_result_ne', reshape_result_ne', nary_result_ne']

theorem stageA_arg8 (V : Valuation τ sig (Elt F)) :
    after opsA V (main_arg8 : DevRef τ sig) = V (main_arg8 : DevRef τ sig) := by
  simp (disch := decide) only [after_cons, after_nil,
      nullary_result', unary_result', binary_result', ternary_result', reshape_result', nary3_result',
      nullary_result_ne', unary_result_ne', binary_result_ne', ternary_result_ne', reshape_result_ne', nary_result_ne']

theorem stageA_arg9 (V : Valuation τ sig (Elt F)) :
    after opsA V (main_arg9 : DevRef τ sig) = V (main_arg9 : DevRef τ sig) := by
  simp (disch := decide) only [after_cons, after_nil,
      nullary_result', unary_result', binary_result', ternary_result', reshape_result', nary3_result',
      nullary_result_ne', unary_result_ne', binary_result_ne', ternary_result_ne', reshape_result_ne', nary_result_ne']

theorem stageA_arg10 (V : Valuation τ sig (Elt F)) :
    after opsA V (main_arg10 : DevRef τ sig) = V (main_arg10 : DevRef τ sig) := by
  simp (disch := decide) only [after_cons, after_nil,
      nullary_result', unary_result', binary_result', ternary_result', reshape_result', nary3_result',
      nullary_result_ne', unary_result_ne', binary_result_ne', ternary_result_ne', reshape_result_ne', nary_result_ne']

theorem stageA_arg11 (V : Valuation τ sig (Elt F)) :
    after opsA V (main_arg11 : DevRef τ sig) = V (main_arg11 : DevRef τ sig) := by
  simp (disch := decide) only [after_cons, after_nil,
      nullary_result', unary_result', binary_result', ternary_result', reshape_result', nary3_result',
      nullary_result_ne', unary_result_ne', binary_result_ne', ternary_result_ne', reshape_result_ne', nary_result_ne']

/-! ### The second stretch -/

set_option maxRecDepth 8192 in
set_option maxHeartbeats 4000000 in
theorem stageB_v47 (W : Valuation τ sig (Elt F)) :
    after opsB W (main_v47 : DevRef τ sig)
      = Stages.head (Stages.rhoS (Stages.aggS (Stages.hid2 (Stages.hid1
          (concatenate S6x65536x146 2 [⟨S6x65536x110, W (main_v26 : DevRef τ sig)⟩, ⟨S6x65536x18, W (main_v18 : DevRef τ sig)⟩, ⟨S6x65536x18, W (main_v24 : DevRef τ sig)⟩]
            concatenates_S6x65536x110_S6x65536x18_S6x65536x18_S6x65536x146_d2)
          (W (main_arg2 : DevRef τ sig)) (W (main_arg3 : DevRef τ sig))) (W (main_arg4 : DevRef τ sig)) (W (main_arg5 : DevRef τ sig)))) (W (main_arg6 : DevRef τ sig)) (W (main_arg7 : DevRef τ sig))) (W (main_arg8 : DevRef τ sig)) (W (main_arg9 : DevRef τ sig)) := by
  simp (disch := decide) only [after_cons, after_nil,
      nullary_result', unary_result', binary_result', ternary_result', reshape_result', nary3_result',
      nullary_result_ne', unary_result_ne', binary_result_ne', ternary_result_ne', reshape_result_ne', nary_result_ne']
  rfl

set_option maxRecDepth 8192 in
set_option maxHeartbeats 4000000 in
theorem stageB_v52 (W : Valuation τ sig (Elt F)) :
    after opsB W (main_v52 : DevRef τ sig)
      = Stages.clip (Stages.head (Stages.rhoS (Stages.aggS (Stages.hid2 (Stages.hid1
          (concatenate S6x65536x146 2 [⟨S6x65536x110, W (main_v26 : DevRef τ sig)⟩, ⟨S6x65536x18, W (main_v18 : DevRef τ sig)⟩, ⟨S6x65536x18, W (main_v24 : DevRef τ sig)⟩]
            concatenates_S6x65536x110_S6x65536x18_S6x65536x18_S6x65536x146_d2)
          (W (main_arg2 : DevRef τ sig)) (W (main_arg3 : DevRef τ sig))) (W (main_arg4 : DevRef τ sig)) (W (main_arg5 : DevRef τ sig)))) (W (main_arg6 : DevRef τ sig)) (W (main_arg7 : DevRef τ sig))) (W (main_arg10 : DevRef τ sig)) (W (main_arg11 : DevRef τ sig))) := by
  simp (disch := decide) only [after_cons, after_nil,
      nullary_result', unary_result', binary_result', ternary_result', reshape_result', nary3_result',
      nullary_result_ne', unary_result_ne', binary_result_ne', ternary_result_ne', reshape_result_ne', nary_result_ne']
  rfl

/-! ### The whole line -/

/-- The first result buffer ends at the staged mean of the arguments. -/
theorem mean_eq (V : Valuation τ sig (Elt F)) :
    after ops V (main_v47 : DevRef τ sig) = Stages.mean (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  rw [ops_eq, after_split, stageB_v47, stageA_v26, stageA_v18, stageA_v24, stageA_arg2, stageA_arg3, stageA_arg4, stageA_arg5,
    stageA_arg6, stageA_arg7, stageA_arg8, stageA_arg9]
  rfl

/-- The second result buffer ends at the staged clipped head of the arguments. -/
theorem lstd_eq (V : Valuation τ sig (Elt F)) :
    after ops V (main_v52 : DevRef τ sig) = Stages.lstd (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg10 : DevRef τ sig)) (V (main_arg11 : DevRef τ sig)) := by
  rw [ops_eq, after_split, stageB_v52, stageA_v26, stageA_v18, stageA_v24, stageA_arg2, stageA_arg3, stageA_arg4, stageA_arg5,
    stageA_arg6, stageA_arg7, stageA_arg10, stageA_arg11]
  rfl

/-! ### The arguments are written by no operation -/

set_option maxRecDepth 8192 in
set_option maxHeartbeats 4000000 in
theorem arg0_eq (V : Valuation τ sig (Elt F)) :
    after ops V (main_arg0 : DevRef τ sig) = V (main_arg0 : DevRef τ sig) := by
  simp (disch := decide) only [after_cons, after_nil,
      nullary_result', unary_result', binary_result', ternary_result', reshape_result', nary3_result',
      nullary_result_ne', unary_result_ne', binary_result_ne', ternary_result_ne', reshape_result_ne', nary_result_ne']

set_option maxRecDepth 8192 in
set_option maxHeartbeats 4000000 in
theorem arg1_eq (V : Valuation τ sig (Elt F)) :
    after ops V (main_arg1 : DevRef τ sig) = V (main_arg1 : DevRef τ sig) := by
  simp (disch := decide) only [after_cons, after_nil,
      nullary_result', unary_result', binary_result', ternary_result', reshape_result', nary3_result',
      nullary_result_ne', unary_result_ne', binary_result_ne', ternary_result_ne', reshape_result_ne', nary_result_ne']

set_option maxRecDepth 8192 in
set_option maxHeartbeats 4000000 in
theorem arg2_eq (V : Valuation τ sig (Elt F)) :
    after ops V (main_arg2 : DevRef τ sig) = V (main_arg2 : DevRef τ sig) := by
  simp (disch := decide) only [after_cons, after_nil,
      nullary_result', unary_result', binary_result', ternary_result', reshape_result', nary3_result',
      nullary_result_ne', unary_result_ne', binary_result_ne', ternary_result_ne', reshape_result_ne', nary_result_ne']

set_option maxRecDepth 8192 in
set_option maxHeartbeats 4000000 in
theorem arg3_eq (V : Valuation τ sig (Elt F)) :
    after ops V (main_arg3 : DevRef τ sig) = V (main_arg3 : DevRef τ sig) := by
  simp (disch := decide) only [after_cons, after_nil,
      nullary_result', unary_result', binary_result', ternary_result', reshape_result', nary3_result',
      nullary_result_ne', unary_result_ne', binary_result_ne', ternary_result_ne', reshape_result_ne', nary_result_ne']

set_option maxRecDepth 8192 in
set_option maxHeartbeats 4000000 in
theorem arg4_eq (V : Valuation τ sig (Elt F)) :
    after ops V (main_arg4 : DevRef τ sig) = V (main_arg4 : DevRef τ sig) := by
  simp (disch := decide) only [after_cons, after_nil,
      nullary_result', unary_result', binary_result', ternary_result', reshape_result', nary3_result',
      nullary_result_ne', unary_result_ne', binary_result_ne', ternary_result_ne', reshape_result_ne', nary_result_ne']

set_option maxRecDepth 8192 in
set_option maxHeartbeats 4000000 in
theorem arg5_eq (V : Valuation τ sig (Elt F)) :
    after ops V (main_arg5 : DevRef τ sig) = V (main_arg5 : DevRef τ sig) := by
  simp (disch := decide) only [after_cons, after_nil,
      nullary_result', unary_result', binary_result', ternary_result', reshape_result', nary3_result',
      nullary_result_ne', unary_result_ne', binary_result_ne', ternary_result_ne', reshape_result_ne', nary_result_ne']

set_option maxRecDepth 8192 in
set_option maxHeartbeats 4000000 in
theorem arg6_eq (V : Valuation τ sig (Elt F)) :
    after ops V (main_arg6 : DevRef τ sig) = V (main_arg6 : DevRef τ sig) := by
  simp (disch := decide) only [after_cons, after_nil,
      nullary_result', unary_result', binary_result', ternary_result', reshape_result', nary3_result',
      nullary_result_ne', unary_result_ne', binary_result_ne', ternary_result_ne', reshape_result_ne', nary_result_ne']

set_option maxRecDepth 8192 in
set_option maxHeartbeats 4000000 in
theorem arg7_eq (V : Valuation τ sig (Elt F)) :
    after ops V (main_arg7 : DevRef τ sig) = V (main_arg7 : DevRef τ sig) := by
  simp (disch := decide) only [after_cons, after_nil,
      nullary_result', unary_result', binary_result', ternary_result', reshape_result', nary3_result',
      nullary_result_ne', unary_result_ne', binary_result_ne', ternary_result_ne', reshape_result_ne', nary_result_ne']

set_option maxRecDepth 8192 in
set_option maxHeartbeats 4000000 in
theorem arg8_eq (V : Valuation τ sig (Elt F)) :
    after ops V (main_arg8 : DevRef τ sig) = V (main_arg8 : DevRef τ sig) := by
  simp (disch := decide) only [after_cons, after_nil,
      nullary_result', unary_result', binary_result', ternary_result', reshape_result', nary3_result',
      nullary_result_ne', unary_result_ne', binary_result_ne', ternary_result_ne', reshape_result_ne', nary_result_ne']

set_option maxRecDepth 8192 in
set_option maxHeartbeats 4000000 in
theorem arg9_eq (V : Valuation τ sig (Elt F)) :
    after ops V (main_arg9 : DevRef τ sig) = V (main_arg9 : DevRef τ sig) := by
  simp (disch := decide) only [after_cons, after_nil,
      nullary_result', unary_result', binary_result', ternary_result', reshape_result', nary3_result',
      nullary_result_ne', unary_result_ne', binary_result_ne', ternary_result_ne', reshape_result_ne', nary_result_ne']

set_option maxRecDepth 8192 in
set_option maxHeartbeats 4000000 in
theorem arg10_eq (V : Valuation τ sig (Elt F)) :
    after ops V (main_arg10 : DevRef τ sig) = V (main_arg10 : DevRef τ sig) := by
  simp (disch := decide) only [after_cons, after_nil,
      nullary_result', unary_result', binary_result', ternary_result', reshape_result', nary3_result',
      nullary_result_ne', unary_result_ne', binary_result_ne', ternary_result_ne', reshape_result_ne', nary_result_ne']

set_option maxRecDepth 8192 in
set_option maxHeartbeats 4000000 in
theorem arg11_eq (V : Valuation τ sig (Elt F)) :
    after ops V (main_arg11 : DevRef τ sig) = V (main_arg11 : DevRef τ sig) := by
  simp (disch := decide) only [after_cons, after_nil,
      nullary_result', unary_result', binary_result', ternary_result', reshape_result', nary3_result',
      nullary_result_ne', unary_result_ne', binary_result_ne', ternary_result_ne', reshape_result_ne', nary_result_ne']

/-- On every device, for any float values, from any memory with zero counters: every weakly fair execution of
    the reference terminates with its two results at the staged functions of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47)
          = Stages.mean (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8))
              (m ((c.tc : Thread nD τ).loc main_arg9))
      ∧ r.2.mem ((c.tc : Thread nD τ).loc main_v52)
          = Stages.lstd (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg10))
              (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v47).trans (mean_eq _), (h c main_v52).trans (lstd_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _)⟩)
    (run_seq scopedRefs_eq scopedSems_eq defs main (fun _ => ops) main_eq (fun _ => ops_sub) m ρ)

end Cert.ReferenceIdeal.Run

end
-- ==== Proof.RefInput.lean ====
/-
  The reference's six pair inputs, read one entry at a time.

  Entry (pair p, batch row b, column k) of the [6, batch, 146] array of pair inputs depends on row `b` of the
  observation and of the embedding only, and is `Actor.pairRow` of those rows for the p-th ordered pair of objects.
-/
import proofs.«166104_j69887707840990_1_alg».proof.Proof.RefStages
import proofs.«166104_j69887707840990_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.Lib.StableHlo.Predicate

noncomputable section

namespace Cert.ReferenceIdeal.Rows

open Cert.ReferenceIdeal Cert.ReferenceIdeal.Stages Idealize.ShloMosaic Idealize.ShloMosaic.ValueIdx Actor

variable [Facts]

/-- The identity matrix: one on the diagonal, zero off it. -/
theorem eye3_apply (a b : Fin 3) : eye3 (F := Ideal) (ix2 a b) = if a.val = b.val then 1 else 0 := by
  unfold eye3
  show FloatOps.uitofp (F := Ideal) .f32 (IntOp.cmpi .eq (IntOp.addi (BitVec.ofNat 32 a.val)
    (broadcastInDim S3x3 ![] Facts₀.bcast_S_S3x3 (constantI S_ 32 0#32) (ix2 a b))) (BitVec.ofNat 32 b.val)) = _
  rw [broadcastInDim_scalar_apply]
  -- the bit "row number = column number", read as a natural number
  show (((IntOp.cmpi .eq (IntOp.addi (BitVec.ofNat 32 a.val) 0#32) (BitVec.ofNat 32 b.val)).toNat : ℝ) : EReal) = _
  fin_cases a <;> fin_cases b <;> simp [IntOp.cmpi, IntOp.addi]

/-- Object `o` of batch row `b`, entry `j`. -/
theorem objs_apply (obs : FVec Ideal S65536x55 .f32) (b : Fin 65536) (o : Fin 3) (j : Fin 18) :
    objs obs (ix3 b o j) = objRow (rowOf obs b) o j := by
  unfold objs objRow
  by_cases h : j.val < 3
  · -- the one-hot code: the identity matrix at (o, j), whatever the batch row
    rw [dif_pos h]
    refine (concatenate_pair_apply_left (s₁ := S65536x3x3) (s₂ := S65536x3x15) (2 : Fin 3) _ _ _ (ix3 b o j) rfl (ix3 b o ⟨j.val, h⟩)
      (fun c => match c with | ⟨0, _⟩ => rfl | ⟨1, _⟩ => rfl | ⟨2, _⟩ => rfl)).trans ?_
    refine (broadcastInDim_apply (s := S1x3x3) _ _ _ (ix3 b o ⟨j.val, h⟩) (ix3 (0 : Fin 1) o ⟨j.val, h⟩)
      (fun c => match c with | ⟨0, _⟩ => rfl | ⟨1, _⟩ => rfl | ⟨2, _⟩ => rfl)).trans ?_
    refine (broadcastInDim_apply (s := S3x3) _ _ _ (ix3 (0 : Fin 1) o ⟨j.val, h⟩) (ix2 o ⟨j.val, h⟩)
      (fun c => match c with | ⟨0, _⟩ => rfl | ⟨1, _⟩ => rfl)).trans ?_
    rw [eye3_apply]
    show (if o.val = j.val then (1 : EReal) else 0) = _
    by_cases e : j.val = o.val
    · rw [if_pos e, if_pos e.symm]
    · rw [if_neg e, if_neg (fun e' => e e'.symm)]
  · -- the features: entry (b, o, f) of the reshaped slice is entry (b, 15 o + f) of the slice, entry (b, 10 + 15 o + f) of the row
    rw [dif_neg h]
    have hj : j.val - 3 < 15 := by have := j.isLt; omega
    have ho := o.isLt
    refine (concatenate_pair_apply_right (s₁ := S65536x3x3) (s₂ := S65536x3x15) (2 : Fin 3) _ _ _ (ix3 b o j) rfl rfl (ix3 b o ⟨j.val - 3, hj⟩)
      (fun c => match c with | ⟨0, _⟩ => fun _ => rfl | ⟨1, _⟩ => fun _ => rfl | ⟨2, _⟩ => fun hc => absurd rfl hc) ?_).trans ?_
    · show j.val - 3 + 3 = j.val
      omega
    · refine (shapeCast_apply (s := S65536x45) _ _ (ix3 b o ⟨j.val - 3, hj⟩) (ix2 b ⟨15 * o.val + (j.val - 3), by omega⟩) ?_).trans ?_
      · rw [Shape.rowMajor_val_two, Shape.rowMajor_val_three]
        show b.val * 45 + (15 * o.val + (j.val - 3)) = (b.val * 3 + o.val) * 15 + (j.val - 3)
        omega
      · exact slice2_axis1_apply 10 obs _ b ⟨15 * o.val + (j.val - 3), by omega⟩ ⟨10 + 15 * o.val + (j.val - 3), by omega⟩
          (by show 10 + 15 * o.val + (j.val - 3) = 10 + (15 * o.val + (j.val - 3)); omega)

/-- The shared part at batch row `b`, entry `k`. -/
theorem base_apply (obs : FVec Ideal S65536x55 .f32) (lemb : FVec Ideal S65536x100 .f32) (b : Fin 65536) (k : Fin 110) :
    base obs lemb (ix2 b k) = baseRow (rowOf obs b) (rowOf lemb b) k := by
  unfold base baseRow
  by_cases h : k.val < 100
  · rw [dif_pos h]
    exact concatenate_pair_apply_left (s₁ := S65536x100) (s₂ := S65536x10) (1 : Fin 2) lemb _ _ (ix2 b k) rfl (ix2 b ⟨k.val, h⟩)
      (fun c => match c with | ⟨0, _⟩ => rfl | ⟨1, _⟩ => rfl)
  · rw [dif_neg h]
    have hk : k.val - 100 < 10 := by have := k.isLt; omega
    refine (concatenate_pair_apply_right (s₁ := S65536x100) (s₂ := S65536x10) (1 : Fin 2) lemb _ _ (ix2 b k) rfl rfl (ix2 b ⟨k.val - 100, hk⟩)
      (fun c => match c with | ⟨0, _⟩ => fun _ => rfl | ⟨1, _⟩ => fun hc => absurd rfl hc) ?_).trans ?_
    · show k.val - 100 + 100 = k.val
      omega
    · exact slice2_axis1_apply 0 obs _ b ⟨k.val - 100, hk⟩ ⟨k.val - 100, by omega⟩ (by simp)

/-- The look-up's dimension numbers: a take along the object axis, whole batch and whole entry axes kept. -/
abbrev objGather := gather_S65536x3x18_S6x1_S65536x6x18_02_1_n_n_1_1_65536118

/-- The look-up read at (b, p, j): the operand at (b, s, j), where s is the p-th start index read signed and clamped
    into the three objects. -/
theorem gather_apply {α : Type} (x : S65536x3x18.Idx → α) (idx : IVec S6x1 32) (b : Fin 65536) (p : Fin 6) (j : Fin 18) :
    Host.gather objGather x idx (ix3 b p j) = x (ix3 b ⟨min (idx (ix2 p 0)).toInt.toNat 2, by omega⟩ j) := by
  unfold Host.gather
  congr 1
  funext a
  apply Fin.ext
  have k0 : (0 : Fin 3) ∈ objGather.sKept := show (0 : Fin 3) ∈ S65536x3x18.kept [1] from by decide
  have k1 : (1 : Fin 3) ∉ objGather.sKept := show (1 : Fin 3) ∉ S65536x3x18.kept [1] from by decide
  have k2 : (2 : Fin 3) ∈ objGather.sKept := show (2 : Fin 3) ∈ S65536x3x18.kept [1] from by decide
  have m0 : (0 : Fin 3) ∉ objGather.startIndexMap := show (0 : Fin 3) ∉ ([1] : List (Fin 3)) from by decide
  have m1 : (1 : Fin 3) ∈ objGather.startIndexMap := show (1 : Fin 3) ∈ ([1] : List (Fin 3)) from by decide
  have m2 : (2 : Fin 3) ∉ objGather.startIndexMap := show (2 : Fin 3) ∉ ([1] : List (Fin 3)) from by decide
  match a with
  | ⟨0, _⟩ =>
    -- the batch axis: an offset axis, no start
    show objGather.start (ix3 b p j) idx 0 + objGather.batchCoord (ix3 b p j) 0 + objGather.offCoord (ix3 b p j) 0 = b.val
    rw [GatherDims.batchCoord_eq_zero _ _ _ List.not_mem_nil]
    have h0 : objGather.start (ix3 b p j) idx 0 = 0 := by
      unfold GatherDims.start
      rw [dif_neg m0]
    have h1 : objGather.offCoord (ix3 b p j) 0 = b.val := by
      unfold GatherDims.offCoord
      rw [dif_pos k0]
      rfl
    rw [h0, h1]; omega
  | ⟨1, _⟩ =>
    -- the object axis: collapsed, its coordinate the clamped start index
    show objGather.start (ix3 b p j) idx 1 + objGather.batchCoord (ix3 b p j) 1 + objGather.offCoord (ix3 b p j) 1
      = min (idx (ix2 p 0)).toInt.toNat 2
    rw [GatherDims.batchCoord_eq_zero _ _ _ List.not_mem_nil]
    have h1 : objGather.offCoord (ix3 b p j) 1 = 0 := by
      unfold GatherDims.offCoord
      rw [dif_neg k1]
    have h0 : objGather.start (ix3 b p j) idx 1 = min (idx (ix2 p 0)).toInt.toNat 2 := by
      unfold GatherDims.start
      rw [dif_pos m1]
      have hsi : objGather.siIdx (ix3 b p j) ⟨List.idxOf (1 : Fin 3) objGather.startIndexMap, List.idxOf_lt_length_iff.2 m1⟩
          = ix2 p 0 := by
        funext c; refine Fin.ext ?_
        match c with
        | ⟨0, _⟩ => rfl
        | ⟨1, _⟩ => rfl
      rw [hsi]
      rfl
    rw [h0, h1]; omega
  | ⟨2, _⟩ =>
    -- the entry axis: an offset axis, no start
    show objGather.start (ix3 b p j) idx 2 + objGather.batchCoord (ix3 b p j) 2 + objGather.offCoord (ix3 b p j) 2 = j.val
    rw [GatherDims.batchCoord_eq_zero _ _ _ List.not_mem_nil]
    have h0 : objGather.start (ix3 b p j) idx 2 = 0 := by
      unfold GatherDims.start
      rw [dif_neg m2]
    have h1 : objGather.offCoord (ix3 b p j) 2 = j.val := by
      unfold GatherDims.offCoord
      rw [dif_pos k2]
      rfl
    rw [h0, h1]; omega

/-- The column of start indices at row `p` is the table's entry `p`: the wrap-around branch is never selected. -/
theorem idxCol_apply (lit : Fin 6 → BitVec 32) (p : Fin 6) : idxCol lit (ix2 p 0) = lit p := by
  unfold idxCol
  refine (broadcastInDim_apply (s := S6) _ _ _ (ix2 p (0 : Fin 1)) (ix1 p) (fun c => match c with | ⟨0, _⟩ => rfl)).trans ?_
  rw [select_apply, constantI_apply, select_zero]
  exact congrArg lit (Fin.ext (Shape.rowMajor_val_one _))

/-- The object a table names for pair `p`, when the table's entry `p`, read signed and clamped, is object `o`. -/
theorem side_apply (obs : FVec Ideal S65536x55 .f32) (lit : Fin 6 → BitVec 32) (p : Fin 6) (b : Fin 65536) (j : Fin 18)
    (o : Fin 3) (ho : min (lit p).toInt.toNat 2 = o.val) :
    side obs lit (ix3 p b j) = objRow (rowOf obs b) o j := by
  unfold side
  refine (transpose_apply (s := S65536x6x18) _ _ _ (ix3 p b j) (ix3 b p j)
    (fun c => match c with | ⟨0, _⟩ => rfl | ⟨1, _⟩ => rfl | ⟨2, _⟩ => rfl)).trans ?_
  rw [gather_apply, ← objs_apply]
  refine congrArg (objs obs) ?_
  have e : (⟨min (idxCol lit (ix2 p 0)).toInt.toNat 2, by omega⟩ : Fin 3) = o :=
    Fin.ext (by show min (idxCol lit (ix2 p 0)).toInt.toNat 2 = o.val; rw [idxCol_apply]; exact ho)
  rw [e]

/-- The first object of pair `p`, at batch row `b`, entry `j`. -/
theorem side0_apply (obs : FVec Ideal S65536x55 .f32) (p : Fin 6) (b : Fin 65536) (j : Fin 18) :
    side obs lit0 (ix3 p b j) = objRow (rowOf obs b) (pairI p) j :=
  side_apply obs lit0 p b j (pairI p) (by fin_cases p <;> decide)

/-- The second object of pair `p`, at batch row `b`, entry `j`. -/
theorem side1_apply (obs : FVec Ideal S65536x55 .f32) (p : Fin 6) (b : Fin 65536) (j : Fin 18) :
    side obs lit1 (ix3 p b j) = objRow (rowOf obs b) (pairJ p) j :=
  side_apply obs lit1 p b j (pairJ p) (by fin_cases p <;> decide)

/-- The pair input of pair `p` at batch row `b`, column `k`. -/
theorem inp_apply (obs : FVec Ideal S65536x55 .f32) (lemb : FVec Ideal S65536x100 .f32) (p : Fin 6) (b : Fin 65536) (k : Fin 146) :
    inp obs lemb (ix3 p b k) = pairRow (rowOf obs b) (rowOf lemb b) (pairI p) (pairJ p) k := by
  unfold inp pairRow
  have hk := k.isLt
  by_cases h : k.val < 110
  · -- columns 0 … 109: the shared part, the same for every pair
    rw [dif_pos h]
    refine (concatenate_apply_piece (2 : Fin 3) _ _ (ix3 p b k) 0 (by show (0 : ℕ) < 3; omega) S6x65536x110 _ rfl rfl 0 rfl
      (ix3 p b ⟨k.val, h⟩) (fun c => match c with | ⟨0, _⟩ => fun _ => rfl | ⟨1, _⟩ => fun _ => rfl | ⟨2, _⟩ => fun hc => absurd rfl hc)
      (Nat.zero_add _)).trans ?_
    refine (broadcastInDim_apply (s := S1x65536x110) _ _ _ (ix3 p b ⟨k.val, h⟩) (ix3 (0 : Fin 1) b ⟨k.val, h⟩)
      (fun c => match c with | ⟨0, _⟩ => rfl | ⟨1, _⟩ => rfl | ⟨2, _⟩ => rfl)).trans ?_
    refine (broadcastInDim_apply (s := S65536x110) _ _ _ (ix3 (0 : Fin 1) b ⟨k.val, h⟩) (ix2 b ⟨k.val, h⟩)
      (fun c => match c with | ⟨0, _⟩ => rfl | ⟨1, _⟩ => rfl)).trans ?_
    exact base_apply obs lemb b ⟨k.val, h⟩
  · rw [dif_neg h]
    by_cases h2 : k.val < 128
    · -- columns 110 … 127: the first object of the pair
      rw [dif_pos h2]
      have hj : k.val - 110 < 18 := by omega
      refine (concatenate_apply_piece (2 : Fin 3) _ _ (ix3 p b k) 1 (by show (1 : ℕ) < 3; omega) S6x65536x18 _ rfl rfl 110 rfl
        (ix3 p b ⟨k.val - 110, hj⟩) (fun c => match c with | ⟨0, _⟩ => fun _ => rfl | ⟨1, _⟩ => fun _ => rfl | ⟨2, _⟩ => fun hc => absurd rfl hc)
        ?_).trans ?_
      · show 110 + (k.val - 110) = k.val
        omega
      · exact side0_apply obs p b ⟨k.val - 110, hj⟩
    · -- columns 128 … 145: the second object of the pair
      rw [dif_neg h2]
      have hj : k.val - 128 < 18 := by omega
      refine (concatenate_apply_piece (2 : Fin 3) _ _ (ix3 p b k) 2 (by show (2 : ℕ) < 3; omega) S6x65536x18 _ rfl rfl 128 rfl
        (ix3 p b ⟨k.val - 128, hj⟩) (fun c => match c with | ⟨0, _⟩ => fun _ => rfl | ⟨1, _⟩ => fun _ => rfl | ⟨2, _⟩ => fun hc => absurd rfl hc)
        ?_).trans ?_
      · show 128 + (k.val - 128) = k.val
        omega
      · exact side1_apply obs p b ⟨k.val - 128, hj⟩

end Cert.ReferenceIdeal.Rows

end
-- ==== Proof.RefDense.lean ====
/-
  The reference's dense layers, the sum over the six pairs and the heads, read one entry at a time; and the
  reference's two results as the row functions of `Actor`.

  A contraction of the last axis of a [6, batch, K] array with a [K, H] matrix, plus a bias repeated over pairs and
  batch, at (p, b, h) is `Actor.dense` of the K-vector at (p, b).  The sum over the leading axis from zero is the sum
  of the six entries.
-/
import proofs.«166104_j69887707840990_1_alg».proof.Proof.RefInput
import Idealize.ShloMosaic.PureOps.Ideal.Laws

noncomputable section

namespace Cert.ReferenceIdeal.Rows

open Cert.ReferenceIdeal Cert.ReferenceIdeal.Stages Idealize.ShloMosaic Idealize.ShloMosaic.ValueIdx Actor

/-! ## Contractions, biases and zeros at an index -/

/-- A [P, B, K] array contracted on its last axis with a [K, H] matrix, at (p, r, h): the sum over K. -/
theorem dot3_apply {P B K H : Nat}
    (w : DotDims.WF ⟨3, ![P, B, K]⟩ ⟨2, ![K, H]⟩ ⟨3, ![P, B, H]⟩ [2] [0] [0, 1] [1] [] [])
    (x : FVec Ideal ⟨3, ![P, B, K]⟩ .f32) (W : FVec Ideal ⟨2, ![K, H]⟩ .f32) (p : Fin P) (r : Fin B) (h : Fin H) :
    Host.dotGeneral (⟨[2], [0], [0, 1], [1], [], [], w⟩ : DotDims _ _ _) none x W (ix3 p r h)
      = ∑ k : Fin K, x (ix3 p r k) * W (ix2 k h) := by
  show FloatOps.dotGeneral _ none _ x W (ix3 p r h) = _
  rw [Ideal.dotGeneral_apply,
    ← Equiv.sum_comp (contrEquiv1 (⟨[2], [0], [0, 1], [1], [], [], w⟩ : DotDims _ _ _) K rfl rfl).symm]
  refine Finset.sum_congr rfl fun c _ => ?_
  have hc := contrEquiv1_symm_val
    (⟨[2], [0], [0, 1], [1], [], [], w⟩ : DotDims ⟨3, ![P, B, K]⟩ ⟨2, ![K, H]⟩ ⟨3, ![P, B, H]⟩) K rfl rfl c
  have hl : (⟨[2], [0], [0, 1], [1], [], [], w⟩ : DotDims ⟨3, ![P, B, K]⟩ ⟨2, ![K, H]⟩ ⟨3, ![P, B, H]⟩).lhsIdx (ix3 p r h)
      ((contrEquiv1 _ K rfl rfl).symm c) = ix3 p r c := by
    funext a; apply Fin.ext
    match a with
    | ⟨0, _⟩ => simp [DotDims.lhsIdx]; rfl
    | ⟨1, _⟩ => simp [DotDims.lhsIdx]; rfl
    | ⟨2, _⟩ => simp [DotDims.lhsIdx]; exact hc
  have hr : (⟨[2], [0], [0, 1], [1], [], [], w⟩ : DotDims ⟨3, ![P, B, K]⟩ ⟨2, ![K, H]⟩ ⟨3, ![P, B, H]⟩).rhsIdx (ix3 p r h)
      ((contrEquiv1 _ K rfl rfl).symm c) = ix2 c h := by
    funext a; apply Fin.ext
    match a with
    | ⟨0, _⟩ => simp [DotDims.rhsIdx]; exact hc
    | ⟨1, _⟩ => simp [DotDims.rhsIdx]; rfl
  rw [hl, hr]

/-- A [B, K] matrix times a [K, H] matrix at (r, h): the sum over K. -/
theorem dot2_apply {B K H : Nat}
    (w : DotDims.WF ⟨2, ![B, K]⟩ ⟨2, ![K, H]⟩ ⟨2, ![B, H]⟩ [1] [0] [0] [1] [] [])
    (x : FVec Ideal ⟨2, ![B, K]⟩ .f32) (W : FVec Ideal ⟨2, ![K, H]⟩ .f32) (r : Fin B) (h : Fin H) :
    Host.dotGeneral (⟨[1], [0], [0], [1], [], [], w⟩ : DotDims _ _ _) none x W (ix2 r h)
      = ∑ k : Fin K, x (ix2 r k) * W (ix2 k h) := by
  show FloatOps.dotGeneral _ none _ x W (ix2 r h) = _
  rw [Ideal.dotGeneral_apply,
    ← Equiv.sum_comp (contrEquiv1 (⟨[1], [0], [0], [1], [], [], w⟩ : DotDims _ _ _) K rfl rfl).symm]
  refine Finset.sum_congr rfl fun c _ => ?_
  have hc := contrEquiv1_symm_val
    (⟨[1], [0], [0], [1], [], [], w⟩ : DotDims ⟨2, ![B, K]⟩ ⟨2, ![K, H]⟩ ⟨2, ![B, H]⟩) K rfl rfl c
  have hl : (⟨[1], [0], [0], [1], [], [], w⟩ : DotDims ⟨2, ![B, K]⟩ ⟨2, ![K, H]⟩ ⟨2, ![B, H]⟩).lhsIdx (ix2 r h)
      ((contrEquiv1 _ K rfl rfl).symm c) = ix2 r c := by
    funext a; apply Fin.ext
    match a with
    | ⟨0, _⟩ => simp [DotDims.lhsIdx]; rfl
    | ⟨1, _⟩ => simp [DotDims.lhsIdx]; exact hc
  have hr : (⟨[1], [0], [0], [1], [], [], w⟩ : DotDims ⟨2, ![B, K]⟩ ⟨2, ![K, H]⟩ ⟨2, ![B, H]⟩).rhsIdx (ix2 r h)
      ((contrEquiv1 _ K rfl rfl).symm c) = ix2 c h := by
    funext a; apply Fin.ext
    match a with
    | ⟨0, _⟩ => simp [DotDims.rhsIdx]; exact hc
    | ⟨1, _⟩ => simp [DotDims.rhsIdx]; rfl
  rw [hl, hr]

/-- A bias vector repeated over pairs and batch, at (p, r, h). -/
theorem bias3_apply (h1 : S256.BroadcastsInDim S1x1x256 (![2] : Fin 1 → Fin S1x1x256.rank))
    (h2 : S1x1x256.BroadcastsInDim S6x65536x256 (![0, 1, 2] : Fin 3 → Fin S6x65536x256.rank))
    (b : FVec Ideal S256 .f32) (p : Fin 6) (r : Fin 65536) (h : Fin 256) :
    broadcastInDim S6x65536x256 ![0, 1, 2] h2 (broadcastInDim S1x1x256 ![2] h1 b) (ix3 p r h) = b (ix1 h) := by
  rw [broadcastInDim_apply _ h2 _ (ix3 p r h) (ix3 0 0 h)
    (by intro a; match a with | ⟨0, _⟩ => rfl | ⟨1, _⟩ => rfl | ⟨2, _⟩ => rfl)]
  rw [broadcastInDim_apply _ h1 _ (ix3 0 0 h) (ix1 h) (by intro a; match a with | ⟨0, _⟩ => rfl)]

/-- A bias vector repeated over the batch, at (r, h). -/
theorem bias2_apply {H : Nat} (hH : H ≠ 1) (h1 : (⟨1, ![H]⟩ : Shape).BroadcastsInDim ⟨2, ![1, H]⟩ (![1] : Fin 1 → Fin 2))
    (h2 : (⟨2, ![1, H]⟩ : Shape).BroadcastsInDim ⟨2, ![65536, H]⟩ (![0, 1] : Fin 2 → Fin 2))
    (b : FVec Ideal ⟨1, ![H]⟩ .f32) (r : Fin 65536) (h : Fin H) :
    broadcastInDim ⟨2, ![65536, H]⟩ ![0, 1] h2 (broadcastInDim ⟨2, ![1, H]⟩ ![1] h1 b) (ix2 r h) = b (ix1 h) := by
  rw [broadcastInDim_apply _ h2 _ (ix2 r h) (ix2 0 h)
    (by intro a; match a with | ⟨0, _⟩ => rfl | ⟨1, _⟩ => exact (if_neg hH).symm)]
  rw [broadcastInDim_apply _ h1 _ (ix2 0 h) (ix1 h) (by intro a; match a with | ⟨0, _⟩ => exact (if_neg hH).symm)]

/-- The zero word repeated over any shape reads zero. -/
theorem zeros_apply {t : Shape} (hz : S_.BroadcastsInDim t (![] : Fin 0 → Fin t.rank)) (j : t.Idx) :
    broadcastInDim t ![] hz (constant (F := Ideal) S_ .f32 0x00000000#32) j = 0 := by
  show Ideal.ofBits .f32 0x00000000#32 = 0
  exact Ideal.ofBits_zero_f32

variable [Facts]

/-- First dense layer with ReLU at pair `p`, batch row `r`, unit `h`. -/
theorem hid1_apply (x : FVec Ideal S6x65536x146 .f32) (W : FVec Ideal S146x256 .f32) (b : FVec Ideal S256 .f32)
    (p : Fin 6) (r : Fin 65536) (h : Fin 256) :
    hid1 x W b (ix3 p r h) = relu (dense (fun k => x (ix3 p r k)) (mat W) (vec b) h) := by
  unfold hid1
  rw [maximumf_apply, addf_apply, zeros_apply, bias3_apply]
  show max (Host.dotGeneral _ none x W (ix3 p r h) + _) 0 = _
  rw [show dot_S6x65536x146_S146x256_S6x65536x256_2_0_01_1_n_n
      = (⟨[2], [0], [0, 1], [1], [], [], Facts₀.dot_S6x65536x146_S146x256_S6x65536x256_2_0_01_1_n_n_wf⟩ : DotDims _ _ _) from rfl,
    dot3_apply]
  rfl

/-- Second dense layer with ReLU at pair `p`, batch row `r`, unit `h`. -/
theorem hid2_apply (x : FVec Ideal S6x65536x256 .f32) (W : FVec Ideal S256x256 .f32) (b : FVec Ideal S256 .f32)
    (p : Fin 6) (r : Fin 65536) (h : Fin 256) :
    hid2 x W b (ix3 p r h) = relu (dense (fun k => x (ix3 p r k)) (mat W) (vec b) h) := by
  unfold hid2
  rw [maximumf_apply, addf_apply, zeros_apply, bias3_apply]
  show max (Host.dotGeneral _ none x W (ix3 p r h) + _) 0 = _
  rw [show dot_S6x65536x256_S256x256_S6x65536x256_2_0_01_1_n_n
      = (⟨[2], [0], [0, 1], [1], [], [], Facts₀.dot_S6x65536x256_S256x256_S6x65536x256_2_0_01_1_n_n_wf⟩ : DotDims _ _ _) from rfl,
    dot3_apply]
  rfl

/-- The sum over the six pairs at batch row `r`, unit `o`. -/
theorem aggS_apply (x : FVec Ideal S6x65536x256 .f32) (r : Fin 65536) (o : Fin 256) :
    aggS x (ix2 r o) = ∑ p : Fin 6, x (ix3 p r o) := by
  have hR : S6x65536x256.Reduces [0] S65536x256 := by decide
  unfold aggS
  show Ideal.hostReduceAdd _ x (Ideal.ofBits .f32 0x00000000#32) (ix2 r o) = _
  rw [Ideal.hostReduceAdd_single _ hR, Ideal.ofBits_zero_f32, zero_add]
  show ∑ p : Fin 6, x (hR.lift (ix2 r o) p) = _
  refine Finset.sum_congr rfl fun p _ => congrArg x ?_
  funext c; apply Fin.ext
  match c with
  | ⟨0, _⟩ => rfl
  | ⟨1, _⟩ => rfl
  | ⟨2, _⟩ => rfl

/-- The layer after the sum at batch row `r`, unit `h`. -/
theorem rhoS_apply (x : FVec Ideal S65536x256 .f32) (W : FVec Ideal S256x256 .f32) (b : FVec Ideal S256 .f32)
    (r : Fin 65536) (h : Fin 256) :
    rhoS x W b (ix2 r h) = relu (dense (rowOf x r) (mat W) (vec b) h) := by
  unfold rhoS
  rw [maximumf_apply, addf_apply, zeros_apply, bias2_apply (by decide)]
  show max (Host.dotGeneral _ none x W (ix2 r h) + _) 0 = _
  rw [show dot_S65536x256_S256x256_S65536x256_1_0_0_1_n_n
      = (⟨[1], [0], [0], [1], [], [], Facts₀.dot_S65536x256_S256x256_S65536x256_1_0_0_1_n_n_wf⟩ : DotDims _ _ _) from rfl,
    dot2_apply]
  rfl

/-- A head at batch row `r`, action `a`. -/
theorem head_apply (x : FVec Ideal S65536x256 .f32) (W : FVec Ideal S256x4 .f32) (b : FVec Ideal S4 .f32)
    (r : Fin 65536) (a : Fin 4) :
    head x W b (ix2 r a) = dense (rowOf x r) (mat W) (vec b) a := by
  unfold head
  rw [addf_apply, bias2_apply (by decide)]
  show Host.dotGeneral _ none x W (ix2 r a) + _ = _
  rw [show dot_S65536x256_S256x4_S65536x4_1_0_0_1_n_n
      = (⟨[1], [0], [0], [1], [], [], Facts₀.dot_S65536x256_S256x4_S65536x4_1_0_0_1_n_n_wf⟩ : DotDims _ _ _) from rfl,
    dot2_apply]
  rfl

/-- Clipping at an entry. -/
theorem clip_apply (x : FVec Ideal S65536x4 .f32) (i : S65536x4.Idx) :
    clip x i = min (Ideal.ofBits .f32 0x40000000#32) (max (Ideal.ofBits .f32 0xC1A00000#32) (x i)) := rfl

section
variable (obs : FVec Ideal S65536x55 .f32) (lemb : FVec Ideal S65536x100 .f32) (W1 : FVec Ideal S146x256 .f32) (b1 : FVec Ideal S256 .f32)
  (W2 : FVec Ideal S256x256 .f32) (b2 : FVec Ideal S256 .f32) (R1 : FVec Ideal S256x256 .f32) (rb1 : FVec Ideal S256 .f32)

/-- The layer after the sum, as the row function. -/
theorem rhoOf_apply (r : Fin 65536) (h : Fin 256) :
    rhoOf obs lemb W1 b1 W2 b2 R1 rb1 (ix2 r h)
      = rho (rowOf obs r) (rowOf lemb r) (mat W1) (vec b1) (mat W2) (vec b2) (mat R1) (vec rb1) h := by
  have e1 : ∀ p : Fin 6, (fun k => inp obs lemb (ix3 p r k))
      = pairRow (rowOf obs r) (rowOf lemb r) (pairI p) (pairJ p) :=
    fun p => funext fun k => inp_apply obs lemb p r k
  have e2 : ∀ p : Fin 6, (fun k => hid1 (inp obs lemb) W1 b1 (ix3 p r k))
      = hid (rowOf obs r) (rowOf lemb r) (mat W1) (vec b1) (pairI p) (pairJ p) :=
    fun p => funext fun k => by rw [hid1_apply, e1]; rfl
  have e3 : rowOf (aggS (hid2 (hid1 (inp obs lemb) W1 b1) W2 b2)) r
      = agg (rowOf obs r) (rowOf lemb r) (mat W1) (vec b1) (mat W2) (vec b2) :=
    funext fun o => by
      show aggS _ (ix2 r o) = _
      rw [aggS_apply]
      unfold agg
      refine Finset.sum_congr rfl fun p _ => ?_
      rw [hid2_apply, e2]; rfl
  unfold rhoOf
  rw [rhoS_apply, e3]; rfl

/-- The reference's first result is the mean array of the specification. -/
theorem mean_eq (MW : FVec Ideal S256x4 .f32) (mb : FVec Ideal S4 .f32) :
    mean obs lemb W1 b1 W2 b2 R1 rb1 MW mb = meanArr obs lemb W1 b1 W2 b2 R1 rb1 MW mb := by
  funext i
  obtain ⟨r, a, rfl⟩ : ∃ (r : Fin 65536) (a : Fin 4), i = ix2 r a := ⟨i 0, i 1, eq_ix2 i⟩
  have e : rowOf (rhoOf obs lemb W1 b1 W2 b2 R1 rb1) r
      = rho (rowOf obs r) (rowOf lemb r) (mat W1) (vec b1) (mat W2) (vec b2) (mat R1) (vec rb1) :=
    funext fun h => rhoOf_apply obs lemb W1 b1 W2 b2 R1 rb1 r h
  unfold mean
  rw [head_apply, e]; rfl

/-- The reference's second result is the log-std array of the specification. -/
theorem lstd_eq (LW : FVec Ideal S256x4 .f32) (lb : FVec Ideal S4 .f32) :
    lstd obs lemb W1 b1 W2 b2 R1 rb1 LW lb = lstdArr obs lemb W1 b1 W2 b2 R1 rb1 LW lb := by
  funext i
  obtain ⟨r, a, rfl⟩ : ∃ (r : Fin 65536) (a : Fin 4), i = ix2 r a := ⟨i 0, i 1, eq_ix2 i⟩
  have e : rowOf (rhoOf obs lemb W1 b1 W2 b2 R1 rb1) r
      = rho (rowOf obs r) (rowOf lemb r) (mat W1) (vec b1) (mat W2) (vec b2) (mat R1) (vec rb1) :=
    funext fun h => rhoOf_apply obs lemb W1 b1 W2 b2 R1 rb1 r h
  unfold lstd
  rw [clip_apply, head_apply, e]; rfl
end

end Cert.ReferenceIdeal.Rows

end
-- ==== Proof.lean ====
/-
  The certificate: a block-pipelined kernel for an actor network on pairs of objects, against its array-at-once reference.

  Both programs compute, for every batch row, the same function of that row of the observation and of the language
  embedding and of the weights (`Actor.meanRow`, `Actor.lstdRow` in Proof/Spec.lean): the six ordered pairs of the three
  objects each go through two dense layers with ReLU, the six outputs are added, the sum goes through one more dense
  layer with ReLU and two linear heads, the second clipped to [-20, 2].  The kernel does this 2048 rows at a time and
  narrows its matrix operands to a shorter float format first, which on the extended reals changes nothing; the
  reference does it for all rows and all six pairs at once.  On the extended reals the two agree entry by entry: every sum
  is over the same terms, and only commutativity and associativity of addition are used, so the finiteness of the inputs
  is never needed.

  The kernel's two frames are generated.  The kernel's value is read off the generated blockwise run (Proof/KernelInput.lean,
  Proof/KernelDense.lean: a block's row is the row function; Proof/KernelValue.lean: the 32 blocks tile the arrays).  The
  reference's run is Proof/RefRun.lean over the staged array functions of Proof/RefStages.lean, which Proof/RefInput.lean and
  Proof/RefDense.lean read entry by entry.  The idealization rewrote nothing, so `preserves` is trivial.
-/
import proofs.«166104_j69887707840990_1_alg».proof.Defs
import proofs.«166104_j69887707840990_1_alg».proof.Proof.Gen.Kernel
import proofs.«166104_j69887707840990_1_alg».proof.Proof.Gen.Kernel.Skeleton
import proofs.«166104_j69887707840990_1_alg».proof.Proof.Gen.Kernel.Launch
import proofs.«166104_j69887707840990_1_alg».proof.Proof.Gen.Kernel.Points
import proofs.«166104_j69887707840990_1_alg».proof.Proof.Gen.Kernel.Frame
import proofs.«166104_j69887707840990_1_alg».proof.Proof.Gen.KernelIdeal
import proofs.«166104_j69887707840990_1_alg».proof.Proof.Gen.KernelIdeal.Skeleton
import proofs.«166104_j69887707840990_1_alg».proof.Proof.Gen.KernelIdeal.Launch
import proofs.«166104_j69887707840990_1_alg».proof.Proof.Gen.KernelIdeal.Points
import proofs.«166104_j69887707840990_1_alg».proof.Proof.Gen.KernelIdeal.Frame
import proofs.«166104_j69887707840990_1_alg».proof.Proof.Gen.KernelIdeal.Value
import proofs.«166104_j69887707840990_1_alg».proof.Proof.Gen.ReferenceIdeal
import proofs.«166104_j69887707840990_1_alg».proof.Proof.Gen.Pre_finite_inputs
import proofs.«166104_j69887707840990_1_alg».proof.Proof.KernelValue
import proofs.«166104_j69887707840990_1_alg».proof.Proof.RefRun
import proofs.«166104_j69887707840990_1_alg».proof.Proof.RefDense
import Idealize.ShloMosaic.Adequacy
import Idealize.ShloMosaic.Init

noncomputable section

namespace Cert.Proof

open Idealize.ShloMosaic Idealize.SL.Sem

/-- The kernel as printed runs, without a fault, and leaves its arguments alone: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments alone: its run with the two results dropped. -/
theorem frame_ri : Cert.frame_ReferenceIdeal := fun m ρ _ =>
  (θ_run Cert.ReferenceIdeal.defs _ _).mono (fun _ h c => (h c).2.2) (Cert.ReferenceIdeal.Run.run (F := Ideal) m ρ)

/-- From memories that agree on the arguments both programs end with the specification's two arrays of those arguments. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ?_) (Cert.ReferenceIdeal.Run.run (F := Ideal) m' ρ')
  obtain ⟨a0, a1, a2, a3, a4, a5, a6, a7, a8, a9, a10, a11⟩ := hagree c
  refine ⟨(h c).1.trans ?_, (h c).2.1.trans ?_, (h c).2.2⟩
  · rw [a0, a1, a2, a3, a4, a5, a6, a7, a8, a9]
    exact Cert.ReferenceIdeal.Rows.mean_eq _ _ _ _ _ _ _ _ _ _
  · rw [a0, a1, a2, a3, a4, a5, a6, a7, a10, a11]
    exact Cert.ReferenceIdeal.Rows.lstd_eq _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
